-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S2000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S100000x1 : Shape := ⟨2, ![100000, 1]⟩
abbrev S_ : Shape := ⟨0, ![]⟩
abbrev S600000x1 : Shape := ⟨2, ![600000, 1]⟩
abbrev S2000x128 : Shape := ⟨2, ![2000, 128]⟩
abbrev S600000x128 : Shape := ⟨2, ![600000, 128]⟩
abbrev S1x128 : Shape := ⟨2, ![1, 128]⟩
abbrev S2000x1 : Shape := ⟨2, ![2000, 1]⟩
abbrev S64x128 : Shape := ⟨2, ![64, 128]⟩
abbrev S1x64 : Shape := ⟨2, ![1, 64]⟩
abbrev S2000x64 : Shape := ⟨2, ![2000, 64]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 142
  | .vmem => 50
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S1x600000, .i32⟩
  | 12 => ⟨S600000, .i32⟩
  | 13 => ⟨S1x600000, .i32⟩
  | 14 => ⟨S600000, .i32⟩
  | 15 => ⟨S100000x1, .i32⟩
  | 16 => ⟨S_, .f32⟩
  | 17 => ⟨S100000, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S_, .f32⟩
  | 27 => ⟨S600000, .f32⟩
  | 28 => ⟨S100000, .f32⟩
  | 29 => ⟨S_, .f32⟩
  | 30 => ⟨S100000, .f32⟩
  | 31 => ⟨S100000, .f32⟩
  | 32 => ⟨S100000, .f32⟩
  | 33 => ⟨S100000, .f32⟩
  | 34 => ⟨S100000x1, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000, .f32⟩
  | 54 => ⟨S600000x1, .f32⟩
  | 55 => ⟨S100000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S600000x128, .f32⟩
  | 66 => ⟨S600000x128, .f32⟩
  | 67 => ⟨S_, .f32⟩
  | 68 => ⟨S100000x128, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S100000x128, .f32⟩
  | 78 => ⟨S1x128, .f32⟩
  | 79 => ⟨S100000x128, .f32⟩
  | 80 => ⟨S100000x128, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S600000x128, .f32⟩
  | 91 => ⟨S600000x128, .f32⟩
  | 92 => ⟨S_, .f32⟩
  | 93 => ⟨S100000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S100000x128, .f32⟩
  | 103 => ⟨S1x128, .f32⟩
  | 104 => ⟨S100000x128, .f32⟩
  | 105 => ⟨S100000x128, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x128, .f32⟩
  | 115 => ⟨S600000x128, .f32⟩
  | 116 => ⟨S600000x128, .f32⟩
  | 117 => ⟨S_, .f32⟩
  | 118 => ⟨S100000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S64x128, .f32⟩
  | 3 => ⟨S1x64, .f32⟩
  | 4 => ⟨S64x1, .f32⟩
  | 5 => ⟨S_, .f32⟩
  | 6 => ⟨S64x1, .f32⟩
  | 7 => ⟨S64x1, .f32⟩
  | 8 => ⟨S64x128, .f32⟩
  | 9 => ⟨S64x128, .f32⟩
  | 10 => ⟨S64x2, .f32⟩
  | 11 => ⟨S1x2, .f32⟩
  | 12 => ⟨S64x2, .f32⟩
  | 13 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x1, .i32⟩
  | .local _ .vmem, ⟨45, _⟩ => ⟨S2000x1, .i32⟩
  | .local _ .vmem, ⟨46, _⟩ => ⟨S64x128, .f32⟩
  | .local _ .vmem, ⟨47, _⟩ => ⟨S1x64, .f32⟩
  | .local _ .vmem, ⟨48, _⟩ => ⟨S64x128, .f32⟩
  | .local _ .vmem, ⟨49, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_c_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_c_20 : Ref sig .tc := ⟨.hbm, 119, rfl⟩
abbrev main_v86 : Ref sig .tc := ⟨.hbm, 120, rfl⟩
abbrev main_v87 : Ref sig .tc := ⟨.hbm, 121, rfl⟩
abbrev main_c_21 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95_0 : Ref sig .tc := ⟨.hbm, 130, rfl⟩
abbrev main_v95_1 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_scratch0 : Ref sig .tc := ⟨.vmem, 48, rfl⟩
abbrev cc6_scratch1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def k6_cond2 (i : grid6.Coords) : BitVec 1 :=
  let arg0 : BitVec 32 := BitVec.ofNat 32 (i 0).val
  let c49_i32 : BitVec 32 := 49#32
  let v28 : BitVec 1 := Scalar.cmpi .eq arg0 c49_i32
  let v29 : BitVec 32 := Scalar.extui v28
  let c0_i32_13 : BitVec 32 := 0#32
  let v30 : BitVec 1 := Scalar.cmpi .ne v29 c0_i32_13
  v30

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S100000_S100000x1 : S100000.ShapeCasts S100000x1
  bcast_S_S100000 : S_.BroadcastsInDim S100000 (![] : Fin 0 → Fin S100000.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S600000_S600000x1 : S600000.ShapeCasts S600000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S2000x64_d1_w32 : S2000x64.Iotas .tc 32 [1]
  broadcasts_S2000x1_S2000x64 : S2000x1.Broadcasts S2000x64
  natLt_1_32 : 1 < 32
  reduces_S2000x64_S64 : S2000x64.Reduces [0] S64
  shapeCasts_S64_S1x64 : S64.ShapeCasts S1x64
  transposes_S1x64_S64x1_1_0 : S1x64.Transposes [1, 0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x64_S2000x128_S64x128_0_0_1_1_n_n_wf : DotDims.WF S2000x64 S2000x128 S64x128 [0] [0] [1] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S100000x128.size a
  hwx5_4 : ∀ i : grid5.Coords, EltTy.bits .f32 = 32 ∨ (Rect.block (s := S100000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v92) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v18) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v94) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v4) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v95_0) S64x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v95_1) S1x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun i => !(k6_cond2 i == 1#1) | 3 => fun i => !(k6_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 211
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S100000, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S_, .f32⟩
  | 26 => ⟨S600000, .f32⟩
  | 27 => ⟨S100000, .f32⟩
  | 28 => ⟨S_, .f32⟩
  | 29 => ⟨S100000, .f32⟩
  | 30 => ⟨S100000, .f32⟩
  | 31 => ⟨S100000, .f32⟩
  | 32 => ⟨S100000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S600000, .f32⟩
  | 52 => ⟨S600000x1, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S_, .f32⟩
  | 65 => ⟨S100000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S100000x128, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000, .f32⟩
  | 105 => ⟨S600000, .f32⟩
  | 106 => ⟨S600000x1, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S600000x128, .f32⟩
  | 117 => ⟨S600000x128, .f32⟩
  | 118 => ⟨S_, .f32⟩
  | 119 => ⟨S100000x128, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S100000x128, .f32⟩

abbrev hbmTy0_1 (i : Nat) : BufTy := match i % 128 with
  | 0 => ⟨S100000x128, .f32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000, .f32⟩
  | 31 => ⟨S600000, .f32⟩
  | 32 => ⟨S600000x1, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S600000x128, .f32⟩
  | 43 => ⟨S600000x128, .f32⟩
  | 44 => ⟨S_, .f32⟩
  | 45 => ⟨S100000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S100000x128, .f32⟩
  | 55 => ⟨S100000, .f32⟩
  | 56 => ⟨S100000x1, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S64x128, .f32⟩
  | 65 => ⟨S100000x1, .i32⟩
  | 66 => ⟨S64x128, .f32⟩
  | 67 => ⟨S_, .f32⟩
  | 68 => ⟨S100000, .f32⟩
  | 69 => ⟨S_, .f32⟩
  | 70 => ⟨S64, .f32⟩
  | 71 => ⟨S100000x1, .i32⟩
  | 72 => ⟨S64, .f32⟩
  | 73 => ⟨S_, .f32⟩
  | 74 => ⟨S64, .f32⟩
  | 75 => ⟨S64, .f32⟩
  | 76 => ⟨S64x1, .f32⟩
  | 77 => ⟨S64x128, .f32⟩
  | 78 => ⟨S64x128, .f32⟩
  | 79 => ⟨S64x2, .f32⟩
  | 80 => ⟨S1x2, .f32⟩
  | 81 => ⟨S64x2, .f32⟩
  | 82 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call0_cst : Ref sig .tc := ⟨.hbm, 83, rfl⟩
abbrev main_call0_v0 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call1_cst : Ref sig .tc := ⟨.hbm, 137, rfl⟩
abbrev main_call1_v0 : Ref sig .tc := ⟨.hbm, 138, rfl⟩
abbrev main_v101 : Ref sig .tc := ⟨.hbm, 139, rfl⟩
abbrev main_v102 : Ref sig .tc := ⟨.hbm, 140, rfl⟩
abbrev main_c_21 : Ref sig .tc := ⟨.hbm, 141, rfl⟩
abbrev main_v103 : Ref sig .tc := ⟨.hbm, 142, rfl⟩
abbrev main_v104 : Ref sig .tc := ⟨.hbm, 143, rfl⟩
abbrev main_c_22 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_23 : Ref sig .tc := ⟨.hbm, 150, rfl⟩
abbrev main_v110 : Ref sig .tc := ⟨.hbm, 151, rfl⟩
abbrev main_v111 : Ref sig .tc := ⟨.hbm, 152, rfl⟩
abbrev main_c_24 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_c_25 : Ref sig .tc := ⟨.hbm, 161, rfl⟩
abbrev main_v119 : Ref sig .tc := ⟨.hbm, 162, rfl⟩
abbrev main_v120 : Ref sig .tc := ⟨.hbm, 163, rfl⟩
abbrev main_c_26 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_27 : Ref sig .tc := ⟨.hbm, 172, rfl⟩
abbrev main_v128 : Ref sig .tc := ⟨.hbm, 173, rfl⟩
abbrev main_c_28 : Ref sig .tc := ⟨.hbm, 174, rfl⟩
abbrev main_v129 : Ref sig .tc := ⟨.hbm, 175, rfl⟩
abbrev main_v130 : Ref sig .tc := ⟨.hbm, 176, rfl⟩
abbrev main_c_29 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_30 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_31 : Ref sig .tc := ⟨.hbm, 195, rfl⟩
abbrev main_v147 : Ref sig .tc := ⟨.hbm, 196, rfl⟩
abbrev main_cst_32 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_33 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.K.RegMM2.lean ====
/-
  Region 2 of the program: the second layer's dense transform, one grid point per block of 2000 rows.
  At point t the body reads rows [2000 t, 2000 t + 2000) of the node features (a 2000 x 128 block) and the whole
  128 x 128 weight matrix, rounds both to bf16, multiplies them on the matrix unit into a zero accumulator and
  stores the 2000 x 128 product block. The output block at point t is therefore one function of the two input
  blocks, the payload of the one store; nothing is carried from point to point.
-/
import proofs.«403028_j84353157693520_1_alg».proof.Proof.Gen.Kernel.Launch
import proofs.«403028_j84353157693520_1_alg».proof.Proof.Gen.Kernel.Skeleton
import proofs.«403028_j84353157693520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows block and the weight matrix as whole rectangles of their staging buffers. -/
abbrev rX2 : Rect S2000x128 := Rect.unit (s := S2000x128) ![0, 0] S2000x128.size inb_S2000x128_S2000x128_0_0
abbrev rW2 : Rect S128x128 := Rect.unit (s := S128x128) ![0, 0] S128x128.size inb_S128x128_S128x128_0_0

/-- What the body leaves in the output block: its one store, the product of the rounded blocks. -/
def out2_2 (x0 : Vec F S2000x128 .f32) (x1 : Vec F S128x128 .f32) : Vec F S2000x128 .f32 :=
  View.canon [⟨rX2, k2_pay1 (View.ld x0 rX2) (View.ld x1 rW2)⟩]

theorem cover2_2 (p0 : Vec F S2000x128 .f32) (y : S2000x128.Idx) :
    ∃ pc ∈ ([⟨rX2, p0⟩] : List (View.Piece (Elt F) S2000x128 .f32)), y ∈ pc.1.set :=
  View.cover_of_tiled [⟨rX2, p0⟩] S2000x128.size (by rfl) y

set_option maxHeartbeats 1000000 in
/-- The body on whole staging memrefs: the inputs stay, the output ends at the product block. -/
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The inputs are found at their blocks -/

/-- The rows block is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The arrays as the region finds them; after the body each input's buffer at its block and the output's at
    the product of the point's blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.RegCB3.lean ====
/-
  Region 3 of the program: the second layer's combine, one grid point per block of 2000 rows.
  At point t the body reads the block of the aggregated messages, the block of the transformed features, the
  2000 x 1 column of self-loop coefficients and the 1 x 128 bias row, and stores
  max (agg + coef * h + bias, 0) as the 2000 x 128 output block: one store whose payload is a pointwise function
  of the four input blocks; nothing is carried from point to point.
-/
import proofs.«403028_j84353157693520_1_alg».proof.Proof.Gen.Kernel.Launch
import proofs.«403028_j84353157693520_1_alg».proof.Proof.Gen.Kernel.Skeleton
import proofs.«403028_j84353157693520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S2000x128 := Rect.unit (s := S2000x128) ![0, 0] S2000x128.size inb_S2000x128_S2000x128_0_0
abbrev rC3 : Rect S2000x1 := Rect.unit (s := S2000x1) ![0, 0] S2000x1.size inb_S2000x1_S2000x1_0_0
abbrev rB3 : Rect S1x128 := Rect.unit (s := S1x128) ![0, 0] S1x128.size inb_S1x128_S1x128_0_0

/-- What the body leaves in the output block: its one store. -/
def out3_4 (x0 : Vec F S2000x128 .f32) (x1 : Vec F S2000x128 .f32) (x2 : Vec F S2000x1 .f32) (x3 : Vec F S1x128 .f32) : Vec F S2000x128 .f32 :=
  View.canon [⟨rX3, k3_pay1 (View.ld x0 rX3) (View.ld x2 rC3) (View.ld x1 rX3) (View.ld x3 rB3)⟩]

theorem cover3_4 (p0 : Vec F S2000x128 .f32) (y : S2000x128.Idx) :
    ∃ pc ∈ ([⟨rX3, p0⟩] : List (View.Piece (Elt F) S2000x128 .f32)), y ∈ pc.1.set :=
  View.cover_of_tiled [⟨rX3, p0⟩] S2000x128.size (by rfl) y

set_option maxHeartbeats 1000000 in
theorem sound_kernel3 (c : Dev nD) (E : Set ℕ) (i : grid3.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The inputs are found at their blocks -/

/-- The aggregated block is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The transformed block is in its staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The coefficient column's block is in its staging buffer at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The bias row, fetched once, is in its staging buffer at every point: its block index never moves. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The proof data -/

/-- The arrays as the region finds them; after the body each input's buffer at its block and the output's at
    the combined block of the point's inputs; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.RegMM4.lean ====
/-
  Region 4 of the program: the third layer's dense transform, one grid point per block of 2000 rows.
  At point t the body reads rows [2000 t, 2000 t + 2000) of the node features (a 2000 x 128 block) and the whole
  128 x 128 weight matrix, rounds both to bf16, multiplies them on the matrix unit into a zero accumulator and
  stores the 2000 x 128 product block. The output block at point t is therefore one function of the two input
  blocks, the payload of the one store; nothing is carried from point to point.
-/
import proofs.«403028_j84353157693520_1_alg».proof.Proof.Gen.Kernel.Launch
import proofs.«403028_j84353157693520_1_alg».proof.Proof.Gen.Kernel.Skeleton
import proofs.«403028_j84353157693520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows block and the weight matrix as whole rectangles of their staging buffers. -/
abbrev rX4 : Rect S2000x128 := Rect.unit (s := S2000x128) ![0, 0] S2000x128.size inb_S2000x128_S2000x128_0_0
abbrev rW4 : Rect S128x128 := Rect.unit (s := S128x128) ![0, 0] S128x128.size inb_S128x128_S128x128_0_0

/-- What the body leaves in the output block: its one store, the product of the rounded blocks. -/
def out4_2 (x0 : Vec F S2000x128 .f32) (x1 : Vec F S128x128 .f32) : Vec F S2000x128 .f32 :=
  View.canon [⟨rX4, k4_pay1 (View.ld x0 rX4) (View.ld x1 rW4)⟩]

theorem cover4_2 (p0 : Vec F S2000x128 .f32) (y : S2000x128.Idx) :
    ∃ pc ∈ ([⟨rX4, p0⟩] : List (View.Piece (Elt F) S2000x128 .f32)), y ∈ pc.1.set :=
  View.cover_of_tiled [⟨rX4, p0⟩] S2000x128.size (by rfl) y

set_option maxHeartbeats 1000000 in
/-- The body on whole staging memrefs: the inputs stay, the output ends at the product block. -/
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The inputs are found at their blocks -/

/-- The rows block is in its staging buffer at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix, fetched once, is in its staging buffer at every point: its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The proof data -/

/-- The arrays as the region finds them; after the body each input's buffer at its block and the output's at
    the product of the point's blocks; the scoped rest and the generator register untouched; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.RegCB5.lean ====
/-
  Region 5 of the program: the third layer's combine, one grid point per block of 2000 rows.
  At point t the body reads the block of the aggregated messages, the block of the transformed features, the
  2000 x 1 column of self-loop coefficients and the 1 x 128 bias row, and stores
  max (agg + coef * h + bias, 0) as the 2000 x 128 output block: one store whose payload is a pointwise function
  of the four input blocks; nothing is carried from point to point.
-/
import proofs.«403028_j84353157693520_1_alg».proof.Proof.Gen.Kernel.Launch
import proofs.«403028_j84353157693520_1_alg».proof.Proof.Gen.Kernel.Skeleton
import proofs.«403028_j84353157693520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rX5 : Rect S2000x128 := Rect.unit (s := S2000x128) ![0, 0] S2000x128.size inb_S2000x128_S2000x128_0_0
abbrev rC5 : Rect S2000x1 := Rect.unit (s := S2000x1) ![0, 0] S2000x1.size inb_S2000x1_S2000x1_0_0
abbrev rB5 : Rect S1x128 := Rect.unit (s := S1x128) ![0, 0] S1x128.size inb_S1x128_S1x128_0_0

/-- What the body leaves in the output block: its one store. -/
def out5_4 (x0 : Vec F S2000x128 .f32) (x1 : Vec F S2000x128 .f32) (x2 : Vec F S2000x1 .f32) (x3 : Vec F S1x128 .f32) : Vec F S2000x128 .f32 :=
  View.canon [⟨rX5, k5_pay1 (View.ld x0 rX5) (View.ld x2 rC5) (View.ld x1 rX5) (View.ld x3 rB5)⟩]

theorem cover5_4 (p0 : Vec F S2000x128 .f32) (y : S2000x128.Idx) :
    ∃ pc ∈ ([⟨rX5, p0⟩] : List (View.Piece (Elt F) S2000x128 .f32)), y ∈ pc.1.set :=
  View.cover_of_tiled [⟨rX5, p0⟩] S2000x128.size (by rfl) y

set_option maxHeartbeats 1000000 in
theorem sound_kernel5 (c : Dev nD) (E : Set ℕ) (i : grid5.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The inputs are found at their blocks -/

/-- The aggregated block is in its staging buffer at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The transformed block is in its staging buffer at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The coefficient column's block is in its staging buffer at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The bias row, fetched once, is in its staging buffer at every point: its block index never moves. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The proof data -/

/-- The arrays as the region finds them; after the body each input's buffer at its block and the output's at
    the combined block of the point's inputs; the scoped rest and the generator register untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Seg2.lean ====
/-
  Region 0 as a step of the run. It is entered with every unscoped buffer at the contents the first host stretch
  leaves and left with the same contents except its output array, which holds what the 50 write-backs leave: the
  two input arrays end as entered, no other buffer is touched. On the way in the region's three arrays are split out
  of the unscoped buffers and on the way out put back; the generator register passes through the region's
  invariant; the core owes nothing before and after, and the kernel has no semaphore of its own.
-/
import proofs.«403028_j84353157693520_1_alg».proof.Proof.Gen.Kernel.Launch
import proofs.«403028_j84353157693520_1_alg».proof.Proof.Gen.Kernel.Skeleton
import proofs.«403028_j84353157693520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.K.Chain
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o5_out (c : Dev nD) : o5 m c main_v55 = (dat2 (rd (X4 m)) c).arrAt 2 cfg2.N := by
  unfold o5; exact Pipeline.withArrays_arr spec2 launch2.win.arr_inj c _ _ 2

set_option maxHeartbeats 2000000 in
/-- At the exit each of the region's arrays holds what the pipeline leaves: an input its entry contents, the
    output its folded write-backs. -/
theorem hF2 (c : Dev nD) (w : Fin cfg2.W) : (pdats m pK2 c).arrAt w cfg2.N = rd (X5 m) c (Pipeline.arrRef spec2 w) := by
  match w with
  | ⟨0, _⟩ => exact ((dat2 (rd (X4 m)) c).arrAt_in 0 rfl cfg2.N).trans ((A_eq2 (rd (X4 m)) c 0).trans (Function.update_of_ne (StableHlo.devRef_ne_of_ne (by decide) : (Proc.devRef .tc (Pipeline.arrRef spec2 0) : DevRef τ sig) ≠ Proc.devRef .tc main_v55) (o5 m c main_v55) (X4 m c)).symm)
  | ⟨1, _⟩ => exact ((dat2 (rd (X4 m)) c).arrAt_in 1 rfl cfg2.N).trans ((A_eq2 (rd (X4 m)) c 1).trans (Function.update_of_ne (StableHlo.devRef_ne_of_ne (by decide) : (Proc.devRef .tc (Pipeline.arrRef spec2 1) : DevRef τ sig) ≠ Proc.devRef .tc main_v55) (o5 m c main_v55) (X4 m c)).symm)
  | ⟨2, _⟩ => exact (o5_out m c).symm.trans (Function.update_self (Proc.devRef .tc main_v55 : DevRef τ sig) (o5 m c main_v55) (X4 m c)).symm

set_option maxHeartbeats 2000000 in
/-- Every buffer that is none of the region's arrays is left as entered. -/
theorem hrest2 (c : Dev nD) : ∀ b, b ∉ Finset.univ.image (Pipeline.arrRef spec2) → rd (X5 m) c b = rd (X4 m) c b :=
  fun b hb => Function.update_of_ne (StableHlo.devRef_ne_of_ne fun h =>
    hb (Finset.mem_image.mpr ⟨2, Finset.mem_univ _, (show Pipeline.arrRef spec2 2 = b from h.symm)⟩)) (o5 m c main_v55) (X4 m c)

set_option backward.isDefEq.respectTransparency.types false in
/-- Region 0 over the thread state. -/
def reg2 : Pipeline.RegionSeg (pcfgs (F := F)) adm (pdats m) () defs₀ Vn Lz lvz pK2 where
  win := launch2.win.to₀
  block_pos := launch2.block_pos
  stage_whole := launch2.stage_whole
  K := PEmpty
  osem k := k.elim
  ho := Pipeline.OwnSemFacts.none _
  hbody c := (body_obligation2 (rd (X4 m)) c).loose
  hwaits := Pipeline.hwaits_of_owed_zero _ _ _ _ Lz lvz pK2 fun _ _ => rfl
  pre c := iprop(StableHlo.held (c : Thread nD τ) (Pipeline.ucRefs τ sig) (X4 m c) ∗ Rst c)
  post c := iprop(StableHlo.held (c : Thread nD τ) (Pipeline.ucRefs τ sig) (X5 m c) ∗ Rst c)
  X c := iprop(∃ r, prngReg c r)
  Y c := iprop(∃ r, prngReg c r)
  Z c := Pipeline.unscopedRest (Ix := Unit) (Name := ℕ) (U := UR sig nD τ) (Lvl := ℕ) spec2 c (rd (X4 m) c)
  hentry c := by
    -- the arrays out of the unscoped buffers; no table; the core owes nothing; the register enters the invariant
    rw [Pipeline.ownSems0_none]
    have hsplit := Pipeline.arrays_of_unscopedBufs (p := pK2) (pcfgs (F := F)) adm (pdats m) launch2.win launch2.arr_whole c
      ((pdats m pK2 c).share_full fun _ => rfl) (rd (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m pK2 c).Φ (Fin.last _) = Pipeline.ΦA spec2 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK2) (pcfgs (F := F)) adm (Ix := Unit) (Name := ℕ) (U := UR sig nD τ) (Lvl := ℕ)
      launch2.win launch2.arr_whole c (pdats m) ((pdats m pK2 c).share_full fun _ => rfl)
      (rd (X4 m) c) (rd (X5 m) c) ((pdats m pK2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/-
  Region 1 as a step of the run. It is entered with every unscoped buffer at the contents the second host stretch
  leaves and left with the same contents except its output array, which holds what the 50 write-backs leave: the
  four input arrays end as entered, no other buffer is touched. On the way in the region's five arrays are split out
  of the unscoped buffers and on the way out put back; the generator register passes through the region's
  invariant; the core owes nothing before and after, and the kernel has no semaphore of its own.
-/
import proofs.«403028_j84353157693520_1_alg».proof.Proof.Gen.Kernel.Launch
import proofs.«403028_j84353157693520_1_alg».proof.Proof.Gen.Kernel.Skeleton
import proofs.«403028_j84353157693520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.K.Chain
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o7_out (c : Dev nD) : o7 m c main_v74 = (dat3 (rd (X6 m)) c).arrAt 4 cfg3.N := by
  unfold o7; exact Pipeline.withArrays_arr spec3 launch3.win.arr_inj c _ _ 4

set_option maxHeartbeats 2000000 in
/-- At the exit each of the region's arrays holds what the pipeline leaves: an input its entry contents, the
    output its folded write-backs. -/
theorem hF3 (c : Dev nD) (w : Fin cfg3.W) : (pdats m pK3 c).arrAt w cfg3.N = rd (X7 m) c (Pipeline.arrRef spec3 w) := by
  match w with
  | ⟨0, _⟩ => exact ((dat3 (rd (X6 m)) c).arrAt_in 0 rfl cfg3.N).trans ((A_eq3 (rd (X6 m)) c 0).trans (Function.update_of_ne (StableHlo.devRef_ne_of_ne (by decide) : (Proc.devRef .tc (Pipeline.arrRef spec3 0) : DevRef τ sig) ≠ Proc.devRef .tc main_v74) (o7 m c main_v74) (X6 m c)).symm)
  | ⟨1, _⟩ => exact ((dat3 (rd (X6 m)) c).arrAt_in 1 rfl cfg3.N).trans ((A_eq3 (rd (X6 m)) c 1).trans (Function.update_of_ne (StableHlo.devRef_ne_of_ne (by decide) : (Proc.devRef .tc (Pipeline.arrRef spec3 1) : DevRef τ sig) ≠ Proc.devRef .tc main_v74) (o7 m c main_v74) (X6 m c)).symm)
  | ⟨2, _⟩ => exact ((dat3 (rd (X6 m)) c).arrAt_in 2 rfl cfg3.N).trans ((A_eq3 (rd (X6 m)) c 2).trans (Function.update_of_ne (StableHlo.devRef_ne_of_ne (by decide) : (Proc.devRef .tc (Pipeline.arrRef spec3 2) : DevRef τ sig) ≠ Proc.devRef .tc main_v74) (o7 m c main_v74) (X6 m c)).symm)
  | ⟨3, _⟩ => exact ((dat3 (rd (X6 m)) c).arrAt_in 3 rfl cfg3.N).trans ((A_eq3 (rd (X6 m)) c 3).trans (Function.update_of_ne (StableHlo.devRef_ne_of_ne (by decide) : (Proc.devRef .tc (Pipeline.arrRef spec3 3) : DevRef τ sig) ≠ Proc.devRef .tc main_v74) (o7 m c main_v74) (X6 m c)).symm)
  | ⟨4, _⟩ => exact (o7_out m c).symm.trans (Function.update_self (Proc.devRef .tc main_v74 : DevRef τ sig) (o7 m c main_v74) (X6 m c)).symm

set_option maxHeartbeats 2000000 in
/-- Every buffer that is none of the region's arrays is left as entered. -/
theorem hrest3 (c : Dev nD) : ∀ b, b ∉ Finset.univ.image (Pipeline.arrRef spec3) → rd (X7 m) c b = rd (X6 m) c b :=
  fun b hb => Function.update_of_ne (StableHlo.devRef_ne_of_ne fun h =>
    hb (Finset.mem_image.mpr ⟨4, Finset.mem_univ _, (show Pipeline.arrRef spec3 4 = b from h.symm)⟩)) (o7 m c main_v74) (X6 m c)

set_option backward.isDefEq.respectTransparency.types false in
/-- Region 1 over the thread state. -/
def reg3 : Pipeline.RegionSeg (pcfgs (F := F)) adm (pdats m) () defs₀ Vn Lz lvz pK3 where
  win := launch3.win.to₀
  block_pos := launch3.block_pos
  stage_whole := launch3.stage_whole
  K := PEmpty
  osem k := k.elim
  ho := Pipeline.OwnSemFacts.none _
  hbody c := (body_obligation3 (rd (X6 m)) c).loose
  hwaits := Pipeline.hwaits_of_owed_zero _ _ _ _ Lz lvz pK3 fun _ _ => rfl
  pre c := iprop(StableHlo.held (c : Thread nD τ) (Pipeline.ucRefs τ sig) (X6 m c) ∗ Rst c)
  post c := iprop(StableHlo.held (c : Thread nD τ) (Pipeline.ucRefs τ sig) (X7 m c) ∗ Rst c)
  X c := iprop(∃ r, prngReg c r)
  Y c := iprop(∃ r, prngReg c r)
  Z c := Pipeline.unscopedRest (Ix := Unit) (Name := ℕ) (U := UR sig nD τ) (Lvl := ℕ) spec3 c (rd (X6 m) c)
  hentry c := by
    -- the arrays out of the unscoped buffers; no table; the core owes nothing; the register enters the invariant
    rw [Pipeline.ownSems0_none]
    have hsplit := Pipeline.arrays_of_unscopedBufs (p := pK3) (pcfgs (F := F)) adm (pdats m) launch3.win launch3.arr_whole c
      ((pdats m pK3 c).share_full fun _ => rfl) (rd (X6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m pK3 c).Φ (Fin.last _) = Pipeline.ΦA spec3 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK3) (pcfgs (F := F)) adm (Ix := Unit) (Name := ℕ) (U := UR sig nD τ) (Lvl := ℕ)
      launch3.win launch3.arr_whole c (pdats m) ((pdats m pK3 c).share_full fun _ => rfl)
      (rd (X6 m) c) (rd (X7 m) c) ((pdats m pK3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/-
  Region 0 as a step of the run. It is entered with every unscoped buffer at the contents the first host stretch
  leaves and left with the same contents except its output array, which holds what the 50 write-backs leave: the
  two input arrays end as entered, no other buffer is touched. On the way in the region's three arrays are split out
  of the unscoped buffers and on the way out put back; the generator register passes through the region's
  invariant; the core owes nothing before and after, and the kernel has no semaphore of its own.
-/
import proofs.«403028_j84353157693520_1_alg».proof.Proof.Gen.Kernel.Launch
import proofs.«403028_j84353157693520_1_alg».proof.Proof.Gen.Kernel.Skeleton
import proofs.«403028_j84353157693520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.K.Chain
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o8_out (c : Dev nD) : o8 m c main_v75 = (dat4 (rd (X7 m)) c).arrAt 2 cfg4.N := by
  unfold o8; exact Pipeline.withArrays_arr spec4 launch4.win.arr_inj c _ _ 2

set_option maxHeartbeats 2000000 in
/-- At the exit each of the region's arrays holds what the pipeline leaves: an input its entry contents, the
    output its folded write-backs. -/
theorem hF4 (c : Dev nD) (w : Fin cfg4.W) : (pdats m pK4 c).arrAt w cfg4.N = rd (X8 m) c (Pipeline.arrRef spec4 w) := by
  match w with
  | ⟨0, _⟩ => exact ((dat4 (rd (X7 m)) c).arrAt_in 0 rfl cfg4.N).trans ((A_eq4 (rd (X7 m)) c 0).trans (Function.update_of_ne (StableHlo.devRef_ne_of_ne (by decide) : (Proc.devRef .tc (Pipeline.arrRef spec4 0) : DevRef τ sig) ≠ Proc.devRef .tc main_v75) (o8 m c main_v75) (X7 m c)).symm)
  | ⟨1, _⟩ => exact ((dat4 (rd (X7 m)) c).arrAt_in 1 rfl cfg4.N).trans ((A_eq4 (rd (X7 m)) c 1).trans (Function.update_of_ne (StableHlo.devRef_ne_of_ne (by decide) : (Proc.devRef .tc (Pipeline.arrRef spec4 1) : DevRef τ sig) ≠ Proc.devRef .tc main_v75) (o8 m c main_v75) (X7 m c)).symm)
  | ⟨2, _⟩ => exact (o8_out m c).symm.trans (Function.update_self (Proc.devRef .tc main_v75 : DevRef τ sig) (o8 m c main_v75) (X7 m c)).symm

set_option maxHeartbeats 2000000 in
/-- Every buffer that is none of the region's arrays is left as entered. -/
theorem hrest4 (c : Dev nD) : ∀ b, b ∉ Finset.univ.image (Pipeline.arrRef spec4) → rd (X8 m) c b = rd (X7 m) c b :=
  fun b hb => Function.update_of_ne (StableHlo.devRef_ne_of_ne fun h =>
    hb (Finset.mem_image.mpr ⟨2, Finset.mem_univ _, (show Pipeline.arrRef spec4 2 = b from h.symm)⟩)) (o8 m c main_v75) (X7 m c)

set_option backward.isDefEq.respectTransparency.types false in
/-- Region 0 over the thread state. -/
def reg4 : Pipeline.RegionSeg (pcfgs (F := F)) adm (pdats m) () defs₀ Vn Lz lvz pK4 where
  win := launch4.win.to₀
  block_pos := launch4.block_pos
  stage_whole := launch4.stage_whole
  K := PEmpty
  osem k := k.elim
  ho := Pipeline.OwnSemFacts.none _
  hbody c := (body_obligation4 (rd (X7 m)) c).loose
  hwaits := Pipeline.hwaits_of_owed_zero _ _ _ _ Lz lvz pK4 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec4 c (rd (X7 m) c)
  hentry c := by
    -- the arrays out of the unscoped buffers; no table; the core owes nothing; the register enters the invariant
    rw [Pipeline.ownSems0_none]
    have hsplit := Pipeline.arrays_of_unscopedBufs (p := pK4) (pcfgs (F := F)) adm (pdats m) launch4.win launch4.arr_whole c
      ((pdats m pK4 c).share_full fun _ => rfl) (rd (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m pK4 c).Φ (Fin.last _) = Pipeline.ΦA spec4 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK4) (pcfgs (F := F)) adm (Ix := Unit) (Name := ℕ) (U := UR sig nD τ) (Lvl := ℕ)
      launch4.win launch4.arr_whole c (pdats m) ((pdats m pK4 c).share_full fun _ => rfl)
      (rd (X7 m) c) (rd (X8 m) c) ((pdats m pK4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/-
  Region 1 as a step of the run. It is entered with every unscoped buffer at the contents the second host stretch
  leaves and left with the same contents except its output array, which holds what the 50 write-backs leave: the
  four input arrays end as entered, no other buffer is touched. On the way in the region's five arrays are split out
  of the unscoped buffers and on the way out put back; the generator register passes through the region's
  invariant; the core owes nothing before and after, and the kernel has no semaphore of its own.
-/
import proofs.«403028_j84353157693520_1_alg».proof.Proof.Gen.Kernel.Launch
import proofs.«403028_j84353157693520_1_alg».proof.Proof.Gen.Kernel.Skeleton
import proofs.«403028_j84353157693520_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.K.Chain
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o10_out (c : Dev nD) : o10 m c main_v94 = (dat5 (rd (X9 m)) c).arrAt 4 cfg5.N := by
  unfold o10; exact Pipeline.withArrays_arr spec5 launch5.win.arr_inj c _ _ 4

set_option maxHeartbeats 2000000 in
/-- At the exit each of the region's arrays holds what the pipeline leaves: an input its entry contents, the
    output its folded write-backs. -/
theorem hF5 (c : Dev nD) (w : Fin cfg5.W) : (pdats m pK5 c).arrAt w cfg5.N = rd (X10 m) c (Pipeline.arrRef spec5 w) := by
  match w with
  | ⟨0, _⟩ => exact ((dat5 (rd (X9 m)) c).arrAt_in 0 rfl cfg5.N).trans ((A_eq5 (rd (X9 m)) c 0).trans (Function.update_of_ne (StableHlo.devRef_ne_of_ne (by decide) : (Proc.devRef .tc (Pipeline.arrRef spec5 0) : DevRef τ sig) ≠ Proc.devRef .tc main_v94) (o10 m c main_v94) (X9 m c)).symm)
  | ⟨1, _⟩ => exact ((dat5 (rd (X9 m)) c).arrAt_in 1 rfl cfg5.N).trans ((A_eq5 (rd (X9 m)) c 1).trans (Function.update_of_ne (StableHlo.devRef_ne_of_ne (by decide) : (Proc.devRef .tc (Pipeline.arrRef spec5 1) : DevRef τ sig) ≠ Proc.devRef .tc main_v94) (o10 m c main_v94) (X9 m c)).symm)
  | ⟨2, _⟩ => exact ((dat5 (rd (X9 m)) c).arrAt_in 2 rfl cfg5.N).trans ((A_eq5 (rd (X9 m)) c 2).trans (Function.update_of_ne (StableHlo.devRef_ne_of_ne (by decide) : (Proc.devRef .tc (Pipeline.arrRef spec5 2) : DevRef τ sig) ≠ Proc.devRef .tc main_v94) (o10 m c main_v94) (X9 m c)).symm)
  | ⟨3, _⟩ => exact ((dat5 (rd (X9 m)) c).arrAt_in 3 rfl cfg5.N).trans ((A_eq5 (rd (X9 m)) c 3).trans (Function.update_of_ne (StableHlo.devRef_ne_of_ne (by decide) : (Proc.devRef .tc (Pipeline.arrRef spec5 3) : DevRef τ sig) ≠ Proc.devRef .tc main_v94) (o10 m c main_v94) (X9 m c)).symm)
  | ⟨4, _⟩ => exact (o10_out m c).symm.trans (Function.update_self (Proc.devRef .tc main_v94 : DevRef τ sig) (o10 m c main_v94) (X9 m c)).symm

set_option maxHeartbeats 2000000 in
/-- Every buffer that is none of the region's arrays is left as entered. -/
theorem hrest5 (c : Dev nD) : ∀ b, b ∉ Finset.univ.image (Pipeline.arrRef spec5) → rd (X10 m) c b = rd (X9 m) c b :=
  fun b hb => Function.update_of_ne (StableHlo.devRef_ne_of_ne fun h =>
    hb (Finset.mem_image.mpr ⟨4, Finset.mem_univ _, (show Pipeline.arrRef spec5 4 = b from h.symm)⟩)) (o10 m c main_v94) (X9 m c)

set_option backward.isDefEq.respectTransparency.types false in
/-- Region 1 over the thread state. -/
def reg5 : Pipeline.RegionSeg (pcfgs (F := F)) adm (pdats m) () defs₀ Vn Lz lvz pK5 where
  win := launch5.win.to₀
  block_pos := launch5.block_pos
  stage_whole := launch5.stage_whole
  K := PEmpty
  osem k := k.elim
  ho := Pipeline.OwnSemFacts.none _
  hbody c := (body_obligation5 (rd (X9 m)) c).loose
  hwaits := Pipeline.hwaits_of_owed_zero _ _ _ _ Lz lvz pK5 fun _ _ => rfl
  pre c := iprop(StableHlo.held (c : Thread nD τ) (Pipeline.ucRefs τ sig) (X9 m c) ∗ Rst c)
  post c := iprop(StableHlo.held (c : Thread nD τ) (Pipeline.ucRefs τ sig) (X10 m c) ∗ Rst c)
  X c := iprop(∃ r, prngReg c r)
  Y c := iprop(∃ r, prngReg c r)
  Z c := Pipeline.unscopedRest (Ix := Unit) (Name := ℕ) (U := UR sig nD τ) (Lvl := ℕ) spec5 c (rd (X9 m) c)
  hentry c := by
    -- the arrays out of the unscoped buffers; no table; the core owes nothing; the register enters the invariant
    rw [Pipeline.ownSems0_none]
    have hsplit := Pipeline.arrays_of_unscopedBufs (p := pK5) (pcfgs (F := F)) adm (pdats m) launch5.win launch5.arr_whole c
      ((pdats m pK5 c).share_full fun _ => rfl) (rd (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m pK5 c).Φ (Fin.last _) = Pipeline.ΦA spec5 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK5) (pcfgs (F := F)) adm (Ix := Unit) (Name := ℕ) (U := UR sig nD τ) (Lvl := ℕ)
      launch5.win launch5.arr_whole c (pdats m) ((pdats m pK5 c).share_full fun _ => rfl)
      (rd (X9 m) c) (rd (X10 m) c) ((pdats m pK5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KI.RegMM0.lean ====
/-
  Region 0 of the program: the first layer's dense transform, one grid point per block of 2000 rows.
  At point t the body reads rows [2000 t, 2000 t + 2000) of the node features (a 2000 x 128 block) and the whole
  128 x 128 weight matrix, rounds both to bf16, multiplies them on the matrix unit into a zero accumulator and
  stores the 2000 x 128 product block. The output block at point t is therefore one function of the two input
  blocks, the payload of the one store; nothing is carried from point to point.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block and the weight matrix as whole rectangles of their staging buffers. -/
abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0

/-- What the body leaves in the output block: its one store, the product of the rounded blocks. -/
def out0_2 (x0 : Vec F S2000x128 .f32) (x1 : Vec F S128x128 .f32) : Vec F S2000x128 .f32 :=
  View.canon [⟨rX0, k0_pay1 (View.ld x0 rX0) (View.ld x1 rW0)⟩]

theorem cover0_2 (p0 : Vec F S2000x128 .f32) (y : S2000x128.Idx) :
    ∃ pc ∈ ([⟨rX0, p0⟩] : List (View.Piece (Elt F) S2000x128 .f32)), y ∈ pc.1.set :=
  View.cover_of_tiled [⟨rX0, p0⟩] S2000x128.size (by rfl) y

set_option maxHeartbeats 1000000 in
/-- The body on whole staging memrefs: the inputs stay, the output ends at the product block. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The inputs are found at their blocks -/

/-- The rows block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The arrays as the region finds them; after the body each input's buffer at its block and the output's at
    the product of the point's blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.RegCB1.lean ====
/-
  Region 1 of the program: the first layer's combine, one grid point per block of 2000 rows.
  At point t the body reads the block of the aggregated messages, the block of the transformed features, the
  2000 x 1 column of self-loop coefficients and the 1 x 128 bias row, and stores
  max (agg + coef * h + bias, 0) as the 2000 x 128 output block: one store whose payload is a pointwise function
  of the four input blocks; nothing is carried from point to point.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S2000x128 := Rect.unit (s := S2000x128) ![0, 0] S2000x128.size inb_S2000x128_S2000x128_0_0
abbrev rC1 : Rect S2000x1 := Rect.unit (s := S2000x1) ![0, 0] S2000x1.size inb_S2000x1_S2000x1_0_0
abbrev rB1 : Rect S1x128 := Rect.unit (s := S1x128) ![0, 0] S1x128.size inb_S1x128_S1x128_0_0

/-- What the body leaves in the output block: its one store. -/
def out1_4 (x0 : Vec F S2000x128 .f32) (x1 : Vec F S2000x128 .f32) (x2 : Vec F S2000x1 .f32) (x3 : Vec F S1x128 .f32) : Vec F S2000x128 .f32 :=
  View.canon [⟨rX1, k1_pay1 (View.ld x0 rX1) (View.ld x2 rC1) (View.ld x1 rX1) (View.ld x3 rB1)⟩]

theorem cover1_4 (p0 : Vec F S2000x128 .f32) (y : S2000x128.Idx) :
    ∃ pc ∈ ([⟨rX1, p0⟩] : List (View.Piece (Elt F) S2000x128 .f32)), y ∈ pc.1.set :=
  View.cover_of_tiled [⟨rX1, p0⟩] S2000x128.size (by rfl) y

set_option maxHeartbeats 1000000 in
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The inputs are found at their blocks -/

/-- The aggregated block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The transformed block is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The coefficient column's block is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias row, fetched once, is in its staging buffer at every point: its block index never moves. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The arrays as the region finds them; after the body each input's buffer at its block and the output's at
    the combined block of the point's inputs; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegMM2.lean ====
/-
  Region 2 of the program: the second layer's dense transform, one grid point per block of 2000 rows.
  At point t the body reads rows [2000 t, 2000 t + 2000) of the node features (a 2000 x 128 block) and the whole
  128 x 128 weight matrix, rounds both to bf16, multiplies them on the matrix unit into a zero accumulator and
  stores the 2000 x 128 product block. The output block at point t is therefore one function of the two input
  blocks, the payload of the one store; nothing is carried from point to point.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows block and the weight matrix as whole rectangles of their staging buffers. -/
abbrev rX2 : Rect S2000x128 := Rect.unit (s := S2000x128) ![0, 0] S2000x128.size inb_S2000x128_S2000x128_0_0
abbrev rW2 : Rect S128x128 := Rect.unit (s := S128x128) ![0, 0] S128x128.size inb_S128x128_S128x128_0_0

/-- What the body leaves in the output block: its one store, the product of the rounded blocks. -/
def out2_2 (x0 : Vec F S2000x128 .f32) (x1 : Vec F S128x128 .f32) : Vec F S2000x128 .f32 :=
  View.canon [⟨rX2, k2_pay1 (View.ld x0 rX2) (View.ld x1 rW2)⟩]

theorem cover2_2 (p0 : Vec F S2000x128 .f32) (y : S2000x128.Idx) :
    ∃ pc ∈ ([⟨rX2, p0⟩] : List (View.Piece (Elt F) S2000x128 .f32)), y ∈ pc.1.set :=
  View.cover_of_tiled [⟨rX2, p0⟩] S2000x128.size (by rfl) y

set_option maxHeartbeats 1000000 in
/-- The body on whole staging memrefs: the inputs stay, the output ends at the product block. -/
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The inputs are found at their blocks -/

/-- The rows block is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The arrays as the region finds them; after the body each input's buffer at its block and the output's at
    the product of the point's blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RegCB3.lean ====
/-
  Region 3 of the program: the second layer's combine, one grid point per block of 2000 rows.
  At point t the body reads the block of the aggregated messages, the block of the transformed features, the
  2000 x 1 column of self-loop coefficients and the 1 x 128 bias row, and stores
  max (agg + coef * h + bias, 0) as the 2000 x 128 output block: one store whose payload is a pointwise function
  of the four input blocks; nothing is carried from point to point.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S2000x128 := Rect.unit (s := S2000x128) ![0, 0] S2000x128.size inb_S2000x128_S2000x128_0_0
abbrev rC3 : Rect S2000x1 := Rect.unit (s := S2000x1) ![0, 0] S2000x1.size inb_S2000x1_S2000x1_0_0
abbrev rB3 : Rect S1x128 := Rect.unit (s := S1x128) ![0, 0] S1x128.size inb_S1x128_S1x128_0_0

/-- What the body leaves in the output block: its one store. -/
def out3_4 (x0 : Vec F S2000x128 .f32) (x1 : Vec F S2000x128 .f32) (x2 : Vec F S2000x1 .f32) (x3 : Vec F S1x128 .f32) : Vec F S2000x128 .f32 :=
  View.canon [⟨rX3, k3_pay1 (View.ld x0 rX3) (View.ld x2 rC3) (View.ld x1 rX3) (View.ld x3 rB3)⟩]

theorem cover3_4 (p0 : Vec F S2000x128 .f32) (y : S2000x128.Idx) :
    ∃ pc ∈ ([⟨rX3, p0⟩] : List (View.Piece (Elt F) S2000x128 .f32)), y ∈ pc.1.set :=
  View.cover_of_tiled [⟨rX3, p0⟩] S2000x128.size (by rfl) y

set_option maxHeartbeats 1000000 in
theorem sound_kernel3 (c : Dev nD) (E : Set ℕ) (i : grid3.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The inputs are found at their blocks -/

/-- The aggregated block is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The transformed block is in its staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The coefficient column's block is in its staging buffer at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The bias row, fetched once, is in its staging buffer at every point: its block index never moves. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The proof data -/

/-- The arrays as the region finds them; after the body each input's buffer at its block and the output's at
    the combined block of the point's inputs; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.RegMM4.lean ====
/-
  Region 4 of the program: the third layer's dense transform, one grid point per block of 2000 rows.
  At point t the body reads rows [2000 t, 2000 t + 2000) of the node features (a 2000 x 128 block) and the whole
  128 x 128 weight matrix, rounds both to bf16, multiplies them on the matrix unit into a zero accumulator and
  stores the 2000 x 128 product block. The output block at point t is therefore one function of the two input
  blocks, the payload of the one store; nothing is carried from point to point.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows block and the weight matrix as whole rectangles of their staging buffers. -/
abbrev rX4 : Rect S2000x128 := Rect.unit (s := S2000x128) ![0, 0] S2000x128.size inb_S2000x128_S2000x128_0_0
abbrev rW4 : Rect S128x128 := Rect.unit (s := S128x128) ![0, 0] S128x128.size inb_S128x128_S128x128_0_0

/-- What the body leaves in the output block: its one store, the product of the rounded blocks. -/
def out4_2 (x0 : Vec F S2000x128 .f32) (x1 : Vec F S128x128 .f32) : Vec F S2000x128 .f32 :=
  View.canon [⟨rX4, k4_pay1 (View.ld x0 rX4) (View.ld x1 rW4)⟩]

theorem cover4_2 (p0 : Vec F S2000x128 .f32) (y : S2000x128.Idx) :
    ∃ pc ∈ ([⟨rX4, p0⟩] : List (View.Piece (Elt F) S2000x128 .f32)), y ∈ pc.1.set :=
  View.cover_of_tiled [⟨rX4, p0⟩] S2000x128.size (by rfl) y

set_option maxHeartbeats 1000000 in
/-- The body on whole staging memrefs: the inputs stay, the output ends at the product block. -/
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The inputs are found at their blocks -/

/-- The rows block is in its staging buffer at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix, fetched once, is in its staging buffer at every point: its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The proof data -/

/-- The arrays as the region finds them; after the body each input's buffer at its block and the output's at
    the product of the point's blocks; the scoped rest and the generator register untouched; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.RegCB5.lean ====
/-
  Region 5 of the program: the third layer's combine, one grid point per block of 2000 rows.
  At point t the body reads the block of the aggregated messages, the block of the transformed features, the
  2000 x 1 column of self-loop coefficients and the 1 x 128 bias row, and stores
  max (agg + coef * h + bias, 0) as the 2000 x 128 output block: one store whose payload is a pointwise function
  of the four input blocks; nothing is carried from point to point.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rX5 : Rect S2000x128 := Rect.unit (s := S2000x128) ![0, 0] S2000x128.size inb_S2000x128_S2000x128_0_0
abbrev rC5 : Rect S2000x1 := Rect.unit (s := S2000x1) ![0, 0] S2000x1.size inb_S2000x1_S2000x1_0_0
abbrev rB5 : Rect S1x128 := Rect.unit (s := S1x128) ![0, 0] S1x128.size inb_S1x128_S1x128_0_0

/-- What the body leaves in the output block: its one store. -/
def out5_4 (x0 : Vec F S2000x128 .f32) (x1 : Vec F S2000x128 .f32) (x2 : Vec F S2000x1 .f32) (x3 : Vec F S1x128 .f32) : Vec F S2000x128 .f32 :=
  View.canon [⟨rX5, k5_pay1 (View.ld x0 rX5) (View.ld x2 rC5) (View.ld x1 rX5) (View.ld x3 rB5)⟩]

theorem cover5_4 (p0 : Vec F S2000x128 .f32) (y : S2000x128.Idx) :
    ∃ pc ∈ ([⟨rX5, p0⟩] : List (View.Piece (Elt F) S2000x128 .f32)), y ∈ pc.1.set :=
  View.cover_of_tiled [⟨rX5, p0⟩] S2000x128.size (by rfl) y

set_option maxHeartbeats 1000000 in
theorem sound_kernel5 (c : Dev nD) (E : Set ℕ) (i : grid5.Coords)
    (arg1 : Memref sig .tc .vmem S2000x128 .f32) (harg1 : arg1.IsWhole)
    (arg2 : Memref sig .tc .vmem S2000x128 .f32) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The inputs are found at their blocks -/

/-- The aggregated block is in its staging buffer at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The transformed block is in its staging buffer at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The coefficient column's block is in its staging buffer at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The bias row, fetched once, is in its staging buffer at every point: its block index never moves. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The proof data -/

/-- The arrays as the region finds them; after the body each input's buffer at its block and the output's at
    the combined block of the point's inputs; the scoped rest and the generator register untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.RegPool6.lean ====
/-
  Region 6 of the program: the pooling, one grid point per block of 2000 rows, two accumulators carried in
  scratch from point to point. At point t the body reads the block of the last layer's features (2000 x 128)
  and the block of graph ids (2000 x 1); at the first point it zeroes both accumulators; at every point it adds
  to the 64 x 128 accumulator the product of the transposed one-hot matrix of the ids with the feature block, and
  to the 1 x 64 accumulator the column sums of the one-hot matrix; at the last point it copies the accumulators
  into the two output blocks, which are written back there and nowhere else.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's whole-buffer rectangles, and its two conditions in closed form -/

/-- The rectangles through which the body loads and stores its buffers whole: the feature block, the id block, the
    64 x 128 buffers, the 1 x 64 buffers. -/
abbrev rX6 : Rect S2000x128 := Rect.unit (s := S2000x128) ![0, 0] S2000x128.size inb_S2000x128_S2000x128_0_0
abbrev rI6 : Rect S2000x1 := Rect.unit (s := S2000x1) ![0, 0] S2000x1.size inb_S2000x1_S2000x1_0_0
abbrev rA6 : Rect S64x128 := Rect.unit (s := S64x128) ![0, 0] S64x128.size inb_S64x128_S64x128_0_0
abbrev rB6 : Rect S1x64 := Rect.unit (s := S1x64) ![0, 0] S1x64.size inb_S1x64_S1x64_0_0

/-- The first conditional's condition, from the grid coordinate. -/
abbrev cond6_0 (i : grid6.Coords) : Prop :=
  (Scalar.cmpi .ne (Scalar.extui (Scalar.cmpi .eq (BitVec.ofNat 32 (i 0).val) 0#32)) 0#32) = 1#1

/-- It holds at the first point and at no other: decided over the fifty points. -/
theorem hcond6_0 : ∀ t : Fin cfg6.N, cond6_0 (grid6.coords t) ↔ t.val = 0 :=
  (by decide +kernel : ∀ t : Fin grid6.N, cond6_0 (grid6.coords t) ↔ t.val = 0)

/-- The last conditional's condition holds at the last point and at no other: decided over the fifty points. -/
theorem hcond6_1 : ∀ t : Fin cfg6.N, k6_cond2 (grid6.coords t) = 1#1 ↔ t.val = 49 :=
  (by decide +kernel : ∀ t : Fin grid6.N, k6_cond2 (grid6.coords t) = 1#1 ↔ t.val = 49)

/-- The zero offsets of a whole-buffer rectangle, as the constant function. -/
theorem hz6 : (![0, 0] : Fin 2 → ℕ) = fun _ => 0 := by funext a; fin_cases a <;> rfl

/-! ## Loads and stores through the whole-buffer rectangles -/

/-- A load of the whole feature block reads the contents. -/
theorem ldX6 (X : Vec F S2000x128 .f32) : View.ld X rX6 = X := View.ld_unit_zero (S := S2000x128) hz6 _ X
/-- A load of the whole id block reads the contents. -/
theorem ldI6 (X : Vec F S2000x1 .i32) : View.ld X rI6 = X := View.ld_unit_zero (S := S2000x1) hz6 _ X
/-- A load of the whole 64 x 128 accumulator reads the contents. -/
theorem ldA6 (X : Vec F S64x128 .f32) : View.ld X rA6 = X := View.ld_unit_zero (S := S64x128) hz6 _ X
/-- A load of the whole 1 x 64 accumulator reads the contents. -/
theorem ldB6 (X : Vec F S1x64 .f32) : View.ld X rB6 = X := View.ld_unit_zero (S := S1x64) hz6 _ X

/-- The rectangle of a whole 64 x 128 store holds every index, so a list of stores that begins with one covers. -/
theorem coverA6 (p : Vec F S64x128 .f32) (L : List (View.Piece (Elt F) S64x128 .f32)) (y : S64x128.Idx) :
    ∃ pc ∈ ((⟨rA6, p⟩ : View.Piece (Elt F) S64x128 .f32) :: L), y ∈ pc.1.set :=
  ⟨⟨rA6, p⟩, List.mem_cons_self, View.mem_set_unit_zero (S := S64x128) hz6 inb_S64x128_S64x128_0_0 y⟩

/-- The same for the 1 x 64 buffer. -/
theorem coverB6 (p : Vec F S1x64 .f32) (L : List (View.Piece (Elt F) S1x64 .f32)) (y : S1x64.Idx) :
    ∃ pc ∈ ((⟨rB6, p⟩ : View.Piece (Elt F) S1x64 .f32) :: L), y ∈ pc.1.set :=
  ⟨⟨rB6, p⟩, List.mem_cons_self, View.mem_set_unit_zero (S := S1x64) hz6 inb_S1x64_S1x64_0_0 y⟩

/-- A store of the whole 64 x 128 buffer, made last, leaves its payload whatever was stored before. -/
theorem read_storeA6 {sp : Space} (v : View sig .tc sp S64x128 .f32) (f : v.ty.Contents (Elt F)) (p : Vec F S64x128 .f32)
    (L : List (View.Piece (Elt F) S64x128 .f32)) : v.read (Elt F) (v.writes (Elt F) f (⟨rA6, p⟩ :: L)) = p :=
  (View.read_writes_eq_canon v f _ (coverA6 p L)).trans (View.canon_cons_unit_zero (S := S64x128) hz6 _ p L)

/-- A store of the whole 1 x 64 buffer, made last, leaves its payload whatever was stored before. -/
theorem read_storeB6 {sp : Space} (v : View sig .tc sp S1x64 .f32) (f : v.ty.Contents (Elt F)) (p : Vec F S1x64 .f32)
    (L : List (View.Piece (Elt F) S1x64 .f32)) : v.read (Elt F) (v.writes (Elt F) f (⟨rB6, p⟩ :: L)) = p :=
  (View.read_writes_eq_canon v f _ (coverB6 p L)).trans (View.canon_cons_unit_zero (S := S1x64) hz6 _ p L)

/-- A load of the whole 64 x 128 buffer after one store of the whole reads the stored payload. -/
theorem rcA6 {sp : Space} (v : View sig .tc sp S64x128 .f32) (p : Vec F S64x128 .f32) :
    v.readCov [(⟨rA6, p⟩ : View.Piece (Elt F) S64x128 .f32)] rA6.toLoadRect = p :=
  View.readCov_unit_zero (S := S64x128) v hz6 _ p

/-- A load of the whole 1 x 64 buffer after one store of the whole reads the stored payload. -/
theorem rcB6 {sp : Space} (v : View sig .tc sp S1x64 .f32) (p : Vec F S1x64 .f32) :
    v.readCov [(⟨rB6, p⟩ : View.Piece (Elt F) S1x64 .f32)] rB6.toLoadRect = p :=
  View.readCov_unit_zero (S := S1x64) v hz6 _ p

/-! ## The body's triple, case by case -/

set_option maxHeartbeats 1000000 in
/-- The body at the first point: both accumulators are zeroed, then take one step over the zeros. The two output
    buffers are not touched. -/
theorem sound_kernel6_first (c : Dev nD) (E : Set ℕ) (i : grid6.Coords)
    (arg1 : Memref sig .tc .vmem S2000x128 .f32) (harg1 : arg1.IsWhole)
    (arg2 : Memref sig .tc .vmem S2000x1 .i32) (harg2 : arg2.IsWhole)
    (arg3 : Memref sig .tc .vmem S64x128 .f32) (harg3 : arg3.IsWhole)
    (arg4 : Memref sig .tc .vmem S1x64 .f32) (harg4 : arg4.IsWhole)
    (arg5 : Memref sig .tc .vmem S64x128 .f32) (harg5 : arg5.IsWhole)
    (arg6 : Memref sig .tc .vmem S1x64 .f32) (harg6 : arg6.IsWhole)
    (hc0 : cond6_0 i) (hc1 : ¬k6_cond2 i = 1#1)
    (x0 : Vec F S2000x128 .f32) (x1 : Vec F S2000x1 .i32) (K : PUnit → sProp 𝕄) :
    iprop(owns (c : Thread nD τ) arg1 fullShare x0 ∗ owns (c : Thread nD τ) arg2 fullShare x1
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (k6_pay4 x1 x0 (k6_pay1 (F := F))) ∗ owns (c : Thread nD τ) arg6 fullShare (k6_pay5 x1 (k6_pay2 (F := F)))) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_words
    rw [read_storeA6]
    exact congr (congr (congrArg k6_pay4 (ldI6 _)) (ldX6 _)) (rcA6 _ _)
  iexists _; isplitr
  swap; · iexact H6
  · ipureintro
    sl_unfold_words
    rw [read_storeB6]
    exact congr (congrArg k6_pay5 (ldI6 _)) (rcB6 _ _)

set_option maxHeartbeats 1000000 in
/-- The body at a point that is neither the first nor the last: each accumulator takes one step over what it
    held. The two output buffers are not touched. -/
theorem sound_kernel6_mid (c : Dev nD) (E : Set ℕ) (i : grid6.Coords)
    (arg1 : Memref sig .tc .vmem S2000x128 .f32) (harg1 : arg1.IsWhole)
    (arg2 : Memref sig .tc .vmem S2000x1 .i32) (harg2 : arg2.IsWhole)
    (arg3 : Memref sig .tc .vmem S64x128 .f32) (harg3 : arg3.IsWhole)
    (arg4 : Memref sig .tc .vmem S1x64 .f32) (harg4 : arg4.IsWhole)
    (arg5 : Memref sig .tc .vmem S64x128 .f32) (harg5 : arg5.IsWhole)
    (arg6 : Memref sig .tc .vmem S1x64 .f32) (harg6 : arg6.IsWhole)
    (hc0 : ¬cond6_0 i) (hc1 : ¬k6_cond2 i = 1#1)
    (x0 : Vec F S2000x128 .f32) (x1 : Vec F S2000x1 .i32) (s0 : Vec F S64x128 .f32) (s1 : Vec F S1x64 .f32) (K : PUnit → sProp 𝕄) :
    iprop(owns (c : Thread nD τ) arg1 fullShare x0 ∗ owns (c : Thread nD τ) arg2 fullShare x1
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg5 fullShare (k6_pay4 x1 x0 s0) ∗ owns (c : Thread nD τ) arg6 fullShare (k6_pay5 x1 s1)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_words
    rw [read_storeA6]
    exact congr (congr (congrArg k6_pay4 (ldI6 _)) (ldX6 _)) (ldA6 _)
  iexists _; isplitr
  swap; · iexact H6
  · ipureintro
    sl_unfold_words
    rw [read_storeB6]
    exact congr (congrArg k6_pay5 (ldI6 _)) (ldB6 _)

set_option maxHeartbeats 1000000 in
/-- The body at the last point: each accumulator takes one step over what it held, and is then copied into its
    output buffer. -/
theorem sound_kernel6_last (c : Dev nD) (E : Set ℕ) (i : grid6.Coords)
    (arg1 : Memref sig .tc .vmem S2000x128 .f32) (harg1 : arg1.IsWhole)
    (arg2 : Memref sig .tc .vmem S2000x1 .i32) (harg2 : arg2.IsWhole)
    (arg3 : Memref sig .tc .vmem S64x128 .f32) (harg3 : arg3.IsWhole)
    (arg4 : Memref sig .tc .vmem S1x64 .f32) (harg4 : arg4.IsWhole)
    (arg5 : Memref sig .tc .vmem S64x128 .f32) (harg5 : arg5.IsWhole)
    (arg6 : Memref sig .tc .vmem S1x64 .f32) (harg6 : arg6.IsWhole)
    (hc0 : ¬cond6_0 i) (hc1 : k6_cond2 i = 1#1)
    (x0 : Vec F S2000x128 .f32) (x1 : Vec F S2000x1 .i32) (s0 : Vec F S64x128 .f32) (s1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k6_pay4 x1 x0 s0) ∗ owns (c : Thread nD τ) arg4 fullShare (k6_pay5 x1 s1)
            ∗ owns (c : Thread nD τ) arg5 fullShare (k6_pay4 x1 x0 s0) ∗ owns (c : Thread nD τ) arg6 fullShare (k6_pay5 x1 s1)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [read_storeA6]
    exact (rcA6 _ _).trans (congr (congr (congrArg k6_pay4 (ldI6 _)) (ldX6 _)) (ldA6 _))
  isplitl [H4]
  · iexists _; isplitr
    swap; · iexact H4
    ipureintro
    sl_unfold_words
    rw [read_storeB6]
    exact (rcB6 _ _).trans (congr (congrArg k6_pay5 (ldI6 _)) (ldB6 _))
  isplitl [H5]
  · iexists _; isplitr
    swap; · iexact H5
    ipureintro
    sl_unfold_words
    rw [read_storeA6]
    exact congr (congr (congrArg k6_pay4 (ldI6 _)) (ldX6 _)) (ldA6 _)
  iexists _; isplitr
  swap; · iexact H6
  · ipureintro
    sl_unfold_words
    rw [read_storeB6]
    exact congr (congrArg k6_pay5 (ldI6 _)) (ldB6 _)

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- THE ACCUMULATION. What the two scratch accumulators hold after the body at point n: at the first point one
    step over zeros, afterwards one step over what the point before left. -/
def accAt6 (c : Dev nD) : (n : ℕ) → n < cfg6.N → Vec F S64x128 .f32 × Vec F S1x64 .f32
  | 0, hn => (k6_pay4 (iblk6 V c 1 ⟨0, hn⟩) (iblk6 V c 0 ⟨0, hn⟩) (k6_pay1 (F := F)),
              k6_pay5 (iblk6 V c 1 ⟨0, hn⟩) (k6_pay2 (F := F)))
  | n + 1, hn => (k6_pay4 (iblk6 V c 1 ⟨n + 1, hn⟩) (iblk6 V c 0 ⟨n + 1, hn⟩) (accAt6 c n (Nat.lt_of_succ_lt hn)).1,
                  k6_pay5 (iblk6 V c 1 ⟨n + 1, hn⟩) (accAt6 c n (Nat.lt_of_succ_lt hn)).2)

/-- The region invariant before point n: before the first point every scratch at anything; afterwards the two
    accumulators at what the point before left, the other scoped buffers at anything, the generator register at
    some state. -/
def Phi6 (c : Dev nD) : (n : ℕ) → n ≤ cfg6.N → sProp 𝕄
  | 0, _ => Pipeline.ΦA spec6 c
  | n + 1, hn => iprop(owns (c : Thread nD τ) (Memref.whole cc6_scratch0) fullShare ((accAt6 V c n hn).1)
      ∗ owns (c : Thread nD τ) (Memref.whole cc6_scratch1) fullShare ((accAt6 V c n hn).2)
      ∗ Pipeline.scopedRestBut (Ix := Unit) (Name := ℕ) (U := UR sig nD τ) (Lvl := ℕ) (Val := Elt F) spec6 c [cc6_scratch0, cc6_scratch1]
      ∗ ∃ r, prngReg c r)

/-- The proof data: the arrays as the region finds them; after the body each input's buffer at its block, each
    output's at the accumulator's contents (read only at the last point, the one point that stores and writes them
    back); the invariant above; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (accAt6 V c t.val t.isLt).1
    | ⟨3, _⟩ => (accAt6 V c t.val t.isLt).2
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (accAt6 V c t.val t.isLt).1 := by dsimp only [dat6]
theorem after6_3 (c : Dev nD) (t : Fin cfg6.N) : (dat6 V c).after 3 t = (accAt6 V c t.val t.isLt).2 := by dsimp only [dat6]

/-! ## The accumulation, point by point -/

/-- After the first point: one step over zeros. -/
theorem accAt6_first (c : Dev nD) (t : Fin cfg6.N) (h : t.val = 0) :
    accAt6 V c t.val t.isLt = (k6_pay4 (iblk6 V c 1 t) (iblk6 V c 0 t) (k6_pay1 (F := F)), k6_pay5 (iblk6 V c 1 t) (k6_pay2 (F := F))) := by
  obtain ⟨n, hn⟩ := t
  cases n with
  | zero => rfl
  | succ n => exact absurd h (Nat.succ_ne_zero n)

/-- After a later point: one step over what the point before left. -/
theorem accAt6_later (c : Dev nD) (t : Fin cfg6.N) (h : t.val ≠ 0) :
    accAt6 V c t.val t.isLt
      = (k6_pay4 (iblk6 V c 1 t) (iblk6 V c 0 t) (accAt6 V c (t.val - 1) (Nat.lt_of_le_of_lt (Nat.sub_le _ _) t.isLt)).1,
         k6_pay5 (iblk6 V c 1 t) (accAt6 V c (t.val - 1) (Nat.lt_of_le_of_lt (Nat.sub_le _ _) t.isLt)).2) := by
  obtain ⟨n, hn⟩ := t
  cases n with
  | zero => exact absurd rfl h
  | succ n => rfl

/-! ## The invariant, restated -/

/-- Before the first point: the class invariant. -/
theorem Phi6_first (c : Dev nD) (n : ℕ) (h : n ≤ cfg6.N) (hz : n = 0) : Phi6 V c n h = Pipeline.ΦA spec6 c := by
  subst hz; rfl

/-- Before a point that is not the first: the accumulators at what the point before left. -/
theorem Phi6_later (c : Dev nD) (n : ℕ) (h : n ≤ cfg6.N) (hz : n ≠ 0) :
    Phi6 V c n h = iprop(owns (c : Thread nD τ) (Memref.whole cc6_scratch0) fullShare ((accAt6 V c (n - 1) (Nat.lt_of_lt_of_le (Nat.sub_lt (Nat.pos_of_ne_zero hz) Nat.one_pos) h)).1)
      ∗ owns (c : Thread nD τ) (Memref.whole cc6_scratch1) fullShare ((accAt6 V c (n - 1) (Nat.lt_of_lt_of_le (Nat.sub_lt (Nat.pos_of_ne_zero hz) Nat.one_pos) h)).2)
      ∗ Pipeline.scopedRestBut (Ix := Unit) (Name := ℕ) (U := UR sig nD τ) (Lvl := ℕ) (Val := Elt F) spec6 c [cc6_scratch0, cc6_scratch1]
      ∗ ∃ r, prngReg c r) := by
  cases n with
  | zero => exact absurd rfl hz
  | succ n => rfl

/-- The class invariant with the two accumulators taken out of the scoped rest, each at some contents. -/
theorem PhiA6_eq (c : Dev nD) :
    (Pipeline.ΦA (U := UR sig nD τ) (Val := Elt F) spec6 c : sProp 𝕄)
      = iprop((((∃ d, owns (c : Thread nD τ) (Memref.whole cc6_scratch0) fullShare d) ∗ (∃ d, owns (c : Thread nD τ) (Memref.whole cc6_scratch1) fullShare d))
          ∗ Pipeline.scopedRestBut (Ix := Unit) (Name := ℕ) (U := UR sig nD τ) (Lvl := ℕ) (Val := Elt F) spec6 c [cc6_scratch0, cc6_scratch1])
          ∗ ∃ r, prngReg c r) := by
  unfold Pipeline.ΦA; rw [scopedRest6_split]; simp only [owns_whole]; try rfl

/-! ## Where the two outputs are idle, and where they are written back -/

/-- The two outputs are stored only under the last conditional: at every point but the last they are idle, and the
    pipeline does not write them back there; at the last point they are live. Decided over the fifty points. -/
theorem idle6_2_of : ∀ t : Fin cfg6.N, t.val ≠ 49 → cfg6.idle 2 (grid6.coords t) = true :=
  (by decide +kernel : ∀ t : Fin grid6.N, t.val ≠ 49 → idle6 2 (grid6.coords t) = true)
theorem idle6_3_of : ∀ t : Fin cfg6.N, t.val ≠ 49 → cfg6.idle 3 (grid6.coords t) = true :=
  (by decide +kernel : ∀ t : Fin grid6.N, t.val ≠ 49 → idle6 3 (grid6.coords t) = true)
theorem live6_2_of : ∀ t : Fin cfg6.N, t.val = 49 → cfg6.idle 2 (grid6.coords t) = false :=
  (by decide +kernel : ∀ t : Fin grid6.N, t.val = 49 → idle6 2 (grid6.coords t) = false)
theorem live6_3_of : ∀ t : Fin cfg6.N, t.val = 49 → cfg6.idle 3 (grid6.coords t) = false :=
  (by decide +kernel : ∀ t : Fin grid6.N, t.val = 49 → idle6 3 (grid6.coords t) = false)
theorem noflush6_2_of : ∀ t : Fin cfg6.N, t.val ≠ 49 → (cfg6.win 2).flush t = false :=
  (by decide +kernel : ∀ t : Fin grid6.N, t.val ≠ 49 → win6_2.flush t = false)
theorem noflush6_3_of : ∀ t : Fin cfg6.N, t.val ≠ 49 → (cfg6.win 3).flush t = false :=
  (by decide +kernel : ∀ t : Fin grid6.N, t.val ≠ 49 → win6_3.flush t = false)

/-! ## The inputs are found at their blocks -/

/-- The feature block is fetched at every point, so its buffer holds it. -/
theorem before6_0 (c : Dev nD) (t : Fin cfg6.N) (d) : (dat6 V c).before 0 t d = iblk6 V c 0 t :=
  ((dat6 V c).before_fetched 0 t (fetch6_0 t) d).trans (by unfold Dat.fetched Dat.blockOf iblk6; rw [A_eq6]; try rfl)

/-- The id block is fetched at every point, so its buffer holds it. -/
theorem before6_1 (c : Dev nD) (t : Fin cfg6.N) (d) : (dat6 V c).before 1 t d = iblk6 V c 1 t :=
  ((dat6 V c).before_fetched 1 t (fetch6_1 t) d).trans (by unfold Dat.fetched Dat.blockOf iblk6; rw [A_eq6]; try rfl)

/-! ## The body obligation -/

/-- What the body is called with at point t, the windows one by one; -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4000000 in
/-- The body at any point. The inputs' buffers hold their blocks. At the last point the accumulators are found at what
    the point before left, step, and are copied into the outputs; elsewhere the outputs are handed back as found, and
    the accumulators step from zeros (the first point) or from what the point before left. The invariant takes the
    accumulators back at this point's contents; the rest of the scoped buffers, the generator register and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = iprop(owns (c : Thread nD τ) (Memref.whole cc6_scratch0) fullShare ((accAt6 V c t.val t.isLt).1)
      ∗ owns (c : Thread nD τ) (Memref.whole cc6_scratch1) fullShare ((accAt6 V c t.val t.isLt).2)
      ∗ Pipeline.scopedRestBut (Ix := Unit) (Name := ℕ) (U := UR sig nD τ) (Lvl := ℕ) (Val := Elt F) spec6 c [cc6_scratch0, cc6_scratch1]
      ∗ ∃ r, prngReg c r) from rfl]
  rw [show (dat6 V c).Φ t.castSucc = Phi6 V c t.val (Nat.le_of_lt t.isLt) from rfl]
  rw [show (dat6 V c).leavesExact 0 t = owns (c : Thread nD τ) (st6_0 t) fullShare ((dat6 V c).after 0 t) from rfl, after6_0]
  rw [show (dat6 V c).leavesExact 1 t = owns (c : Thread nD τ) (st6_1 t) fullShare ((dat6 V c).after 1 t) from rfl, after6_1]
  have hN : t.val < 50 := lt_of_lt_of_eq t.isLt (show cfg6.N = 50 from N_6)
  by_cases hl : t.val = 49
  · -- the last point: the accumulators step, and are copied into the outputs, which are written back
    have hz : t.val ≠ 0 := by omega
    rw [show (dat6 V c).leavesExact 2 t = owns (c : Thread nD τ) (st6_2 t) fullShare ((dat6 V c).after 2 t) from by
      unfold Dat.leavesExact; rw [live6_2_of t hl], after6_2]
    rw [show (dat6 V c).leavesExact 3 t = owns (c : Thread nD τ) (st6_3 t) fullShare ((dat6 V c).after 3 t) from by
      unfold Dat.leavesExact; rw [live6_3_of t hl], after6_3]
    rw [accAt6_later V c t hz]; dsimp only
    rw [Phi6_later V c _ _ hz]
    iintro ⟨⟨HS0, HS1, HR, Hg⟩, Ho, ⟨%d0, H0⟩, ⟨%d1, H1⟩, ⟨%d2, H2⟩, ⟨%d3, H3⟩⟩
    iapply (sound_kernel6_last c Set.univ (grid6.coords t) _ _ _ _ _ _ _ _ _ _ _ _
      (fun h => hz ((hcond6_0 t).mp h)) ((hcond6_1 t).mpr hl) (iblk6 V c 0 t) (iblk6 V c 1 t)
      (accAt6 V c (t.val - 1) (Nat.lt_of_le_of_lt (Nat.sub_le _ _) t.isLt)).1
      (accAt6 V c (t.val - 1) (Nat.lt_of_le_of_lt (Nat.sub_le _ _) t.isLt)).2 _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    iexact H3
  · -- not the last point: the outputs are idle and not written back; they are handed back as found
    rw [Dat.leavesExact_idle (dat6 V c) 2 t (idle6_2_of t hl) (noflush6_2_of t hl)]
    rw [Dat.leavesExact_idle (dat6 V c) 3 t (idle6_3_of t hl) (noflush6_3_of t hl)]
    by_cases hz : t.val = 0
    · -- the first point: the accumulators are found at anything, zeroed, and step
      rw [accAt6_first V c t hz]; dsimp only
      rw [Phi6_first V c _ _ hz, PhiA6_eq]
      iintro ⟨⟨⟨⟨⟨%e0, HS0⟩, ⟨%e1, HS1⟩⟩, HR⟩, Hg⟩, Ho, ⟨%d0, H0⟩, ⟨%d1, H1⟩, H2, H3⟩
      iapply (sound_kernel6_first c Set.univ (grid6.coords t) _ _ _ _ _ _ _ _ _ _ _ _
        ((hcond6_0 t).mpr hz) (fun h => hl ((hcond6_1 t).mp h)) (iblk6 V c 0 t) (iblk6 V c 1 t) _)
      isplitl [H0]; · iexact H0
      isplitl [H1]; · iexact H1
      isplitl [HS0]; · iexists _; iexact HS0
      isplitl [HS1]; · iexists _; iexact HS1
      iintro ⟨H0, H1, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      iexact H3
    · -- a point in between: the accumulators are found at what the point before left, and step
      rw [accAt6_later V c t hz]; dsimp only
      rw [Phi6_later V c _ _ hz]
      iintro ⟨⟨HS0, HS1, HR, Hg⟩, Ho, ⟨%d0, H0⟩, ⟨%d1, H1⟩, H2, H3⟩
      iapply (sound_kernel6_mid c Set.univ (grid6.coords t) _ _ _ _ _ _ _ _ _ _ _ _
        (fun h => hz ((hcond6_0 t).mp h)) (fun h => hl ((hcond6_1 t).mp h)) (iblk6 V c 0 t) (iblk6 V c 1 t)
        (accAt6 V c (t.val - 1) (Nat.lt_of_le_of_lt (Nat.sub_le _ _) t.isLt)).1
        (accAt6 V c (t.val - 1) (Nat.lt_of_le_of_lt (Nat.sub_le _ _) t.isLt)).2 _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      iexact H3

/-- The body obligation at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA (U := UR sig nD τ) (Val := Elt F) spec6 c ⊢ (dat6 V c).Φ 0 := by
  show Pipeline.ΦA (U := UR sig nD τ) (Val := Elt F) spec6 c ⊢ Phi6 V c 0 (Nat.zero_le _)
  exact Idealize.SL.BI.Entails.refl _

/-- After the last point the invariant gives the class invariant back: the accumulators' contents are forgotten. -/
theorem hout6 (c : Dev nD) : (dat6 V c).Φ (Fin.last cfg6.N) ⊢ Pipeline.ΦA (U := UR sig nD τ) (Val := Elt F) spec6 c := by
  have hN : cfg6.N = 50 := N_6
  rw [show (dat6 V c).Φ (Fin.last cfg6.N) = Phi6 V c cfg6.N (Nat.le_refl _) from rfl,
    Phi6_later V c _ _ (by rw [hN]; exact Nat.succ_ne_zero 49), PhiA6_eq]
  iintro ⟨HS0, HS1, HR, Hg⟩
  isplitl [HS0 HS1 HR]
  · isplitl [HS0 HS1]
    · isplitl [HS0]
      · iexists _; iexact HS0
      iexists _; iexact HS1
    iexact HR
  iexact Hg

end Cert.KernelIdeal.Hand

end
-- ==== Proof.KI.Chain.lean ====
/-
  The contents of the core's unscoped buffers between the items of the program, as a fold from the launch memory:
  a stretch of host operations applies them; a kernel region replaces its output array by what its pipeline
  leaves there (the write-backs of its blocks folded over the entry contents) and leaves every other buffer alone.
  Each stage is defined over the stage before it, so the regions' proof data, each stated at the contents its
  region is entered with, are all fixed before the run. The generated host side of the frame is stated over an
  unknown family of region outputs; here that family is given, and the generated valuations are these stages.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.RegMM0
import proofs.«403028_j84353157693520_1_alg».proof.Proof.KI.RegCB1
import proofs.«403028_j84353157693520_1_alg».proof.Proof.KI.RegMM2
import proofs.«403028_j84353157693520_1_alg».proof.Proof.KI.RegCB3
import proofs.«403028_j84353157693520_1_alg».proof.Proof.KI.RegMM4
import proofs.«403028_j84353157693520_1_alg».proof.Proof.KI.RegCB5
import proofs.«403028_j84353157693520_1_alg».proof.Proof.KI.RegPool6
import proofs.«403028_j84353157693520_1_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

/-- A valuation read at the TensorCore's references: what a region's proof data take as entry contents. -/
abbrev rd (W : Dev nD → Valuation τ sig (Elt F)) : (c : Dev nD) → (b : Ref sig .tc) → Buf (Elt F) ((c : Thread nD τ).loc b) :=
  fun c b => W c b

/-- After the first host stretch: region 0's entry. -/
abbrev X1 (c : Dev nD) : Valuation τ sig (Elt F) := V1 m c
/-- Region 0's arrays at its exit. -/
def o2 (c : Dev nD) : Valuation τ sig (Elt F) :=
  Pipeline.withArrays spec0 c (X1 m c) fun w => (dat0 (rd (X1 m)) c).arrAt w cfg0.N
abbrev X2 (c : Dev nD) : Valuation τ sig (Elt F) := Function.update (X1 m c) main_v35 (o2 m c main_v35)
/-- After the second host stretch: region 1's entry. -/
abbrev X3 (c : Dev nD) : Valuation τ sig (Elt F) := StableHlo.after hostOps1 (X2 m c)
def o4 (c : Dev nD) : Valuation τ sig (Elt F) :=
  Pipeline.withArrays spec1 c (X3 m c) fun w => (dat1 (rd (X3 m)) c).arrAt w cfg1.N
/-- Region 2's entry. -/
abbrev X4 (c : Dev nD) : Valuation τ sig (Elt F) := Function.update (X3 m c) main_v54 (o4 m c main_v54)
def o5 (c : Dev nD) : Valuation τ sig (Elt F) :=
  Pipeline.withArrays spec2 c (X4 m c) fun w => (dat2 (rd (X4 m)) c).arrAt w cfg2.N
abbrev X5 (c : Dev nD) : Valuation τ sig (Elt F) := Function.update (X4 m c) main_v55 (o5 m c main_v55)
/-- After the third host stretch: region 3's entry. -/
abbrev X6 (c : Dev nD) : Valuation τ sig (Elt F) := StableHlo.after hostOps3 (X5 m c)
def o7 (c : Dev nD) : Valuation τ sig (Elt F) :=
  Pipeline.withArrays spec3 c (X6 m c) fun w => (dat3 (rd (X6 m)) c).arrAt w cfg3.N
/-- Region 4's entry. -/
abbrev X7 (c : Dev nD) : Valuation τ sig (Elt F) := Function.update (X6 m c) main_v74 (o7 m c main_v74)
def o8 (c : Dev nD) : Valuation τ sig (Elt F) :=
  Pipeline.withArrays spec4 c (X7 m c) fun w => (dat4 (rd (X7 m)) c).arrAt w cfg4.N
abbrev X8 (c : Dev nD) : Valuation τ sig (Elt F) := Function.update (X7 m c) main_v75 (o8 m c main_v75)
/-- After the fourth host stretch: region 5's entry. -/
abbrev X9 (c : Dev nD) : Valuation τ sig (Elt F) := StableHlo.after hostOps5 (X8 m c)
def o10 (c : Dev nD) : Valuation τ sig (Elt F) :=
  Pipeline.withArrays spec5 c (X9 m c) fun w => (dat5 (rd (X9 m)) c).arrAt w cfg5.N
/-- Region 6's entry. -/
abbrev X10 (c : Dev nD) : Valuation τ sig (Elt F) := Function.update (X9 m c) main_v94 (o10 m c main_v94)
def o11 (c : Dev nD) : Valuation τ sig (Elt F) :=
  Pipeline.withArrays spec6 c (X10 m c) fun w => (dat6 (rd (X10 m)) c).arrAt w cfg6.N
abbrev X11 (c : Dev nD) : Valuation τ sig (Elt F) :=
  Function.update (Function.update (X10 m c) main_v95_0 (o11 m c main_v95_0)) main_v95_1 (o11 m c main_v95_1)
/-- After the last host stretch: what the program returns with. -/
abbrev X12 (c : Dev nD) : Valuation τ sig (Elt F) := StableHlo.after hostOps7 (X11 m c)

/-- What each region leaves, as the family the generated host side of the frame is stated over. -/
def outs : Outs (F := F) := fun j r c =>
  match j with
  | 2 => o2 m c r
  | 4 => o4 m c r
  | 5 => o5 m c r
  | 7 => o7 m c r
  | 8 => o8 m c r
  | 10 => o10 m c r
  | 11 => o11 m c r
  | _ => X1 m c r

theorem V2_eq (c : Dev nD) : V2 m (outs m) c = X2 m c := rfl
theorem V3_eq (c : Dev nD) : V3 m (outs m) c = X3 m c := rfl
theorem V4_eq (c : Dev nD) : V4 m (outs m) c = X4 m c := rfl
theorem V5_eq (c : Dev nD) : V5 m (outs m) c = X5 m c := rfl
theorem V6_eq (c : Dev nD) : V6 m (outs m) c = X6 m c := rfl
theorem V7_eq (c : Dev nD) : V7 m (outs m) c = X7 m c := rfl
theorem V8_eq (c : Dev nD) : V8 m (outs m) c = X8 m c := rfl
theorem V9_eq (c : Dev nD) : V9 m (outs m) c = X9 m c := rfl
theorem V10_eq (c : Dev nD) : V10 m (outs m) c = X10 m c := rfl
theorem V11_eq (c : Dev nD) : V11 m (outs m) c = X11 m c := rfl
theorem V12_eq (c : Dev nD) : V12 m (outs m) c = X12 m c := rfl

/-- Every pipeline's proof data, each at its region's entry contents: a literal match on the pipeline. -/
def pdats : (p : Fin 7) → (c : Dev nD) → Dat τ (Elt F) Unit ℕ (UR sig nD τ) ℕ (cfgs p) c
  | ⟨0, _⟩ => fun c => dat0 (rd (X1 m)) c
  | ⟨1, _⟩ => fun c => dat1 (rd (X3 m)) c
  | ⟨2, _⟩ => fun c => dat2 (rd (X4 m)) c
  | ⟨3, _⟩ => fun c => dat3 (rd (X6 m)) c
  | ⟨4, _⟩ => fun c => dat4 (rd (X7 m)) c
  | ⟨5, _⟩ => fun c => dat5 (rd (X9 m)) c
  | ⟨6, _⟩ => fun c => dat6 (rd (X10 m)) c

/-! ## The pipelines by name -/

abbrev pK0 : Fin 7 := 0
abbrev pK1 : Fin 7 := 1
abbrev pK2 : Fin 7 := 2
abbrev pK3 : Fin 7 := 3
abbrev pK4 : Fin 7 := 4
abbrev pK5 : Fin 7 := 5
abbrev pK6 : Fin 7 := 6

/-! ## What rides beside the buffers -/

/-- No variant, no level: no core of this program waits for another. -/
abbrev Vn : Variants := Variants.none
abbrev Lz : GSem nD τ sig → Finset Unit := fun _ => ∅
abbrev lvz : GSem nD τ sig → Unit → ℕ := fun _ _ => 0

/-- The rest of a core's thread state between two items: its generator register at some state, and the core owing
    nothing. Every region of this program takes it in and gives it back. -/
abbrev Rst (c : Dev nD) : sProp 𝕄 :=
  iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
/-
  Region 0 as a step of the run. It is entered with every unscoped buffer at the contents the first host stretch
  leaves and left with the same contents except its output array, which holds what the 50 write-backs leave: the
  two input arrays end as entered, no other buffer is touched. On the way in the region's three arrays are split out
  of the unscoped buffers and on the way out put back; the generator register passes through the region's
  invariant; the core owes nothing before and after, and the kernel has no semaphore of its own.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o2_out (c : Dev nD) : o2 m c main_v35 = (dat0 (rd (X1 m)) c).arrAt 2 cfg0.N := by
  unfold o2; exact Pipeline.withArrays_arr spec0 launch0.win.arr_inj c _ _ 2

set_option maxHeartbeats 2000000 in
/-- At the exit each of the region's arrays holds what the pipeline leaves: an input its entry contents, the
    output its folded write-backs. -/
theorem hF0 (c : Dev nD) (w : Fin cfg0.W) : (pdats m pK0 c).arrAt w cfg0.N = rd (X2 m) c (Pipeline.arrRef spec0 w) := by
  match w with
  | ⟨0, _⟩ => exact ((dat0 (rd (X1 m)) c).arrAt_in 0 rfl cfg0.N).trans ((A_eq0 (rd (X1 m)) c 0).trans (Function.update_of_ne (StableHlo.devRef_ne_of_ne (by decide) : (Proc.devRef .tc (Pipeline.arrRef spec0 0) : DevRef τ sig) ≠ Proc.devRef .tc main_v35) (o2 m c main_v35) (X1 m c)).symm)
  | ⟨1, _⟩ => exact ((dat0 (rd (X1 m)) c).arrAt_in 1 rfl cfg0.N).trans ((A_eq0 (rd (X1 m)) c 1).trans (Function.update_of_ne (StableHlo.devRef_ne_of_ne (by decide) : (Proc.devRef .tc (Pipeline.arrRef spec0 1) : DevRef τ sig) ≠ Proc.devRef .tc main_v35) (o2 m c main_v35) (X1 m c)).symm)
  | ⟨2, _⟩ => exact (o2_out m c).symm.trans (Function.update_self (Proc.devRef .tc main_v35 : DevRef τ sig) (o2 m c main_v35) (X1 m c)).symm

set_option maxHeartbeats 2000000 in
/-- Every buffer that is none of the region's arrays is left as entered. -/
theorem hrest0 (c : Dev nD) : ∀ b, b ∉ Finset.univ.image (Pipeline.arrRef spec0) → rd (X2 m) c b = rd (X1 m) c b :=
  fun b hb => Function.update_of_ne (StableHlo.devRef_ne_of_ne fun h =>
    hb (Finset.mem_image.mpr ⟨2, Finset.mem_univ _, (show Pipeline.arrRef spec0 2 = b from h.symm)⟩)) (o2 m c main_v35) (X1 m c)

set_option backward.isDefEq.respectTransparency.types false in
/-- Region 0 over the thread state. -/
def reg0 : Pipeline.RegionSeg (pcfgs (F := F)) adm (pdats m) () defs₀ Vn Lz lvz pK0 where
  win := launch0.win.to₀
  block_pos := launch0.block_pos
  stage_whole := launch0.stage_whole
  K := PEmpty
  osem k := k.elim
  ho := Pipeline.OwnSemFacts.none _
  hbody c := (body_obligation0 (rd (X1 m)) c).loose
  hwaits := Pipeline.hwaits_of_owed_zero _ _ _ _ Lz lvz pK0 fun _ _ => rfl
  pre c := iprop(StableHlo.held (c : Thread nD τ) (Pipeline.ucRefs τ sig) (X1 m c) ∗ Rst c)
  post c := iprop(StableHlo.held (c : Thread nD τ) (Pipeline.ucRefs τ sig) (X2 m c) ∗ Rst c)
  X c := iprop(∃ r, prngReg c r)
  Y c := iprop(∃ r, prngReg c r)
  Z c := Pipeline.unscopedRest (Ix := Unit) (Name := ℕ) (U := UR sig nD τ) (Lvl := ℕ) spec0 c (rd (X1 m) c)
  hentry c := by
    -- the arrays out of the unscoped buffers; no table; the core owes nothing; the register enters the invariant
    rw [Pipeline.ownSems0_none]
    have hsplit := Pipeline.arrays_of_unscopedBufs (p := pK0) (pcfgs (F := F)) adm (pdats m) launch0.win launch0.arr_whole c
      ((pdats m pK0 c).share_full fun _ => rfl) (rd (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m pK0 c).Φ (Fin.last _) = Pipeline.ΦA spec0 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK0) (pcfgs (F := F)) adm (Ix := Unit) (Name := ℕ) (U := UR sig nD τ) (Lvl := ℕ)
      launch0.win launch0.arr_whole c (pdats m) ((pdats m pK0 c).share_full fun _ => rfl)
      (rd (X1 m) c) (rd (X2 m) c) ((pdats m pK0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a step of the run. It is entered with every unscoped buffer at the contents the second host stretch
  leaves and left with the same contents except its output array, which holds what the 50 write-backs leave: the
  four input arrays end as entered, no other buffer is touched. On the way in the region's five arrays are split out
  of the unscoped buffers and on the way out put back; the generator register passes through the region's
  invariant; the core owes nothing before and after, and the kernel has no semaphore of its own.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o4_out (c : Dev nD) : o4 m c main_v54 = (dat1 (rd (X3 m)) c).arrAt 4 cfg1.N := by
  unfold o4; exact Pipeline.withArrays_arr spec1 launch1.win.arr_inj c _ _ 4

set_option maxHeartbeats 2000000 in
/-- At the exit each of the region's arrays holds what the pipeline leaves: an input its entry contents, the
    output its folded write-backs. -/
theorem hF1 (c : Dev nD) (w : Fin cfg1.W) : (pdats m pK1 c).arrAt w cfg1.N = rd (X4 m) c (Pipeline.arrRef spec1 w) := by
  match w with
  | ⟨0, _⟩ => exact ((dat1 (rd (X3 m)) c).arrAt_in 0 rfl cfg1.N).trans ((A_eq1 (rd (X3 m)) c 0).trans (Function.update_of_ne (StableHlo.devRef_ne_of_ne (by decide) : (Proc.devRef .tc (Pipeline.arrRef spec1 0) : DevRef τ sig) ≠ Proc.devRef .tc main_v54) (o4 m c main_v54) (X3 m c)).symm)
  | ⟨1, _⟩ => exact ((dat1 (rd (X3 m)) c).arrAt_in 1 rfl cfg1.N).trans ((A_eq1 (rd (X3 m)) c 1).trans (Function.update_of_ne (StableHlo.devRef_ne_of_ne (by decide) : (Proc.devRef .tc (Pipeline.arrRef spec1 1) : DevRef τ sig) ≠ Proc.devRef .tc main_v54) (o4 m c main_v54) (X3 m c)).symm)
  | ⟨2, _⟩ => exact ((dat1 (rd (X3 m)) c).arrAt_in 2 rfl cfg1.N).trans ((A_eq1 (rd (X3 m)) c 2).trans (Function.update_of_ne (StableHlo.devRef_ne_of_ne (by decide) : (Proc.devRef .tc (Pipeline.arrRef spec1 2) : DevRef τ sig) ≠ Proc.devRef .tc main_v54) (o4 m c main_v54) (X3 m c)).symm)
  | ⟨3, _⟩ => exact ((dat1 (rd (X3 m)) c).arrAt_in 3 rfl cfg1.N).trans ((A_eq1 (rd (X3 m)) c 3).trans (Function.update_of_ne (StableHlo.devRef_ne_of_ne (by decide) : (Proc.devRef .tc (Pipeline.arrRef spec1 3) : DevRef τ sig) ≠ Proc.devRef .tc main_v54) (o4 m c main_v54) (X3 m c)).symm)
  | ⟨4, _⟩ => exact (o4_out m c).symm.trans (Function.update_self (Proc.devRef .tc main_v54 : DevRef τ sig) (o4 m c main_v54) (X3 m c)).symm

set_option maxHeartbeats 2000000 in
/-- Every buffer that is none of the region's arrays is left as entered. -/
theorem hrest1 (c : Dev nD) : ∀ b, b ∉ Finset.univ.image (Pipeline.arrRef spec1) → rd (X4 m) c b = rd (X3 m) c b :=
  fun b hb => Function.update_of_ne (StableHlo.devRef_ne_of_ne fun h =>
    hb (Finset.mem_image.mpr ⟨4, Finset.mem_univ _, (show Pipeline.arrRef spec1 4 = b from h.symm)⟩)) (o4 m c main_v54) (X3 m c)

set_option backward.isDefEq.respectTransparency.types false in
/-- Region 1 over the thread state. -/
def reg1 : Pipeline.RegionSeg (pcfgs (F := F)) adm (pdats m) () defs₀ Vn Lz lvz pK1 where
  win := launch1.win.to₀
  block_pos := launch1.block_pos
  stage_whole := launch1.stage_whole
  K := PEmpty
  osem k := k.elim
  ho := Pipeline.OwnSemFacts.none _
  hbody c := (body_obligation1 (rd (X3 m)) c).loose
  hwaits := Pipeline.hwaits_of_owed_zero _ _ _ _ Lz lvz pK1 fun _ _ => rfl
  pre c := iprop(StableHlo.held (c : Thread nD τ) (Pipeline.ucRefs τ sig) (X3 m c) ∗ Rst c)
  post c := iprop(StableHlo.held (c : Thread nD τ) (Pipeline.ucRefs τ sig) (X4 m c) ∗ Rst c)
  X c := iprop(∃ r, prngReg c r)
  Y c := iprop(∃ r, prngReg c r)
  Z c := Pipeline.unscopedRest (Ix := Unit) (Name := ℕ) (U := UR sig nD τ) (Lvl := ℕ) spec1 c (rd (X3 m) c)
  hentry c := by
    -- the arrays out of the unscoped buffers; no table; the core owes nothing; the register enters the invariant
    rw [Pipeline.ownSems0_none]
    have hsplit := Pipeline.arrays_of_unscopedBufs (p := pK1) (pcfgs (F := F)) adm (pdats m) launch1.win launch1.arr_whole c
      ((pdats m pK1 c).share_full fun _ => rfl) (rd (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m pK1 c).Φ (Fin.last _) = Pipeline.ΦA spec1 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK1) (pcfgs (F := F)) adm (Ix := Unit) (Name := ℕ) (U := UR sig nD τ) (Lvl := ℕ)
      launch1.win launch1.arr_whole c (pdats m) ((pdats m pK1 c).share_full fun _ => rfl)
      (rd (X3 m) c) (rd (X4 m) c) ((pdats m pK1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 0 as a step of the run. It is entered with every unscoped buffer at the contents the first host stretch
  leaves and left with the same contents except its output array, which holds what the 50 write-backs leave: the
  two input arrays end as entered, no other buffer is touched. On the way in the region's three arrays are split out
  of the unscoped buffers and on the way out put back; the generator register passes through the region's
  invariant; the core owes nothing before and after, and the kernel has no semaphore of its own.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o5_out (c : Dev nD) : o5 m c main_v55 = (dat2 (rd (X4 m)) c).arrAt 2 cfg2.N := by
  unfold o5; exact Pipeline.withArrays_arr spec2 launch2.win.arr_inj c _ _ 2

set_option maxHeartbeats 2000000 in
/-- At the exit each of the region's arrays holds what the pipeline leaves: an input its entry contents, the
    output its folded write-backs. -/
theorem hF2 (c : Dev nD) (w : Fin cfg2.W) : (pdats m pK2 c).arrAt w cfg2.N = rd (X5 m) c (Pipeline.arrRef spec2 w) := by
  match w with
  | ⟨0, _⟩ => exact ((dat2 (rd (X4 m)) c).arrAt_in 0 rfl cfg2.N).trans ((A_eq2 (rd (X4 m)) c 0).trans (Function.update_of_ne (StableHlo.devRef_ne_of_ne (by decide) : (Proc.devRef .tc (Pipeline.arrRef spec2 0) : DevRef τ sig) ≠ Proc.devRef .tc main_v55) (o5 m c main_v55) (X4 m c)).symm)
  | ⟨1, _⟩ => exact ((dat2 (rd (X4 m)) c).arrAt_in 1 rfl cfg2.N).trans ((A_eq2 (rd (X4 m)) c 1).trans (Function.update_of_ne (StableHlo.devRef_ne_of_ne (by decide) : (Proc.devRef .tc (Pipeline.arrRef spec2 1) : DevRef τ sig) ≠ Proc.devRef .tc main_v55) (o5 m c main_v55) (X4 m c)).symm)
  | ⟨2, _⟩ => exact (o5_out m c).symm.trans (Function.update_self (Proc.devRef .tc main_v55 : DevRef τ sig) (o5 m c main_v55) (X4 m c)).symm

set_option maxHeartbeats 2000000 in
/-- Every buffer that is none of the region's arrays is left as entered. -/
theorem hrest2 (c : Dev nD) : ∀ b, b ∉ Finset.univ.image (Pipeline.arrRef spec2) → rd (X5 m) c b = rd (X4 m) c b :=
  fun b hb => Function.update_of_ne (StableHlo.devRef_ne_of_ne fun h =>
    hb (Finset.mem_image.mpr ⟨2, Finset.mem_univ _, (show Pipeline.arrRef spec2 2 = b from h.symm)⟩)) (o5 m c main_v55) (X4 m c)

set_option backward.isDefEq.respectTransparency.types false in
/-- Region 0 over the thread state. -/
def reg2 : Pipeline.RegionSeg (pcfgs (F := F)) adm (pdats m) () defs₀ Vn Lz lvz pK2 where
  win := launch2.win.to₀
  block_pos := launch2.block_pos
  stage_whole := launch2.stage_whole
  K := PEmpty
  osem k := k.elim
  ho := Pipeline.OwnSemFacts.none _
  hbody c := (body_obligation2 (rd (X4 m)) c).loose
  hwaits := Pipeline.hwaits_of_owed_zero _ _ _ _ Lz lvz pK2 fun _ _ => rfl
  pre c := iprop(StableHlo.held (c : Thread nD τ) (Pipeline.ucRefs τ sig) (X4 m c) ∗ Rst c)
  post c := iprop(StableHlo.held (c : Thread nD τ) (Pipeline.ucRefs τ sig) (X5 m c) ∗ Rst c)
  X c := iprop(∃ r, prngReg c r)
  Y c := iprop(∃ r, prngReg c r)
  Z c := Pipeline.unscopedRest (Ix := Unit) (Name := ℕ) (U := UR sig nD τ) (Lvl := ℕ) spec2 c (rd (X4 m) c)
  hentry c := by
    -- the arrays out of the unscoped buffers; no table; the core owes nothing; the register enters the invariant
    rw [Pipeline.ownSems0_none]
    have hsplit := Pipeline.arrays_of_unscopedBufs (p := pK2) (pcfgs (F := F)) adm (pdats m) launch2.win launch2.arr_whole c
      ((pdats m pK2 c).share_full fun _ => rfl) (rd (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m pK2 c).Φ (Fin.last _) = Pipeline.ΦA spec2 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK2) (pcfgs (F := F)) adm (Ix := Unit) (Name := ℕ) (U := UR sig nD τ) (Lvl := ℕ)
      launch2.win launch2.arr_whole c (pdats m) ((pdats m pK2 c).share_full fun _ => rfl)
      (rd (X4 m) c) (rd (X5 m) c) ((pdats m pK2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 1 as a step of the run. It is entered with every unscoped buffer at the contents the second host stretch
  leaves and left with the same contents except its output array, which holds what the 50 write-backs leave: the
  four input arrays end as entered, no other buffer is touched. On the way in the region's five arrays are split out
  of the unscoped buffers and on the way out put back; the generator register passes through the region's
  invariant; the core owes nothing before and after, and the kernel has no semaphore of its own.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o7_out (c : Dev nD) : o7 m c main_v74 = (dat3 (rd (X6 m)) c).arrAt 4 cfg3.N := by
  unfold o7; exact Pipeline.withArrays_arr spec3 launch3.win.arr_inj c _ _ 4

set_option maxHeartbeats 2000000 in
/-- At the exit each of the region's arrays holds what the pipeline leaves: an input its entry contents, the
    output its folded write-backs. -/
theorem hF3 (c : Dev nD) (w : Fin cfg3.W) : (pdats m pK3 c).arrAt w cfg3.N = rd (X7 m) c (Pipeline.arrRef spec3 w) := by
  match w with
  | ⟨0, _⟩ => exact ((dat3 (rd (X6 m)) c).arrAt_in 0 rfl cfg3.N).trans ((A_eq3 (rd (X6 m)) c 0).trans (Function.update_of_ne (StableHlo.devRef_ne_of_ne (by decide) : (Proc.devRef .tc (Pipeline.arrRef spec3 0) : DevRef τ sig) ≠ Proc.devRef .tc main_v74) (o7 m c main_v74) (X6 m c)).symm)
  | ⟨1, _⟩ => exact ((dat3 (rd (X6 m)) c).arrAt_in 1 rfl cfg3.N).trans ((A_eq3 (rd (X6 m)) c 1).trans (Function.update_of_ne (StableHlo.devRef_ne_of_ne (by decide) : (Proc.devRef .tc (Pipeline.arrRef spec3 1) : DevRef τ sig) ≠ Proc.devRef .tc main_v74) (o7 m c main_v74) (X6 m c)).symm)
  | ⟨2, _⟩ => exact ((dat3 (rd (X6 m)) c).arrAt_in 2 rfl cfg3.N).trans ((A_eq3 (rd (X6 m)) c 2).trans (Function.update_of_ne (StableHlo.devRef_ne_of_ne (by decide) : (Proc.devRef .tc (Pipeline.arrRef spec3 2) : DevRef τ sig) ≠ Proc.devRef .tc main_v74) (o7 m c main_v74) (X6 m c)).symm)
  | ⟨3, _⟩ => exact ((dat3 (rd (X6 m)) c).arrAt_in 3 rfl cfg3.N).trans ((A_eq3 (rd (X6 m)) c 3).trans (Function.update_of_ne (StableHlo.devRef_ne_of_ne (by decide) : (Proc.devRef .tc (Pipeline.arrRef spec3 3) : DevRef τ sig) ≠ Proc.devRef .tc main_v74) (o7 m c main_v74) (X6 m c)).symm)
  | ⟨4, _⟩ => exact (o7_out m c).symm.trans (Function.update_self (Proc.devRef .tc main_v74 : DevRef τ sig) (o7 m c main_v74) (X6 m c)).symm

set_option maxHeartbeats 2000000 in
/-- Every buffer that is none of the region's arrays is left as entered. -/
theorem hrest3 (c : Dev nD) : ∀ b, b ∉ Finset.univ.image (Pipeline.arrRef spec3) → rd (X7 m) c b = rd (X6 m) c b :=
  fun b hb => Function.update_of_ne (StableHlo.devRef_ne_of_ne fun h =>
    hb (Finset.mem_image.mpr ⟨4, Finset.mem_univ _, (show Pipeline.arrRef spec3 4 = b from h.symm)⟩)) (o7 m c main_v74) (X6 m c)

set_option backward.isDefEq.respectTransparency.types false in
/-- Region 1 over the thread state. -/
def reg3 : Pipeline.RegionSeg (pcfgs (F := F)) adm (pdats m) () defs₀ Vn Lz lvz pK3 where
  win := launch3.win.to₀
  block_pos := launch3.block_pos
  stage_whole := launch3.stage_whole
  K := PEmpty
  osem k := k.elim
  ho := Pipeline.OwnSemFacts.none _
  hbody c := (body_obligation3 (rd (X6 m)) c).loose
  hwaits := Pipeline.hwaits_of_owed_zero _ _ _ _ Lz lvz pK3 fun _ _ => rfl
  pre c := iprop(StableHlo.held (c : Thread nD τ) (Pipeline.ucRefs τ sig) (X6 m c) ∗ Rst c)
  post c := iprop(StableHlo.held (c : Thread nD τ) (Pipeline.ucRefs τ sig) (X7 m c) ∗ Rst c)
  X c := iprop(∃ r, prngReg c r)
  Y c := iprop(∃ r, prngReg c r)
  Z c := Pipeline.unscopedRest (Ix := Unit) (Name := ℕ) (U := UR sig nD τ) (Lvl := ℕ) spec3 c (rd (X6 m) c)
  hentry c := by
    -- the arrays out of the unscoped buffers; no table; the core owes nothing; the register enters the invariant
    rw [Pipeline.ownSems0_none]
    have hsplit := Pipeline.arrays_of_unscopedBufs (p := pK3) (pcfgs (F := F)) adm (pdats m) launch3.win launch3.arr_whole c
      ((pdats m pK3 c).share_full fun _ => rfl) (rd (X6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m pK3 c).Φ (Fin.last _) = Pipeline.ΦA spec3 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK3) (pcfgs (F := F)) adm (Ix := Unit) (Name := ℕ) (U := UR sig nD τ) (Lvl := ℕ)
      launch3.win launch3.arr_whole c (pdats m) ((pdats m pK3 c).share_full fun _ => rfl)
      (rd (X6 m) c) (rd (X7 m) c) ((pdats m pK3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 0 as a step of the run. It is entered with every unscoped buffer at the contents the first host stretch
  leaves and left with the same contents except its output array, which holds what the 50 write-backs leave: the
  two input arrays end as entered, no other buffer is touched. On the way in the region's three arrays are split out
  of the unscoped buffers and on the way out put back; the generator register passes through the region's
  invariant; the core owes nothing before and after, and the kernel has no semaphore of its own.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o8_out (c : Dev nD) : o8 m c main_v75 = (dat4 (rd (X7 m)) c).arrAt 2 cfg4.N := by
  unfold o8; exact Pipeline.withArrays_arr spec4 launch4.win.arr_inj c _ _ 2

set_option maxHeartbeats 2000000 in
/-- At the exit each of the region's arrays holds what the pipeline leaves: an input its entry contents, the
    output its folded write-backs. -/
theorem hF4 (c : Dev nD) (w : Fin cfg4.W) : (pdats m pK4 c).arrAt w cfg4.N = rd (X8 m) c (Pipeline.arrRef spec4 w) := by
  match w with
  | ⟨0, _⟩ => exact ((dat4 (rd (X7 m)) c).arrAt_in 0 rfl cfg4.N).trans ((A_eq4 (rd (X7 m)) c 0).trans (Function.update_of_ne (StableHlo.devRef_ne_of_ne (by decide) : (Proc.devRef .tc (Pipeline.arrRef spec4 0) : DevRef τ sig) ≠ Proc.devRef .tc main_v75) (o8 m c main_v75) (X7 m c)).symm)
  | ⟨1, _⟩ => exact ((dat4 (rd (X7 m)) c).arrAt_in 1 rfl cfg4.N).trans ((A_eq4 (rd (X7 m)) c 1).trans (Function.update_of_ne (StableHlo.devRef_ne_of_ne (by decide) : (Proc.devRef .tc (Pipeline.arrRef spec4 1) : DevRef τ sig) ≠ Proc.devRef .tc main_v75) (o8 m c main_v75) (X7 m c)).symm)
  | ⟨2, _⟩ => exact (o8_out m c).symm.trans (Function.update_self (Proc.devRef .tc main_v75 : DevRef τ sig) (o8 m c main_v75) (X7 m c)).symm

set_option maxHeartbeats 2000000 in
/-- Every buffer that is none of the region's arrays is left as entered. -/
theorem hrest4 (c : Dev nD) : ∀ b, b ∉ Finset.univ.image (Pipeline.arrRef spec4) → rd (X8 m) c b = rd (X7 m) c b :=
  fun b hb => Function.update_of_ne (StableHlo.devRef_ne_of_ne fun h =>
    hb (Finset.mem_image.mpr ⟨2, Finset.mem_univ _, (show Pipeline.arrRef spec4 2 = b from h.symm)⟩)) (o8 m c main_v75) (X7 m c)

set_option backward.isDefEq.respectTransparency.types false in
/-- Region 0 over the thread state. -/
def reg4 : Pipeline.RegionSeg (pcfgs (F := F)) adm (pdats m) () defs₀ Vn Lz lvz pK4 where
  win := launch4.win.to₀
  block_pos := launch4.block_pos
  stage_whole := launch4.stage_whole
  K := PEmpty
  osem k := k.elim
  ho := Pipeline.OwnSemFacts.none _
  hbody c := (body_obligation4 (rd (X7 m)) c).loose
  hwaits := Pipeline.hwaits_of_owed_zero _ _ _ _ Lz lvz pK4 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec4 c (rd (X7 m) c)
  hentry c := by
    -- the arrays out of the unscoped buffers; no table; the core owes nothing; the register enters the invariant
    rw [Pipeline.ownSems0_none]
    have hsplit := Pipeline.arrays_of_unscopedBufs (p := pK4) (pcfgs (F := F)) adm (pdats m) launch4.win launch4.arr_whole c
      ((pdats m pK4 c).share_full fun _ => rfl) (rd (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m pK4 c).Φ (Fin.last _) = Pipeline.ΦA spec4 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK4) (pcfgs (F := F)) adm (Ix := Unit) (Name := ℕ) (U := UR sig nD τ) (Lvl := ℕ)
      launch4.win launch4.arr_whole c (pdats m) ((pdats m pK4 c).share_full fun _ => rfl)
      (rd (X7 m) c) (rd (X8 m) c) ((pdats m pK4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/-
  Region 1 as a step of the run. It is entered with every unscoped buffer at the contents the second host stretch
  leaves and left with the same contents except its output array, which holds what the 50 write-backs leave: the
  four input arrays end as entered, no other buffer is touched. On the way in the region's five arrays are split out
  of the unscoped buffers and on the way out put back; the generator register passes through the region's
  invariant; the core owes nothing before and after, and the kernel has no semaphore of its own.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output array at its exit is what its pipeline leaves there. -/
theorem o10_out (c : Dev nD) : o10 m c main_v94 = (dat5 (rd (X9 m)) c).arrAt 4 cfg5.N := by
  unfold o10; exact Pipeline.withArrays_arr spec5 launch5.win.arr_inj c _ _ 4

set_option maxHeartbeats 2000000 in
/-- At the exit each of the region's arrays holds what the pipeline leaves: an input its entry contents, the
    output its folded write-backs. -/
theorem hF5 (c : Dev nD) (w : Fin cfg5.W) : (pdats m pK5 c).arrAt w cfg5.N = rd (X10 m) c (Pipeline.arrRef spec5 w) := by
  match w with
  | ⟨0, _⟩ => exact ((dat5 (rd (X9 m)) c).arrAt_in 0 rfl cfg5.N).trans ((A_eq5 (rd (X9 m)) c 0).trans (Function.update_of_ne (StableHlo.devRef_ne_of_ne (by decide) : (Proc.devRef .tc (Pipeline.arrRef spec5 0) : DevRef τ sig) ≠ Proc.devRef .tc main_v94) (o10 m c main_v94) (X9 m c)).symm)
  | ⟨1, _⟩ => exact ((dat5 (rd (X9 m)) c).arrAt_in 1 rfl cfg5.N).trans ((A_eq5 (rd (X9 m)) c 1).trans (Function.update_of_ne (StableHlo.devRef_ne_of_ne (by decide) : (Proc.devRef .tc (Pipeline.arrRef spec5 1) : DevRef τ sig) ≠ Proc.devRef .tc main_v94) (o10 m c main_v94) (X9 m c)).symm)
  | ⟨2, _⟩ => exact ((dat5 (rd (X9 m)) c).arrAt_in 2 rfl cfg5.N).trans ((A_eq5 (rd (X9 m)) c 2).trans (Function.update_of_ne (StableHlo.devRef_ne_of_ne (by decide) : (Proc.devRef .tc (Pipeline.arrRef spec5 2) : DevRef τ sig) ≠ Proc.devRef .tc main_v94) (o10 m c main_v94) (X9 m c)).symm)
  | ⟨3, _⟩ => exact ((dat5 (rd (X9 m)) c).arrAt_in 3 rfl cfg5.N).trans ((A_eq5 (rd (X9 m)) c 3).trans (Function.update_of_ne (StableHlo.devRef_ne_of_ne (by decide) : (Proc.devRef .tc (Pipeline.arrRef spec5 3) : DevRef τ sig) ≠ Proc.devRef .tc main_v94) (o10 m c main_v94) (X9 m c)).symm)
  | ⟨4, _⟩ => exact (o10_out m c).symm.trans (Function.update_self (Proc.devRef .tc main_v94 : DevRef τ sig) (o10 m c main_v94) (X9 m c)).symm

set_option maxHeartbeats 2000000 in
/-- Every buffer that is none of the region's arrays is left as entered. -/
theorem hrest5 (c : Dev nD) : ∀ b, b ∉ Finset.univ.image (Pipeline.arrRef spec5) → rd (X10 m) c b = rd (X9 m) c b :=
  fun b hb => Function.update_of_ne (StableHlo.devRef_ne_of_ne fun h =>
    hb (Finset.mem_image.mpr ⟨4, Finset.mem_univ _, (show Pipeline.arrRef spec5 4 = b from h.symm)⟩)) (o10 m c main_v94) (X9 m c)

set_option backward.isDefEq.respectTransparency.types false in
/-- Region 1 over the thread state. -/
def reg5 : Pipeline.RegionSeg (pcfgs (F := F)) adm (pdats m) () defs₀ Vn Lz lvz pK5 where
  win := launch5.win.to₀
  block_pos := launch5.block_pos
  stage_whole := launch5.stage_whole
  K := PEmpty
  osem k := k.elim
  ho := Pipeline.OwnSemFacts.none _
  hbody c := (body_obligation5 (rd (X9 m)) c).loose
  hwaits := Pipeline.hwaits_of_owed_zero _ _ _ _ Lz lvz pK5 fun _ _ => rfl
  pre c := iprop(StableHlo.held (c : Thread nD τ) (Pipeline.ucRefs τ sig) (X9 m c) ∗ Rst c)
  post c := iprop(StableHlo.held (c : Thread nD τ) (Pipeline.ucRefs τ sig) (X10 m c) ∗ Rst c)
  X c := iprop(∃ r, prngReg c r)
  Y c := iprop(∃ r, prngReg c r)
  Z c := Pipeline.unscopedRest (Ix := Unit) (Name := ℕ) (U := UR sig nD τ) (Lvl := ℕ) spec5 c (rd (X9 m) c)
  hentry c := by
    -- the arrays out of the unscoped buffers; no table; the core owes nothing; the register enters the invariant
    rw [Pipeline.ownSems0_none]
    have hsplit := Pipeline.arrays_of_unscopedBufs (p := pK5) (pcfgs (F := F)) adm (pdats m) launch5.win launch5.arr_whole c
      ((pdats m pK5 c).share_full fun _ => rfl) (rd (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pK5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m pK5 c).Φ (Fin.last _) = Pipeline.ΦA spec5 c from rfl]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK5) (pcfgs (F := F)) adm (Ix := Unit) (Name := ℕ) (U := UR sig nD τ) (Lvl := ℕ)
      launch5.win launch5.arr_whole c (pdats m) ((pdats m pK5 c).share_full fun _ => rfl)
      (rd (X9 m) c) (rd (X10 m) c) ((pdats m pK5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/-
  Region 6 as a step of the run. It is entered with every unscoped buffer at the contents region 5 leaves and left
  with the same contents except its two output arrays, the pooled sums and the pooled counts, each holding what its
  one write-back, at the last point, leaves: the two input arrays end as entered, no other buffer is touched. On the
  way in the region's four arrays are split out of the unscoped buffers and on the way out put back; the generator
  register and the scoped buffers enter the region's invariant, which names the two accumulators from the first point
  on and forgets them again after the last; the core owes nothing, and the kernel has no semaphore of its own.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The region's output arrays at its exit are what its pipeline leaves there. -/
theorem o11_out0 (c : Dev nD) : o11 m c main_v95_0 = (dat6 (rd (X10 m)) c).arrAt 2 cfg6.N := by
  unfold o11; exact Pipeline.withArrays_arr spec6 launch6.win.arr_inj c _ _ 2
set_option maxHeartbeats 2000000 in
theorem o11_out1 (c : Dev nD) : o11 m c main_v95_1 = (dat6 (rd (X10 m)) c).arrAt 3 cfg6.N := by
  unfold o11; exact Pipeline.withArrays_arr spec6 launch6.win.arr_inj c _ _ 3

/-- The two output buffers are different buffers. -/
theorem v95_ne : (Proc.devRef .tc main_v95_0 : DevRef τ sig) ≠ Proc.devRef .tc main_v95_1 :=
  StableHlo.devRef_ne_of_ne (by decide)

set_option maxHeartbeats 2000000 in
/-- At the exit each of the region's arrays holds what the pipeline leaves: an input its entry contents, an
    output its write-back. -/
theorem hF6 (c : Dev nD) (w : Fin cfg6.W) : (pdats m pK6 c).arrAt w cfg6.N = rd (X11 m) c (Pipeline.arrRef spec6 w) := by
  match w with
  | ⟨0, _⟩ => exact ((dat6 (rd (X10 m)) c).arrAt_in 0 rfl cfg6.N).trans ((A_eq6 (rd (X10 m)) c 0).trans
      ((Function.update_of_ne (StableHlo.devRef_ne_of_ne (by decide) : (Proc.devRef .tc (Pipeline.arrRef spec6 0) : DevRef τ sig) ≠ Proc.devRef .tc main_v95_0) (o11 m c main_v95_0) (X10 m c)).symm.trans
        (Function.update_of_ne (StableHlo.devRef_ne_of_ne (by decide) : (Proc.devRef .tc (Pipeline.arrRef spec6 0) : DevRef τ sig) ≠ Proc.devRef .tc main_v95_1) (o11 m c main_v95_1) (Function.update (X10 m c) (Proc.devRef .tc main_v95_0 : DevRef τ sig) (o11 m c main_v95_0))).symm))
  | ⟨1, _⟩ => exact ((dat6 (rd (X10 m)) c).arrAt_in 1 rfl cfg6.N).trans ((A_eq6 (rd (X10 m)) c 1).trans
      ((Function.update_of_ne (StableHlo.devRef_ne_of_ne (by decide) : (Proc.devRef .tc (Pipeline.arrRef spec6 1) : DevRef τ sig) ≠ Proc.devRef .tc main_v95_0) (o11 m c main_v95_0) (X10 m c)).symm.trans
        (Function.update_of_ne (StableHlo.devRef_ne_of_ne (by decide) : (Proc.devRef .tc (Pipeline.arrRef spec6 1) : DevRef τ sig) ≠ Proc.devRef .tc main_v95_1) (o11 m c main_v95_1) (Function.update (X10 m c) (Proc.devRef .tc main_v95_0 : DevRef τ sig) (o11 m c main_v95_0))).symm))
  | ⟨2, _⟩ =>
    exact (o11_out0 m c).symm.trans
      ((Function.update_self (Proc.devRef .tc main_v95_0 : DevRef τ sig) (o11 m c main_v95_0) (X10 m c)).symm.trans
        (Function.update_of_ne v95_ne (o11 m c main_v95_1)
          (Function.update (X10 m c) (Proc.devRef .tc main_v95_0 : DevRef τ sig) (o11 m c main_v95_0))).symm)
  | ⟨3, _⟩ =>
    exact (o11_out1 m c).symm.trans
      (Function.update_self (Proc.devRef .tc main_v95_1 : DevRef τ sig) (o11 m c main_v95_1)
        (Function.update (X10 m c) (Proc.devRef .tc main_v95_0 : DevRef τ sig) (o11 m c main_v95_0))).symm

set_option maxHeartbeats 2000000 in
/-- Every buffer that is none of the region's arrays is left as entered. -/
theorem hrest6 (c : Dev nD) : ∀ b, b ∉ Finset.univ.image (Pipeline.arrRef spec6) → rd (X11 m) c b = rd (X10 m) c b :=
  fun b hb =>
    (Function.update_of_ne (StableHlo.devRef_ne_of_ne fun h =>
        hb (Finset.mem_image.mpr ⟨3, Finset.mem_univ _, (show Pipeline.arrRef spec6 3 = b from h.symm)⟩)) (o11 m c main_v95_1) (Function.update (X10 m c) (Proc.devRef .tc main_v95_0 : DevRef τ sig) (o11 m c main_v95_0))).trans
      (Function.update_of_ne (StableHlo.devRef_ne_of_ne fun h =>
        hb (Finset.mem_image.mpr ⟨2, Finset.mem_univ _, (show Pipeline.arrRef spec6 2 = b from h.symm)⟩)) (o11 m c main_v95_0) (X10 m c))

set_option backward.isDefEq.respectTransparency.types false in
/-- Region 6 over the thread state. -/
def reg6 : Pipeline.RegionSeg (pcfgs (F := F)) adm (pdats m) () defs₀ Vn Lz lvz pK6 where
  win := launch6.win.to₀
  block_pos := launch6.block_pos
  stage_whole := launch6.stage_whole
  K := PEmpty
  osem k := k.elim
  ho := Pipeline.OwnSemFacts.none _
  hbody c := (body_obligation6 (rd (X10 m)) c).loose
  hwaits := Pipeline.hwaits_of_owed_zero _ _ _ _ Lz lvz pK6 fun _ _ => rfl
  pre c := iprop(StableHlo.held (c : Thread nD τ) (Pipeline.ucRefs τ sig) (X10 m c) ∗ Rst c)
  post c := iprop(StableHlo.held (c : Thread nD τ) (Pipeline.ucRefs τ sig) (X11 m c) ∗ Rst c)
  X c := iprop(∃ r, prngReg c r)
  Y c := iprop(∃ r, prngReg c r)
  Z c := Pipeline.unscopedRest (Ix := Unit) (Name := ℕ) (U := UR sig nD τ) (Lvl := ℕ) spec6 c (rd (X10 m) c)
  hentry c := by
    -- the arrays out of the unscoped buffers; no table; the core owes nothing; the register enters the invariant
    rw [Pipeline.ownSems0_none]
    have hsplit := Pipeline.arrays_of_unscopedBufs (p := pK6) (pcfgs (F := F)) adm (pdats m) launch6.win launch6.arr_whole c
      ((pdats m pK6 c).share_full fun _ => rfl) (rd (X10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the register and the scoped buffers make the class invariant, which is the region's before its first point
    refine (show iprop((∃ r, prngReg c r) ∗ Pipeline.prefHeld (pcfgs (F := F) pK6).pre c (fun _ => fullShare) (adm pK6).1
        ∗ Pipeline.scopedRest (Pipeline.pin (pcfgs (F := F)) adm pK6).spec c) ⊢ (Pipeline.ΦA (U := UR sig nD τ) (Val := Elt F) spec6 c : sProp 𝕄) from ?_).trans
      (hin6 (rd (X10 m)) c)
    unfold Pipeline.ΦA
    iintro ⟨Hp, -, Hr⟩
    isplitl [Hr]; · iexact Hr
    iexact Hp
  hout c := by
    -- after the last point the region's invariant gives the class invariant back
    refine (hout6 (rd (X10 m)) c).trans ?_
    rw [Pipeline.ownSems0_none]; unfold Pipeline.ΦA
    iintro ⟨Hr, Hp⟩
    isplitl [Hp]; · iexact Hp
    isplitr; · iempintro
    iexact Hr
  hexit c := by
    -- the arrays back among the unscoped buffers, now at the exit contents
    have hjoin := Pipeline.unscopedBufs_of_arrays (p := pK6) (pcfgs (F := F)) adm (Ix := Unit) (Name := ℕ) (U := UR sig nD τ) (Lvl := ℕ)
      launch6.win launch6.arr_whole c (pdats m) ((pdats m pK6 c).share_full fun _ => rfl)
      (rd (X10 m) c) (rd (X11 m) c) ((pdats m pK6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Launch.lean ====
/-
  The run of the whole program. Its twelve items — five stretches of host operations and seven kernel regions — are
  composed in order, each entered from the thread state the one before it left: every unscoped buffer at the stage's
  contents, beside the generator register and the core owing nothing. The launch makes the first thread state on every
  core at once; after the last item every unscoped buffer is read off the last stage's contents. Two consequences:
  the frame (every argument array ends as launched, no item writing one) and the result (the returned buffer ends at
  the last stage's contents of it).
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Seg0
import proofs.«403028_j84353157693520_1_alg».proof.Proof.KI.Seg1
import proofs.«403028_j84353157693520_1_alg».proof.Proof.KI.Seg2
import proofs.«403028_j84353157693520_1_alg».proof.Proof.KI.Seg3
import proofs.«403028_j84353157693520_1_alg».proof.Proof.KI.Seg4
import proofs.«403028_j84353157693520_1_alg».proof.Proof.KI.Seg5
import proofs.«403028_j84353157693520_1_alg».proof.Proof.KI.Seg6
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rest state at every boundary. -/
abbrev Es : Fin 8 → Dev nD → sProp 𝕄 := fun _ c => Rst c

/-- The launch's ghost element funds every pipeline's cells and tokens; nothing else is allocated. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core has its generator register and owes nothing: the first rest state, on every core at once. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts Lz lvz)
    ⊢ (|={Set.univ}=> bigSep Finset.univ (Es (F := F) 0) : sProp 𝕄) := by
  iintro ⟨H, -⟩
  imodintro
  iapply (show (bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)))
      ⊢ (bigSep Finset.univ (Es (F := F) 0) : sProp 𝕄) from
    bigSep_mono fun c _ => (show iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) ⊢ (Es (F := F) 0 c : sProp 𝕄) from by
      iintro ⟨-, HO, -, Hp, -⟩
      isplitl [Hp]; · iexists _; iexact Hp
      iexists ∅; iexact HO))
  iexact H

/-- The last rest state has the core owing nothing. -/
theorem hE7 (c : Dev nD) : Es (F := F) 7 c ⊢ (iprop(∃ W, owes (c : Thread nD τ) (0 : CellTallies nD τ sig Unit) W) : sProp 𝕄) := by
  iintro ⟨-, HO⟩; iexact HO

/-- THE FRAME: every weakly fair execution terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁) () Vn Lz lvz (fun _ _ => rfl) ρ (outs m) (pdats m) (0 : Dev nD → CellTallies nD τ sig Unit) (fun _ => (BI.emp : sProp 𝕄))
    (initOf (Pipeline.cells cfgs cellOf_inj) (Pipeline.launchToks cfgs cellOf_inj)) (hu0 (F := F)) (Es (F := F)) (hE0 ρ) (hE7 (F := F))
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)
    (reg6 m) (fun _ => .rfl) (fun _ => .rfl)

set_option backward.isDefEq.respectTransparency.types false in
/-- THE RESULT: every weakly fair execution terminates, nothing faulting, the returned buffer at the last stage's
    contents of it and every argument array as launched. -/
theorem run_res : θ_run defs (onTc (τ := τ) (main (F := F))) ⟨m, fun _ => 0, ρ⟩ (fun r => ∀ c : Dev nD,
      r.2.mem ((c.tc : Thread nD τ).loc main_v104) = X12 m c main_v104
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ Vn Lz lvz m ρ main
    (segs m (outs m) Vn Lz lvz (Es (F := F)) () (pdats m) (reg0 m) (reg1 m) (reg2 m) (reg3 m) (reg4 m) (reg5 m) (reg6 m))
    (fun c Q => by
      rewrite [main_chain c, Seg.run_eq_chain,
        show (segs m (outs m) Vn Lz lvz (Es (F := F)) () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7 ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) (hu0 (F := F))
    (T₀ := fun c => iprop(StableHlo.held (c : Thread nD τ) (Pipeline.ucRefs τ sig) (V0 m c) ∗ Es (F := F) 0 c))
    (Tₙ := fun c => StableHlo.held (c : Thread nD τ) (Pipeline.ucRefs τ sig) (V12 m (outs m) c))
    (hch := fun c => ⟨.rfl, .rfl, .rfl, .rfl, .rfl, .rfl, .rfl, .rfl, .rfl, .rfl, .rfl, .rfl, sep_mono .rfl (hE7 (F := F) c)⟩)
    (hinit := ?_)
    (QY := fun c s => s.mem ((c.tc : Thread nD τ).loc main_v104) = X12 m c main_v104
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10))
    (hfin := fun c s' => ?_) (hQ := fun _ h => h)
  · -- the launch: the unscoped buffers are held at the launch contents; the rest makes the first rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (Es (F := F) 0)]
    isplitl [Hh]; · iexact Hh
    iexact HE
  · -- the end: each buffer read off the last stage's contents
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      exact ⟨h (Proc.devRef .tc main_v104) (Finset.mem_filter.mpr ⟨StableHlo.devRef_mem_tcRefs main_v104, by decide⟩),
        (h (Proc.devRef .tc main_arg0) (Finset.mem_filter.mpr ⟨StableHlo.devRef_mem_tcRefs main_arg0, by decide⟩)).trans (V12_main_arg0 m (outs m) c),
        (h (Proc.devRef .tc main_arg1) (Finset.mem_filter.mpr ⟨StableHlo.devRef_mem_tcRefs main_arg1, by decide⟩)).trans (V12_main_arg1 m (outs m) c),
        (h (Proc.devRef .tc main_arg2) (Finset.mem_filter.mpr ⟨StableHlo.devRef_mem_tcRefs main_arg2, by decide⟩)).trans (V12_main_arg2 m (outs m) c),
        (h (Proc.devRef .tc main_arg3) (Finset.mem_filter.mpr ⟨StableHlo.devRef_mem_tcRefs main_arg3, by decide⟩)).trans (V12_main_arg3 m (outs m) c),
        (h (Proc.devRef .tc main_arg4) (Finset.mem_filter.mpr ⟨StableHlo.devRef_mem_tcRefs main_arg4, by decide⟩)).trans (V12_main_arg4 m (outs m) c),
        (h (Proc.devRef .tc main_arg5) (Finset.mem_filter.mpr ⟨StableHlo.devRef_mem_tcRefs main_arg5, by decide⟩)).trans (V12_main_arg5 m (outs m) c),
        (h (Proc.devRef .tc main_arg6) (Finset.mem_filter.mpr ⟨StableHlo.devRef_mem_tcRefs main_arg6, by decide⟩)).trans (V12_main_arg6 m (outs m) c),
        (h (Proc.devRef .tc main_arg7) (Finset.mem_filter.mpr ⟨StableHlo.devRef_mem_tcRefs main_arg7, by decide⟩)).trans (V12_main_arg7 m (outs m) c),
        (h (Proc.devRef .tc main_arg8) (Finset.mem_filter.mpr ⟨StableHlo.devRef_mem_tcRefs main_arg8, by decide⟩)).trans (V12_main_arg8 m (outs m) c),
        (h (Proc.devRef .tc main_arg9) (Finset.mem_filter.mpr ⟨StableHlo.devRef_mem_tcRefs main_arg9, by decide⟩)).trans (V12_main_arg9 m (outs m) c),
        (h (Proc.devRef .tc main_arg10) (Finset.mem_filter.mpr ⟨StableHlo.devRef_mem_tcRefs main_arg10, by decide⟩)).trans (V12_main_arg10 m (outs m) c)⟩
    · iexact HSI

end Cert.KernelIdeal.Hand

end
-- ==== Proof.KI.ValSpec.lean ====
/-
  The reference's operations at arbitrary operand arrays: what each kernel region's result is compared with.
  The dense transform is the host's matrix product contracting the 128 features; the combine adds to the aggregated
  messages the transformed features scaled row by row by the self-loop coefficient, then the bias row; the relu is
  the maximum with zero; the pooled sums add each node's feature row to the row of its graph id, an id outside
  [0, 64) contributing nothing; the pooled counts add one per node to its graph id's entry.
-/
import proofs.«403028_j84353157693520_1_alg».proof.Proof.Gen.ReferenceIdeal.Read

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- The dense transform: rows times the weight matrix. -/
def refMM (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- The combine before the relu: agg + coef * h + bias, the coefficient a column, the bias a row. -/
def refCombine (agg h : (⟨S100000x128, .f32⟩ : BufTy).Contents (Elt F)) (coef : (⟨S100000x1, .f32⟩ : BufTy).Contents (Elt F))
    (brow : (⟨S1x128, .f32⟩ : BufTy).Contents (Elt F)) : (⟨S100000x128, .f32⟩ : BufTy).Contents (Elt F) :=
  addf (addf agg (mulf (broadcastInDim S100000x128 ![0, 1] bcast_S100000x1_S100000x128_0_1 coef) h))
    (broadcastInDim S100000x128 ![0, 1] bcast_S1x128_S100000x128_0_1 brow)

/-- The relu: the maximum with zero. -/
def refRelu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

/-- The pooled sums: each node's feature row added to the row of its graph id. -/
def refPoolSums (ids : (⟨S100000x1, .i32⟩ : BufTy).Contents (Elt F)) (h : (⟨S100000x128, .f32⟩ : BufTy).Contents (Elt F)) :
    (⟨S64x128, .f32⟩ : BufTy).Contents (Elt F) :=
  Host.scatterAdd scatter_S64x128_S100000x1_S100000x128_1_0_0_1
    (broadcastInDim S64x128 ![] bcast_S_S64x128 (constant S_ .f32 0x00000000#32)) ids h

/-- The pooled counts: one per node, added to its graph id's entry. -/
def refPoolCounts (ids : (⟨S100000x1, .i32⟩ : BufTy).Contents (Elt F)) : (⟨S64, .f32⟩ : BufTy).Contents (Elt F) :=
  Host.scatterAdd scatter_S64_S100000x1_S100000_n_0_0_1
    (broadcastInDim S64 ![] bcast_S_S64 (constant S_ .f32 0x00000000#32)) ids
    (broadcastInDim S100000 ![] bcast_S_S100000 (constant S_ .f32 0x3F800000#32))

end Cert.Bridge

end
-- ==== Proof.KI.BrLib.lean ====
/-
  A vector laid out as a column or as a row, in two spellings that give one array.

  A vector x of extent a becomes a column [a, 1] either by a cast of its shape (the entries kept in row-major order) or
  by a broadcast along a new trailing axis of extent one; it becomes a row [1, a] either by a cast or by a broadcast
  along a new leading axis of extent one. In row-major order entry (r, 0) of the column sits at position r * 1 + 0 = r
  and entry (0, i) of the row at position 0 * a + i = i, so the cast reads x at r, resp. at i; the broadcast reads x
  at the coordinate its one mapped axis carries, which is again r, resp. i (when a = 1 that coordinate is 0 either
  way). Hence both spellings are the same array, for every extent a and every entry type.

    shapeCast_col_apply, bcast_col_apply     the two column spellings at an entry;
    shapeCast_col_eq_bcast                   the column cast is the column broadcast;
    bcast_row_apply                          the row broadcast at an entry;
    shapeCast_row_eq_bcast                   the row cast is the row broadcast.
-/
import Idealize.ShloMosaic.Lib.Pipeline.Value
import Idealize.ShloMosaic.Lib.ValueIdx
import Idealize.ShloMosaic.Lib.ValueLayout

namespace Cert.KernelIdeal.Hand

open Idealize.ShloMosaic Idealize.ShloMosaic.ValueIdx

variable {α : Type}

/-- A vector of extent a cast to the column [a, 1] reads, at (r, u), the vector at r. -/
theorem shapeCast_col_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A vector of extent a broadcast along a new trailing unit axis reads, at (r, u), the vector at r. -/
theorem bcast_col_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) :=
  broadcastInDim_apply _ h x _ _ (fun d => match d with
    | ⟨0, _⟩ => by
      show r.val = if a = 1 then 0 else r.val
      by_cases ha : a = 1
      · rw [if_pos ha]; have := r.isLt; omega
      · rw [if_neg ha])

/-- The column by a cast is the column by a broadcast along the new axis. -/
theorem shapeCast_col_eq_bcast {a : ℕ} (x : (⟨1, ![a]⟩ : Shape).Idx → α)
    (hs : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hs = broadcastInDim ⟨2, ![a, 1]⟩ ![0] hb x := by
  funext i
  exact ((congrArg (shapeCast ⟨2, ![a, 1]⟩ x hs) (eq_ix2 i)).trans (shapeCast_col_apply x hs (i 0) (i 1))).trans
    ((congrArg (broadcastInDim ⟨2, ![a, 1]⟩ ![0] hb x) (eq_ix2 i)).trans (bcast_col_apply x hb (i 0) (i 1))).symm

/-- A vector of extent a broadcast along a new leading unit axis reads, at (u, i), the vector at i. -/
theorem bcast_row_apply {a : ℕ} (x : (⟨1, ![a]⟩ : Shape).Idx → α)
    (h : (⟨1, ![a]⟩ : Shape).BroadcastsInDim ⟨2, ![1, a]⟩ (![1] : Fin 1 → Fin 2)) (u : Fin 1) (i : Fin a) :
    broadcastInDim ⟨2, ![1, a]⟩ ![1] h x (ix2 u i) = x (ix1 i) :=
  broadcastInDim_apply _ h x _ _ (fun d => match d with
    | ⟨0, _⟩ => by
      show i.val = if a = 1 then 0 else i.val
      by_cases ha : a = 1
      · rw [if_pos ha]; have := i.isLt; omega
      · rw [if_neg ha])

/-- The row by a cast is the row by a broadcast along the new axis. -/
theorem shapeCast_row_eq_bcast {a : ℕ} (x : (⟨1, ![a]⟩ : Shape).Idx → α)
    (hs : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hs = broadcastInDim ⟨2, ![1, a]⟩ ![1] hb x := by
  funext j
  exact ((congrArg (shapeCast ⟨2, ![1, a]⟩ x hs) (eq_ix2 j)).trans (shapeCast_a_1a_apply x hs (j 0) (j 1))).trans
    ((congrArg (broadcastInDim ⟨2, ![1, a]⟩ ![1] hb x) (eq_ix2 j)).trans (bcast_row_apply x hb (j 0) (j 1))).symm

end Cert.KernelIdeal.Hand
-- ==== Proof.KI.Br1.lean ====
/-
  The first host stretch of the kernel program against the reference, at the exact instance. Both programs compute,
  by the same host operations of the edge list, the source and destination columns of the edges, the degree of every
  node with its self-loop, its inverse square root, and from it the edge norms and the self-loop coefficients. The
  kernel program shapes the coefficient column, the norm column and the id column by a reshape [n] -> [n, 1] where
  the reference broadcasts along a new axis: the same array, entry (r, 0) being entry r. No host operation writes
  an argument.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Chain
import proofs.«403028_j84353157693520_1_alg».proof.Proof.KI.ValSpec
import proofs.«403028_j84353157693520_1_alg».proof.Proof.KI.BrLib
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge
open Cert.ReferenceIdeal.Read (val_main_v1 val_main_v3 val_main_v15 val_main_v16 val_main_v32 val_main_v49 val_main_v51 val_main_v55 val_main_v58 val_main_v59 val_main_v92 val_main_v98 val_main_v101 val_main_v102 val_main_v135 val_main_v141 val_main_v143 val_main_v145 val_main_v146 val_main_v150 val_main_v159)

variable {F : FTy → Type} [FloatOps F]

local notation "𝕄" => MT nD τ sig Unit (Elt F) ℕ (UR sig nD τ) ℕ

variable (m : (ℓ : Loc nD τ sig) → Buf (Elt Ideal) ℓ) (c : Dev nD)

set_option quotPrecheck false
/-- The launch contents of the eleven arguments. -/
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-- Argument 0 is untouched by the first host stretch. -/
theorem br1_arg0 : X1 m c main_arg0 = x0 :=
  (V1_of m c main_arg0 (by decide)).trans rfl

/-- Argument 1 is untouched by the first host stretch. -/
theorem br1_arg1 : X1 m c main_arg1 = x1 :=
  (V1_of m c main_arg1 (by decide)).trans rfl

/-- Argument 2 is untouched by the first host stretch. -/
theorem br1_arg2 : X1 m c main_arg2 = x2 :=
  (V1_of m c main_arg2 (by decide)).trans rfl

/-- Argument 3 is untouched by the first host stretch. -/
theorem br1_arg3 : X1 m c main_arg3 = x3 :=
  (V1_of m c main_arg3 (by decide)).trans rfl

/-- Argument 4 is untouched by the first host stretch. -/
theorem br1_arg4 : X1 m c main_arg4 = x4 :=
  (V1_of m c main_arg4 (by decide)).trans rfl

/-- Argument 5 is untouched by the first host stretch. -/
theorem br1_arg5 : X1 m c main_arg5 = x5 :=
  (V1_of m c main_arg5 (by decide)).trans rfl

/-- Argument 6 is untouched by the first host stretch. -/
theorem br1_arg6 : X1 m c main_arg6 = x6 :=
  (V1_of m c main_arg6 (by decide)).trans rfl

/-- Argument 7 is untouched by the first host stretch. -/
theorem br1_arg7 : X1 m c main_arg7 = x7 :=
  (V1_of m c main_arg7 (by decide)).trans rfl

/-- Argument 8 is untouched by the first host stretch. -/
theorem br1_arg8 : X1 m c main_arg8 = x8 :=
  (V1_of m c main_arg8 (by decide)).trans rfl

/-- Argument 9 is untouched by the first host stretch. -/
theorem br1_arg9 : X1 m c main_arg9 = x9 :=
  (V1_of m c main_arg9 (by decide)).trans rfl

/-- Argument 10 is untouched by the first host stretch. -/
theorem br1_arg10 : X1 m c main_arg10 = x10 :=
  (V1_of m c main_arg10 (by decide)).trans rfl

/-- The edges' source column. -/
theorem br1_row : X1 m c main_v1 = val_main_v1 (F := Ideal) x1 := by
  show StableHlo.after hostOps0 (V0 m c) (Proc.devRef .tc main_v1) = _
  after_results
  rfl

/-- The edges' destination column. -/
theorem br1_col : X1 m c main_v3 = val_main_v3 (F := Ideal) x1 := by
  show StableHlo.after hostOps0 (V0 m c) (Proc.devRef .tc main_v3) = _
  after_results
  rfl

/-- The inverse square root of the degrees. -/
theorem br1_dinv : X1 m c main_v16 = val_main_v15 (F := Ideal) x1 := by
  show StableHlo.after hostOps0 (V0 m c) (Proc.devRef .tc main_v16) = _
  after_results_simp
  rfl

/-- The self-loop coefficients, before they are laid as a column: the kernel program casts the product the
    reference broadcasts. -/
theorem br1_coef_cast : X1 m c main_v18
    = shapeCast S100000x1 (Cert.ReferenceIdeal.Read.val_main_v50 (F := Ideal) x1) shapeCasts_S100000_S100000x1 := by
  show StableHlo.after hostOps0 (V0 m c) (Proc.devRef .tc main_v18) = _
  after_results_simp
  rfl

/-- The self-loop coefficients as a column: the kernel program's reshape is the reference's broadcast along a new axis. -/
theorem br1_coef : X1 m c main_v18 = val_main_v51 (F := Ideal) x1 := by
  rw [br1_coef_cast]
  unfold val_main_v51
  exact shapeCast_col_eq_bcast _ _ _

/-- The edge norms, before they are laid as a column: the kernel program casts the product the reference
    broadcasts. -/
theorem br1_norm_cast : X1 m c main_v34
    = shapeCast S600000x1 (Cert.ReferenceIdeal.Read.val_main_v31 (F := Ideal) x1) shapeCasts_S600000_S600000x1 := by
  show StableHlo.after hostOps0 (V0 m c) (Proc.devRef .tc main_v34) = _
  after_results_simp
  rfl

/-- The edge norms as a column: the kernel program's reshape is the reference's broadcast along a new axis. -/
theorem br1_norm : X1 m c main_v34 = val_main_v32 (F := Ideal) x1 := by
  rw [br1_norm_cast]
  unfold val_main_v32
  exact shapeCast_col_eq_bcast _ _ _

/-- The graph ids are argument 2 cast to a column. -/
theorem br1_ids_cast : X1 m c main_v4 = shapeCast S100000x1 x2 shapeCasts_S100000_S100000x1 := by
  show StableHlo.after hostOps0 (V0 m c) (Proc.devRef .tc main_v4) = _
  after_results
  rfl

/-- The graph ids as a column: the kernel program's reshape is the reference's broadcast along a new axis. -/
theorem br1_ids : X1 m c main_v4 = val_main_v145 (F := Ideal) x2 := by
  rw [br1_ids_cast]
  unfold val_main_v145
  exact shapeCast_col_eq_bcast _ _ _

end Cert.KernelIdeal.Hand

end
-- ==== Proof.KI.ValMM0.lean ====
/-
  The value of region 0 at the exact instance: after the 50 points the output array holds, row by row, the product
  of the node features with the weight matrix, that is, the host's matrix product of the region's two entry arrays.
  Block t of the output is the product of rows [2000 t, 2000 t + 2000) with the whole matrix (rounding to bf16 is the
  identity here, and a product into a zero accumulator is the plain sum over the 128 features); the 50 blocks tile
  the array.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.RegMM0
import proofs.«403028_j84353157693520_1_alg».proof.Proof.KI.ValSpec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The zero offsets of a whole staging buffer, however they are spelt. -/
theorem mm0_hz : (![0, 0] : Fin 2 → Nat) = fun _ => 0 := funext fun a => by fin_cases a <;> rfl

/-! ## The matrix unit's product at an index

The product contracts axis 1 of the rows block with axis 0 of the matrix: at output entry (p, j) and contraction
index k the left operand is read at (p, k) and the right one at (k, j). -/

/-- The left operand's row is the output's row. -/
theorem mm0_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction index. -/
theorem mm0_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction index. -/
theorem mm0_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem mm0_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's product block at row p and column j: the sum over the 128 features of the rows block at (p, k)
    times the matrix at (k, j). Rounding to bf16 is the identity here, a block recast to its own shape is that
    block, and the accumulator starts at zero. -/
theorem mm0_pay_apply (x : Vec Ideal S2000x128 .f32) (w : Vec Ideal S128x128 .f32) (p : Fin 2000) (j : Fin 128) :
    k0_pay1 (F := Ideal) x w (ValueIdx.ix2 p j) = ∑ k : Fin 128, x (ValueIdx.ix2 p k) * w (ValueIdx.ix2 k j) := by
  unfold k0_pay1
  try simp only [shapeCast_self]
  refine (Ideal.matmul_constant_zero_apply dot_S2000x128_S128x128_S2000x128_1_0_0_1_n_n none _ _ (ValueIdx.ix2 p j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p j) ((ValueIdx.contrEquiv1 dot_S2000x128_S128x128_S2000x128_1_0_0_1_n_n 128 rfl rfl).symm k) = ValueIdx.ix2 p k := funext fun a => Fin.ext (by
    match a with
    | ⟨0, _⟩ => exact mm0_lhs_0 _ _
    | ⟨1, _⟩ => exact (mm0_lhs_1 _ _).trans hk)
  have er : dot_S2000x128_S128x128_S2000x128_1_0_0_1_n_n.rhsIdx (ValueIdx.ix2 p j) ((ValueIdx.contrEquiv1 dot_S2000x128_S128x128_S2000x128_1_0_0_1_n_n 128 rfl rfl).symm k) = ValueIdx.ix2 k j := funext fun a => Fin.ext (by
    match a with
    | ⟨0, _⟩ => exact (mm0_rhs_0 _ _).trans hk
    | ⟨1, _⟩ => exact mm0_rhs_1 _ _)
  rw [el, er]
  rfl

/-! ## The host's product at an index

The host contracts the same axes over the whole array: at entry (r, j) and contraction index k it reads the rows
at (r, k) and the matrix at (k, j). -/

/-- The left operand's row is the output's row. -/
theorem mm0_ref_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- The left operand's column is the contraction index. -/
theorem mm0_ref_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row is the contraction index. -/
theorem mm0_ref_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- The right operand's column is the output's column. -/
theorem mm0_ref_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product at row r and column j: the sum over the 128 features of the rows at (r, k) times the
    matrix at (k, j). -/
theorem mm0_ref_apply (X : (⟨Cert.ReferenceIdeal.S100000x128, .f32⟩ : BufTy).Contents (Elt Ideal))
    (W : (⟨Cert.ReferenceIdeal.S128x128, .f32⟩ : BufTy).Contents (Elt Ideal)) (r : Fin 100000) (j : Fin 128) :
    refMM (F := Ideal) X W (ValueIdx.ix2 r j) = ∑ k : Fin 128, X (ValueIdx.ix2 r k) * W (ValueIdx.ix2 k j) := by
  unfold refMM
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ValueIdx.ix2 r j) ((ValueIdx.contrEquiv1 Cert.ReferenceIdeal.dot_S100000x128_S128x128_S100000x128_1_0_0_1_n_n 128 rfl rfl).symm k) = ValueIdx.ix2 r k := funext fun a => Fin.ext (by
    match a with
    | ⟨0, _⟩ => exact mm0_ref_lhs_0 _ _
    | ⟨1, _⟩ => exact (mm0_ref_lhs_1 _ _).trans hk)
  have er : Cert.ReferenceIdeal.dot_S100000x128_S128x128_S100000x128_1_0_0_1_n_n.rhsIdx (ValueIdx.ix2 r j) ((ValueIdx.contrEquiv1 Cert.ReferenceIdeal.dot_S100000x128_S128x128_S100000x128_1_0_0_1_n_n 128 rfl rfl).symm k) = ValueIdx.ix2 k j := funext fun a => Fin.ext (by
    match a with
    | ⟨0, _⟩ => exact (mm0_ref_rhs_0 _ _).trans hk
    | ⟨1, _⟩ => exact mm0_ref_rhs_1 _ _)
  rw [el, er]

/-! ## One entry of a product block is the host's entry at its place in the array -/

/-- If the rows block x is rows [2000 b, 2000 b + 2000) of X and the matrix block w is all of W, the body's product
    block at y is the host's product at the entry i that y names in the array: both are the same sum over the 128
    features. -/
theorem mm0_entry (X : (⟨Cert.ReferenceIdeal.S100000x128, .f32⟩ : BufTy).Contents (Elt Ideal))
    (W : (⟨Cert.ReferenceIdeal.S128x128, .f32⟩ : BufTy).Contents (Elt Ideal))
    (x : Vec Ideal S2000x128 .f32) (w : Vec Ideal S128x128 .f32) (b : ℕ)
    (hx : ∀ (y' : S2000x128.Idx) (i' : S100000x128.Idx), (i' 0).val = b * 2000 + (y' 0).val → (i' 1).val = (y' 1).val → x y' = X i')
    (hw : ∀ y' : S128x128.Idx, w y' = W y')
    (y : S2000x128.Idx) (i : S100000x128.Idx) (h0 : (i 0).val = b * 2000 + (y 0).val) (h1 : (i 1).val = (y 1).val) :
    k0_pay1 (F := Ideal) x w y = refMM (F := Ideal) X W i := by
  obtain ⟨p, q, rfl⟩ : ∃ (p : Fin 2000) (q : Fin 128), y = ValueIdx.ix2 p q := ⟨y 0, y 1, ValueIdx.eq_ix2 y⟩
  obtain ⟨r, j, rfl⟩ : ∃ (r : Fin 100000) (j : Fin 128), i = ValueIdx.ix2 r j := ⟨i 0, i 1, ValueIdx.eq_ix2 i⟩
  obtain rfl : j = q := Fin.ext h1
  rw [mm0_pay_apply, mm0_ref_apply]
  exact Finset.sum_congr rfl fun k _ => by rw [hx (ValueIdx.ix2 p k) (ValueIdx.ix2 r k) h0 rfl, hw]

/-! ## From the 50 blocks to the array -/

/-- The printed index maps over the grid: at point t the rows block and the output block are block t along the rows
    and block 0 along the features, and the matrix block is always block (0, 0). -/
theorem mm0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the host's matrix product of the entry arrays. -/
theorem mm0_flushed (c : Dev nD) (t : Fin cfg0.N) :
    (dat0 (F := Ideal) V c).flushed 2 t
      = ((cfg0.win 2).blk t).view.read (Elt Ideal)
          (refMM (F := Ideal) (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero mm0_hz]
  simp only [View.ld_unit_zero (S := S2000x128) mm0_hz, View.ld_unit_zero (S := S128x128) mm0_hz]
  obtain ⟨e00, e01, e10, e11, e20, e21⟩ := mm0_idx t
  funext y
  show k0_pay1 (F := Ideal) (iblk0 V c 0 t) (iblk0 V c 1 t) ((cfg0.win 2).xinj (grid0.coords t) y)
    = refMM (F := Ideal) (V c (Pipeline.arrRef spec0 0)) (V c (Pipeline.arrRef spec0 1)) (((cfg0.win 2).blk t).view.emb y)
  refine mm0_entry _ _ _ _ (win0_2.index t (0 : Fin 2)) ?_ ?_ _ _ ?_ ?_
  · intro y' i' h0 h1
    show V c (Pipeline.arrRef spec0 0) (((cfg0.win 0).blk t).view.emb y') = V c (Pipeline.arrRef spec0 0) i'
    refine congrArg _ (funext fun a => Fin.ext ?_)
    match a with
    | ⟨0, _⟩ => show win0_0.index t (0 : Fin 2) * 2000 + 1 * (y' 0).val = (i' 0).val; omega
    | ⟨1, _⟩ => show win0_0.index t (1 : Fin 2) * 128 + 1 * (y' 1).val = (i' 1).val; omega
  · intro y'
    show V c (Pipeline.arrRef spec0 1) (((cfg0.win 1).blk t).view.emb y') = V c (Pipeline.arrRef spec0 1) y'
    refine congrArg _ (funext fun a => Fin.ext ?_)
    match a with
    | ⟨0, _⟩ => show win0_1.index t (0 : Fin 2) * 128 + 1 * (y' 0).val = (y' 0).val; omega
    | ⟨1, _⟩ => show win0_1.index t (1 : Fin 2) * 128 + 1 * (y' 1).val = (y' 1).val; omega
  · show win0_2.index t (0 : Fin 2) * 2000 + 1 * (y 0).val = win0_2.index t (0 : Fin 2) * 2000 + (y 0).val; omega
  · show win0_2.index t (1 : Fin 2) * 128 + 1 * (y 1).val = (y 1).val; omega

/-- An entry of the array is in point t's block iff each coordinate is in the block's range on its axis. -/
theorem mm0_mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole (Pipeline.arrRef spec0 2)).slice (win0_2.rect t)).set ↔ _
  rw [View.set_slice_whole, Rect.mem_set_unit]
  exact Iff.rfl

/-- The 50 blocks tile the array: row r is in block r / 2000. -/
theorem mm0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e20, e21⟩ := mm0_idx t
  refine ⟨t, flush0_2 t, ?_⟩
  rw [mm0_mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region is the matrix product of the entry arrays. -/
theorem mm0_val (c : Dev nD) :
    (dat0 (F := Ideal) V c).arrAt 2 cfg0.N
      = refMM (F := Ideal) (V c (Pipeline.arrRef spec0 0)) (V c (Pipeline.arrRef spec0 1)) :=
  (dat0 (F := Ideal) V c).arrAt_eq_of_cover 2 _ (fun t _ => mm0_flushed V c t) fun i => mm0_cover i

end Cert.KernelIdeal.Hand

end
-- ==== Proof.KI.ValCBLib.lean ====
/-
  Broadcasts of small operands read at an entry of the result. A column [a, 1] spread over b lanes reads, at (p, c),
  the column's entry of row p; a row [1, b] spread over a rows reads the row's entry of column c; a rank-0 operand
  spread over a matrix reads its one entry. Each is stated for the vector broadcast of a kernel body and for the
  host's broadcast along named axes, over arbitrary extents.
-/
import Idealize.ShloMosaic.Lib.Pipeline.Value
import Idealize.ShloMosaic.Lib.ValueIdx
import Idealize.ShloMosaic.Lib.ValueLayout

namespace Cert.KernelIdeal.Hand

open Idealize.ShloMosaic Idealize.ShloMosaic.ValueIdx

variable {α : Type}

/-- A vector column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]`, axes kept in place, reads at `(p, c)` the column at row `p`. -/
theorem broadcastInDim_a1_ab_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]`, axes kept in place, reads at `(p, c)` the row at column `c`. -/
theorem broadcastInDim_1b_ab_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a rank-0 operand to any shape reads, everywhere, the operand's one entry. -/
theorem broadcastInDim_scalar_apply {t : Shape}
    (h : (⟨0, ![]⟩ : Shape).BroadcastsInDim t (![] : Fin 0 → Fin t.rank))
    (x : (⟨0, ![]⟩ : Shape).Idx → α) (j : t.Idx) :
    broadcastInDim t (![] : Fin 0 → Fin t.rank) h x j = x ix0 :=
  broadcastInDim_apply _ h x j ix0 fun ax => ax.elim0

end Cert.KernelIdeal.Hand
-- ==== Proof.KI.ValCB1.lean ====
/-
  The value of region 1 at the exact instance: after the 50 points the output array holds, entry by entry,
  max (agg + coef * h + bias, 0) of the region's four entry arrays, the coefficient read along its row and the bias
  along its column: the reference's combine followed by its relu. Block t of the output is that pointwise function
  of the blocks of rows [2000 t, 2000 t + 2000); the 50 blocks tile the array.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.RegCB1
import proofs.«403028_j84353157693520_1_alg».proof.Proof.KI.ValSpec
import proofs.«403028_j84353157693520_1_alg».proof.Proof.KI.ValCBLib
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

open Idealize.ShloMosaic.ValueIdx

theorem cb1_hz : (![0, 0] : Fin 2 → Nat) = fun _ => 0 := funext fun a => by fin_cases a <;> rfl

/-- The body's payload at an entry of the block. -/
theorem cb1_pay_apply (v0 v4 : Vec Ideal S2000x128 .f32) (v2 : Vec Ideal S2000x1 .f32) (v9 : Vec Ideal S1x128 .f32)
    (p : Fin 2000) (q : Fin 128) :
    k1_pay1 (F := Ideal) v0 v2 v4 v9 (ix2 p q)
      = max (v0 (ix2 p q) + v2 (ix2 p (0 : Fin 1)) * v4 (ix2 p q) + v9 (ix2 (0 : Fin 1) q)) (Ideal.ofBits .f32 0x00000000#32) := by
  unfold k1_pay1
  simp only [shapeCast_self]
  rw [maximumf_apply, addf_apply, addf_apply, mulf_apply, broadcastTo_a1_ab_apply, broadcastTo_1b_ab_apply, broadcast_apply]
  rfl

/-- The reference's combine and relu at an entry of the array. -/
theorem cb1_ref_apply (A H : (⟨Cert.ReferenceIdeal.S100000x128, .f32⟩ : BufTy).Contents (Elt Ideal))
    (C : (⟨Cert.ReferenceIdeal.S100000x1, .f32⟩ : BufTy).Contents (Elt Ideal))
    (B : (⟨Cert.ReferenceIdeal.S1x128, .f32⟩ : BufTy).Contents (Elt Ideal)) (r : Fin 100000) (j : Fin 128) :
    refRelu (F := Ideal) (refCombine (F := Ideal) A H C B) (ix2 r j)
      = max (A (ix2 r j) + C (ix2 r (0 : Fin 1)) * H (ix2 r j) + B (ix2 (0 : Fin 1) j)) (Ideal.ofBits .f32 0x00000000#32) := by
  unfold refRelu refCombine
  rw [maximumf_apply, addf_apply, addf_apply, mulf_apply, broadcastInDim_a1_ab_apply, broadcastInDim_1b_ab_apply,
    broadcastInDim_scalar_apply]
  rfl

/-- The printed index maps over the grid: the row-blocked windows sit at block row `t`, column block 0; the bias row
    at block (0, 0) throughout. -/
theorem cb1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of one block: when the four block entries the payload reads at `(p, q)` are the array entries at
    `(r, q)`, `(r, q)`, `(r, 0)` and `(0, q)`, the payload there is the reference's value at `(r, q)`. -/
theorem cb1_point (x0 x1 : Vec Ideal S2000x128 .f32) (x2 : Vec Ideal S2000x1 .f32) (x3 : Vec Ideal S1x128 .f32)
    (A H : (⟨Cert.ReferenceIdeal.S100000x128, .f32⟩ : BufTy).Contents (Elt Ideal))
    (C : (⟨Cert.ReferenceIdeal.S100000x1, .f32⟩ : BufTy).Contents (Elt Ideal))
    (B : (⟨Cert.ReferenceIdeal.S1x128, .f32⟩ : BufTy).Contents (Elt Ideal))
    (p : Fin 2000) (q : Fin 128) (r : Fin 100000)
    (h0 : x0 (ix2 p q) = A (ix2 r q)) (h1 : x1 (ix2 p q) = H (ix2 r q))
    (h2 : x2 (ix2 p (0 : Fin 1)) = C (ix2 r (0 : Fin 1))) (h3 : x3 (ix2 (0 : Fin 1) q) = B (ix2 (0 : Fin 1) q)) :
    k1_pay1 (F := Ideal) x0 x2 x1 x3 (ix2 p q) = refRelu (F := Ideal) (refCombine (F := Ideal) A H C B) (ix2 r q) := by
  rw [cb1_pay_apply, cb1_ref_apply, h0, h1, h2, h3]

/-- The aggregated block at point `t` holds rows `2000 t … 2000 t + 1999` of its array. -/
theorem cb1_blk0_apply (c : Dev nD) (t : Fin cfg1.N) (p : Fin 2000) (q : Fin 128) (r : Fin 100000)
    (hr : r.val = t.val * 2000 + p.val) :
    (iblk1 V c 0 t : Vec Ideal S2000x128 .f32) (ix2 p q)
      = (V c (Pipeline.arrRef spec1 0) : S100000x128.Idx → Elt Ideal .f32) (ix2 r q) := by
  obtain ⟨e0, e1, -⟩ := cb1_idx_facts t
  unfold iblk1
  rw [View.read_apply]
  show (V c (Pipeline.arrRef spec1 0) : S100000x128.Idx → Elt Ideal .f32) _ = _
  refine congrArg (V c (Pipeline.arrRef spec1 0) : S100000x128.Idx → Elt Ideal .f32) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * q.val = q.val; rw [e1]; omega

/-- The transformed block at point `t` holds the same rows of its array. -/
theorem cb1_blk1_apply (c : Dev nD) (t : Fin cfg1.N) (p : Fin 2000) (q : Fin 128) (r : Fin 100000)
    (hr : r.val = t.val * 2000 + p.val) :
    (iblk1 V c 1 t : Vec Ideal S2000x128 .f32) (ix2 p q)
      = (V c (Pipeline.arrRef spec1 1) : S100000x128.Idx → Elt Ideal .f32) (ix2 r q) := by
  obtain ⟨-, -, e0, e1, -⟩ := cb1_idx_facts t
  unfold iblk1
  rw [View.read_apply]
  show (V c (Pipeline.arrRef spec1 1) : S100000x128.Idx → Elt Ideal .f32) _ = _
  refine congrArg (V c (Pipeline.arrRef spec1 1) : S100000x128.Idx → Elt Ideal .f32) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * q.val = q.val; rw [e1]; omega

/-- The coefficient block at point `t` holds the same rows of the coefficient column. -/
theorem cb1_blk2_apply (c : Dev nD) (t : Fin cfg1.N) (p : Fin 2000) (r : Fin 100000)
    (hr : r.val = t.val * 2000 + p.val) :
    (iblk1 V c 2 t : Vec Ideal S2000x1 .f32) (ix2 p (0 : Fin 1))
      = (V c (Pipeline.arrRef spec1 2) : S100000x1.Idx → Elt Ideal .f32) (ix2 r (0 : Fin 1)) := by
  obtain ⟨-, -, -, -, e0, e1, -⟩ := cb1_idx_facts t
  unfold iblk1
  rw [View.read_apply]
  show (V c (Pipeline.arrRef spec1 2) : S100000x1.Idx → Elt Ideal .f32) _ = _
  refine congrArg (V c (Pipeline.arrRef spec1 2) : S100000x1.Idx → Elt Ideal .f32) (funext fun a => Fin.ext ?_)
  match a with
  | ⟨0, _⟩ => show win1_2.index t (0 : Fin 2) * 2000 + 1 * p.val = r.val; rw [e0, hr]; omega
  | ⟨1, _⟩ => show win1_2.index t (1 : Fin 2) * 1 + 1 * 0 = 0; rw [e1]

/-- The bias block at every point is the whole bias row. -/
theorem cb1_blk3_apply (c : Dev nD) (t : Fin cfg1.N) (q : Fin 128) :
    (iblk1 V c 3 t : Vec Ideal S1x128 .f32) (ix2 (0 : Fin 1) q)
      = (V c (Pipeline.arrRef spec1 3) : S1x128.Idx → Elt Ideal .f32) (ix2 (0 : Fin 1) q) := by
  obtain ⟨-, -, -, -, -, -, e0, e1, -⟩ := cb1_idx_facts t
  unfold iblk1
  rw [View.read_apply]
  show (V c (Pipeline.arrRef spec1 3) : S1x128.Idx → Elt Ideal .f32) _ = _
  refine congrArg (V c (Pipeline.arrRef spec1 3) : S1x128.Idx → Elt Ideal .f32) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- Entry `(p, q)` of the output block at point `t` is entry `(2000 t + p, q)` of the output array. -/
theorem cb1_blk4_emb (t : Fin cfg1.N) (p : Fin 2000) (q : Fin 128) (r : Fin 100000)
    (hr : r.val = t.val * 2000 + p.val) :
    ((cfg1.win 4).blk t).view.emb (ix2 p q) = (ix2 r q : S100000x128.Idx) := by
  obtain ⟨-, -, -, -, -, -, -, -, e0, e1⟩ := cb1_idx_facts t
  funext a; apply Fin.ext
  match a with
  | ⟨0, _⟩ => show win1_4.index t (0 : Fin 2) * 2000 + 1 * p.val = r.val; rw [e0, hr]; omega
  | ⟨1, _⟩ => show win1_4.index t (1 : Fin 2) * 128 + 1 * q.val = q.val; rw [e1]; omega

/-- What point `t` writes back is block `t` of the reference's value of the entry arrays. -/
theorem cb1_flushed_eq (c : Dev nD) (t : Fin cfg1.N) :
    (dat1 (F := Ideal) V c).flushed 4 t = ((cfg1.win 4).blk t).view.read (Elt Ideal)
      (refRelu (F := Ideal) (refCombine (F := Ideal) (V c (Pipeline.arrRef spec1 0)) (V c (Pipeline.arrRef spec1 1))
          (V c (Pipeline.arrRef spec1 2)) (V c (Pipeline.arrRef spec1 3)))) := by
  show (cfg1.win 4).cut (grid1.coords t) ((dat1 (F := Ideal) V c).after 4 t) = _
  rw [after1_4]
  unfold out1_4
  rw [View.canon_unit_zero cb1_hz]
  simp only [View.ld_unit_zero (S := S2000x128) cb1_hz, View.ld_unit_zero (S := S2000x1) cb1_hz, View.ld_unit_zero (S := S1x128) cb1_hz]
  funext j
  obtain ⟨p, q, rfl⟩ : ∃ (p : Fin 2000) (q : Fin 128), j = ix2 p q := ⟨j 0, j 1, eq_ix2 j⟩
  have ht : t.val < 50 := t.isLt
  have hp : p.val < 2000 := p.isLt
  have hr : t.val * 2000 + p.val < 100000 := by omega
  rw [View.read_apply, cb1_blk4_emb t p q ⟨t.val * 2000 + p.val, hr⟩ rfl]
  exact cb1_point (iblk1 V c 0 t) (iblk1 V c 1 t) (iblk1 V c 2 t) (iblk1 V c 3 t)
    (V c (Pipeline.arrRef spec1 0)) (V c (Pipeline.arrRef spec1 1)) (V c (Pipeline.arrRef spec1 2)) (V c (Pipeline.arrRef spec1 3))
    p q ⟨t.val * 2000 + p.val, hr⟩ (cb1_blk0_apply V c t p q _ rfl) (cb1_blk1_apply V c t p q _ rfl)
    (cb1_blk2_apply V c t p _ rfl) (cb1_blk3_apply V c t q)

/-- An index of the output array is in point `t`'s block iff each coordinate is in the block's range on its axis. -/
theorem cb1_mem_blk (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole (Pipeline.arrRef spec1 4)).slice (win1_4.rect t)).set ↔ _
  rw [View.set_slice_whole, Rect.mem_set_unit]
  exact Iff.rfl

/-- The 50 blocks tile the array: row `r` lies in the block of point `r / 2000`. -/
theorem cb1_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := (by decide : grid1.N = 50)
  have hlt : (i 0).val / 2000 < cfg1.N := by rw [hN]; omega
  obtain ⟨-, -, -, -, -, -, -, -, e0, e1⟩ := cb1_idx_facts ⟨(i 0).val / 2000, hlt⟩
  refine ⟨⟨(i 0).val / 2000, hlt⟩, flush1_4 _, ?_⟩
  rw [cb1_mem_blk]
  intro a
  match a with
  | ⟨0, _⟩ =>
    show win1_4.index ⟨(i 0).val / 2000, hlt⟩ (0 : Fin 2) * 2000 ≤ (i 0).val
      ∧ (i 0).val < win1_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, hlt⟩ (1 : Fin 2) * 128 ≤ (i 1).val
      ∧ (i 1).val < win1_4.index ⟨(i 0).val / 2000, hlt⟩ (1 : Fin 2) * 128 + 128
    rw [e1]; omega

/-- The output array after the region is the relu of the combine of the entry arrays. -/
theorem cb1_val (c : Dev nD) :
    (dat1 (F := Ideal) V c).arrAt 4 cfg1.N
      = refRelu (F := Ideal) (refCombine (F := Ideal) (V c (Pipeline.arrRef spec1 0)) (V c (Pipeline.arrRef spec1 1))
          (V c (Pipeline.arrRef spec1 2)) (V c (Pipeline.arrRef spec1 3))) :=
  (dat1 (F := Ideal) V c).arrAt_eq_of_cover 4 _ (fun t _ => cb1_flushed_eq V c t) cb1_cover

end Cert.KernelIdeal.Hand

end
-- ==== Proof.KI.Br2.lean ====
/-
  The first layer of the kernel program against the reference, at the exact instance: the dense transform (region 0
  against the reference's matrix product), the aggregation of the scaled gathered rows by destination (the same host
  operations on both sides, of equal operands), the bias as a row (a reshape against a broadcast along a new axis),
  and the combine with its relu (region 1 against the reference's operations).
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Br1
import proofs.«403028_j84353157693520_1_alg».proof.Proof.KI.BrLib
import proofs.«403028_j84353157693520_1_alg».proof.Proof.KI.Seg0
import proofs.«403028_j84353157693520_1_alg».proof.Proof.KI.Seg1
import proofs.«403028_j84353157693520_1_alg».proof.Proof.KI.ValMM0
import proofs.«403028_j84353157693520_1_alg».proof.Proof.KI.ValCB1
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge
open Cert.ReferenceIdeal.Read (val_main_v1 val_main_v3 val_main_v15 val_main_v16 val_main_v32 val_main_v49 val_main_v51 val_main_v55 val_main_v58 val_main_v59 val_main_v92 val_main_v98 val_main_v101 val_main_v102 val_main_v135 val_main_v141 val_main_v143 val_main_v145 val_main_v146 val_main_v150 val_main_v159)

open Idealize.ShloMosaic.ValueIdx

/-! ## One layer's host stretch as functions of the buffers it reads -/

section Generic

variable {F : FTy → Type} [FloatOps F]

/-- An edge endpoint made non-negative: an index below zero has the number of nodes added to it. -/
def wrapNode (v : (⟨S600000, .i32⟩ : BufTy).Contents (Elt F)) : (⟨S600000, .i32⟩ : BufTy).Contents (Elt F) :=
  select (cmpi .slt v (broadcastInDim S600000 ![] bcast_S_S600000 (constantI S_ 32 0#32)))
    (addi v (broadcastInDim S600000 ![] bcast_S_S600000 (constantI S_ 32 100000#32))) v

/-- One layer's aggregation as ONE function of the transformed features, the edges' sources and destinations and the
    norm column: the rows of the features gathered at the sources, each scaled by its edge's norm, added by destination
    onto zeros. -/
def aggOf (h : (⟨S100000x128, .f32⟩ : BufTy).Contents (Elt F)) (row col : (⟨S600000, .i32⟩ : BufTy).Contents (Elt F))
    (norm : (⟨S600000x1, .f32⟩ : BufTy).Contents (Elt F)) : (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 (wrapNode col))
    (mulf (broadcastInDim S600000x128 ![0, 1] bcast_S600000x1_S600000x128_0_1 norm)
      (Host.gather gather_S100000x128_S600000x1_S600000x128_1_0_n_n_0_1_1128 h
        (broadcastInDim S600000x1 ![0] bcast_S600000_S600000x1_0 (wrapNode row))))

set_option maxHeartbeats 4000000 in
/-- The second host stretch leaves in the aggregate's buffer the aggregation of what it found in the features', the
    sources', the destinations' and the norm column's buffers. -/
theorem host1_agg (W : Valuation τ sig (Elt F)) :
    (StableHlo.after hostOps1 W (Proc.devRef .tc main_v52) : (⟨S100000x128, .f32⟩ : BufTy).Contents (Elt F))
      = aggOf (W (Proc.devRef .tc main_v35)) (W (Proc.devRef .tc main_v1)) (W (Proc.devRef .tc main_v3)) (W (Proc.devRef .tc main_v34)) := by
  after_results_simp
  rfl

set_option maxHeartbeats 4000000 in
/-- The second host stretch leaves in the bias row's buffer argument 4 reshaped to a row. -/
theorem host1_bias (W : Valuation τ sig (Elt F)) :
    (StableHlo.after hostOps1 W (Proc.devRef .tc main_v53) : (⟨S1x128, .f32⟩ : BufTy).Contents (Elt F))
      = shapeCast S1x128 (W (Proc.devRef .tc main_arg4) : (⟨S128, .f32⟩ : BufTy).Contents (Elt F)) shapeCasts_S128_S1x128 := by
  after_results_simp
  rfl

/-- The reference's aggregation of layer 1 is the same function of its own four stages. -/
theorem ref_agg1 (a0 : (⟨S100000x128, .f32⟩ : BufTy).Contents (Elt F)) (a1 : (⟨S2x600000, .i32⟩ : BufTy).Contents (Elt F))
    (a3 : (⟨S128x128, .f32⟩ : BufTy).Contents (Elt F)) :
    val_main_v49 (F := F) a0 a1 a3
      = aggOf (val_main_v16 (F := F) a0 a3) (val_main_v1 (F := F) a1) (val_main_v3 (F := F) a1) (val_main_v32 (F := F) a1) := by
  unfold val_main_v49 Cert.ReferenceIdeal.Read.val_main_v48 Cert.ReferenceIdeal.Read.val_main_v47 Cert.ReferenceIdeal.Read.val_main_v46
    Cert.ReferenceIdeal.Read.val_main_v45 Cert.ReferenceIdeal.Read.val_main_c_11 Cert.ReferenceIdeal.Read.val_main_v44
    Cert.ReferenceIdeal.Read.val_main_v43 Cert.ReferenceIdeal.Read.val_main_c_10 Cert.ReferenceIdeal.Read.val_main_v42
    Cert.ReferenceIdeal.Read.val_main_cst_9 Cert.ReferenceIdeal.Read.val_main_v41 Cert.ReferenceIdeal.Read.val_main_v40
    Cert.ReferenceIdeal.Read.val_main_v39 Cert.ReferenceIdeal.Read.val_main_v38 Cert.ReferenceIdeal.Read.val_main_v37
    Cert.ReferenceIdeal.Read.val_main_v36 Cert.ReferenceIdeal.Read.val_main_v35 Cert.ReferenceIdeal.Read.val_main_c_8
    Cert.ReferenceIdeal.Read.val_main_v34 Cert.ReferenceIdeal.Read.val_main_v33 Cert.ReferenceIdeal.Read.val_main_c_7
  rfl

/-- A vector reshaped to a row is the reference's broadcast of it along a new leading axis. -/
theorem ref_bias1 (a4 : (⟨S128, .f32⟩ : BufTy).Contents (Elt F)) :
    shapeCast S1x128 a4 shapeCasts_S128_S1x128 = val_main_v55 (F := F) a4 := by
  unfold val_main_v55
  exact shapeCast_row_eq_bcast (a := 128) a4 _ _

/-- The reference's output of layer 1 is the relu of the combine of its four stages. -/
theorem ref_out1 (a0 : (⟨S100000x128, .f32⟩ : BufTy).Contents (Elt F)) (a1 : (⟨S2x600000, .i32⟩ : BufTy).Contents (Elt F))
    (a3 : (⟨S128x128, .f32⟩ : BufTy).Contents (Elt F)) (a4 : (⟨S128, .f32⟩ : BufTy).Contents (Elt F)) :
    val_main_v58 (F := F) a0 a1 a3 a4
      = refRelu (F := F) (refCombine (F := F) (val_main_v49 (F := F) a0 a1 a3) (val_main_v16 (F := F) a0 a3)
          (val_main_v51 (F := F) a1) (val_main_v55 (F := F) a4)) := by
  unfold val_main_v58 Cert.ReferenceIdeal.Read.val_main_v57 Cert.ReferenceIdeal.Read.val_main_v56 Cert.ReferenceIdeal.Read.val_main_v54
    Cert.ReferenceIdeal.Read.val_main_v53 Cert.ReferenceIdeal.Read.val_main_v52 Cert.ReferenceIdeal.Read.val_main_call0_v0
    Cert.ReferenceIdeal.Read.val_main_call0_cst refRelu refCombine
  rfl

end Generic

variable {F : FTy → Type} [FloatOps F]

local notation "𝕄" => MT nD τ sig Unit (Elt F) ℕ (UR sig nD τ) ℕ

variable (m : (ℓ : Loc nD τ sig) → Buf (Elt Ideal) ℓ) (c : Dev nD)

set_option quotPrecheck false
/-- The launch contents of the eleven arguments. -/
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! ## What the items between the stages leave alone -/

/-- Region 0 changes its output array only. -/
theorem X2_of (r : Ref sig .tc) (h : r ≠ main_v35) : X2 m c r = X1 m c r :=
  Function.update_of_ne (StableHlo.devRef_ne_of_ne h) (o2 m c main_v35) (X1 m c)

/-- The second host stretch changes the buffers it writes only. -/
theorem X3_of (r : Ref sig .tc) (h : r ∉ hostOps1_W) : X3 m c r = X2 m c r :=
  StableHlo.after_of_writes_sub hostOps1 _ hostOps1_writes h

/-- The transformed features of layer 1. -/
theorem br2_h : X2 m c main_v35 = val_main_v16 (F := Ideal) x0 x3 := by
  have e1 : X2 m c main_v35 = o2 m c main_v35 :=
    Function.update_self (Proc.devRef .tc main_v35 : DevRef τ sig) (o2 m c main_v35) (X1 m c)
  have a0 : rd (X1 m) c (Pipeline.arrRef spec0 0) = x0 := br1_arg0 m c
  have a1 : rd (X1 m) c (Pipeline.arrRef spec0 1) = x3 := br1_arg3 m c
  rw [e1, o2_out m c, mm0_val (rd (X1 m)) c, a0, a1]
  rfl

/-- The aggregated messages of layer 1. -/
theorem br2_agg : X3 m c main_v52 = val_main_v49 (F := Ideal) x0 x1 x3 := by
  have e : X3 m c main_v52 = aggOf (X2 m c main_v35) (X2 m c main_v1) (X2 m c main_v3) (X2 m c main_v34) :=
    host1_agg (X2 m c)
  rw [e, ref_agg1, br2_h m c, X2_of m c main_v1 (by decide), X2_of m c main_v3 (by decide), X2_of m c main_v34 (by decide),
    br1_row m c, br1_col m c, br1_norm m c]

/-- The bias of layer 1 as a row. -/
theorem br2_bias : X3 m c main_v53 = val_main_v55 (F := Ideal) x4 := by
  have e : X3 m c main_v53 = shapeCast S1x128 (X2 m c main_arg4) shapeCasts_S128_S1x128 := host1_bias (X2 m c)
  rw [e, X2_of m c main_arg4 (by decide), br1_arg4 m c]
  exact ref_bias1 _

/-- The output of layer 1. -/
theorem br2_out : X4 m c main_v54 = val_main_v58 (F := Ideal) x0 x1 x3 x4 := by
  have e1 : X4 m c main_v54 = o4 m c main_v54 :=
    Function.update_self (Proc.devRef .tc main_v54 : DevRef τ sig) (o4 m c main_v54) (X3 m c)
  have a0 : rd (X3 m) c (Pipeline.arrRef spec1 0) = val_main_v49 (F := Ideal) x0 x1 x3 := br2_agg m c
  have a1 : rd (X3 m) c (Pipeline.arrRef spec1 1) = val_main_v16 (F := Ideal) x0 x3 :=
    (X3_of m c main_v35 (by decide)).trans (br2_h m c)
  have a2 : rd (X3 m) c (Pipeline.arrRef spec1 2) = val_main_v51 (F := Ideal) x1 :=
    (X3_of m c main_v18 (by decide)).trans ((X2_of m c main_v18 (by decide)).trans (br1_coef m c))
  have a3 : rd (X3 m) c (Pipeline.arrRef spec1 3) = val_main_v55 (F := Ideal) x4 := br2_bias m c
  rw [e1, o4_out m c, cb1_val (rd (X3 m)) c, a0, a1, a2, a3]
  exact (ref_out1 _ _ _ _).symm

end Cert.KernelIdeal.Hand

end
-- ==== Proof.KI.ValMM2.lean ====
/-
  The value of region 0 at the exact instance: after the 50 points the output array holds, row by row, the product
  of the node features with the weight matrix, that is, the host's matrix product of the region's two entry arrays.
  Block t of the output is the product of rows [2000 t, 2000 t + 2000) with the whole matrix (rounding to bf16 is the
  identity here, and a product into a zero accumulator is the plain sum over the 128 features); the 50 blocks tile
  the array.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.RegMM2
import proofs.«403028_j84353157693520_1_alg».proof.Proof.KI.ValSpec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The zero offsets of a whole staging buffer, however they are spelt. -/
theorem mm2_hz : (![0, 0] : Fin 2 → Nat) = fun _ => 0 := funext fun a => by fin_cases a <;> rfl

/-! ## The matrix unit's product at an index

The product contracts axis 1 of the rows block with axis 0 of the matrix: at output entry (p, j) and contraction
index k the left operand is read at (p, k) and the right one at (k, j). -/

/-- The left operand's row is the output's row. -/
theorem mm2_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction index. -/
theorem mm2_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction index. -/
theorem mm2_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem mm2_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's product block at row p and column j: the sum over the 128 features of the rows block at (p, k)
    times the matrix at (k, j). Rounding to bf16 is the identity here, a block recast to its own shape is that
    block, and the accumulator starts at zero. -/
theorem mm2_pay_apply (x : Vec Ideal S2000x128 .f32) (w : Vec Ideal S128x128 .f32) (p : Fin 2000) (j : Fin 128) :
    k2_pay1 (F := Ideal) x w (ValueIdx.ix2 p j) = ∑ k : Fin 128, x (ValueIdx.ix2 p k) * w (ValueIdx.ix2 k j) := by
  unfold k2_pay1
  try simp only [shapeCast_self]
  refine (Ideal.matmul_constant_zero_apply dot_S2000x128_S128x128_S2000x128_1_0_0_1_n_n none _ _ (ValueIdx.ix2 p j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p j) ((ValueIdx.contrEquiv1 dot_S2000x128_S128x128_S2000x128_1_0_0_1_n_n 128 rfl rfl).symm k) = ValueIdx.ix2 p k := funext fun a => Fin.ext (by
    match a with
    | ⟨0, _⟩ => exact mm2_lhs_0 _ _
    | ⟨1, _⟩ => exact (mm2_lhs_1 _ _).trans hk)
  have er : dot_S2000x128_S128x128_S2000x128_1_0_0_1_n_n.rhsIdx (ValueIdx.ix2 p j) ((ValueIdx.contrEquiv1 dot_S2000x128_S128x128_S2000x128_1_0_0_1_n_n 128 rfl rfl).symm k) = ValueIdx.ix2 k j := funext fun a => Fin.ext (by
    match a with
    | ⟨0, _⟩ => exact (mm2_rhs_0 _ _).trans hk
    | ⟨1, _⟩ => exact mm2_rhs_1 _ _)
  rw [el, er]
  rfl

/-! ## The host's product at an index

The host contracts the same axes over the whole array: at entry (r, j) and contraction index k it reads the rows
at (r, k) and the matrix at (k, j). -/

/-- The left operand's row is the output's row. -/
theorem mm2_ref_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- The left operand's column is the contraction index. -/
theorem mm2_ref_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row is the contraction index. -/
theorem mm2_ref_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- The right operand's column is the output's column. -/
theorem mm2_ref_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product at row r and column j: the sum over the 128 features of the rows at (r, k) times the
    matrix at (k, j). -/
theorem mm2_ref_apply (X : (⟨Cert.ReferenceIdeal.S100000x128, .f32⟩ : BufTy).Contents (Elt Ideal))
    (W : (⟨Cert.ReferenceIdeal.S128x128, .f32⟩ : BufTy).Contents (Elt Ideal)) (r : Fin 100000) (j : Fin 128) :
    refMM (F := Ideal) X W (ValueIdx.ix2 r j) = ∑ k : Fin 128, X (ValueIdx.ix2 r k) * W (ValueIdx.ix2 k j) := by
  unfold refMM
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ValueIdx.ix2 r j) ((ValueIdx.contrEquiv1 Cert.ReferenceIdeal.dot_S100000x128_S128x128_S100000x128_1_0_0_1_n_n 128 rfl rfl).symm k) = ValueIdx.ix2 r k := funext fun a => Fin.ext (by
    match a with
    | ⟨0, _⟩ => exact mm2_ref_lhs_0 _ _
    | ⟨1, _⟩ => exact (mm2_ref_lhs_1 _ _).trans hk)
  have er : Cert.ReferenceIdeal.dot_S100000x128_S128x128_S100000x128_1_0_0_1_n_n.rhsIdx (ValueIdx.ix2 r j) ((ValueIdx.contrEquiv1 Cert.ReferenceIdeal.dot_S100000x128_S128x128_S100000x128_1_0_0_1_n_n 128 rfl rfl).symm k) = ValueIdx.ix2 k j := funext fun a => Fin.ext (by
    match a with
    | ⟨0, _⟩ => exact (mm2_ref_rhs_0 _ _).trans hk
    | ⟨1, _⟩ => exact mm2_ref_rhs_1 _ _)
  rw [el, er]

/-! ## One entry of a product block is the host's entry at its place in the array -/

/-- If the rows block x is rows [2000 b, 2000 b + 2000) of X and the matrix block w is all of W, the body's product
    block at y is the host's product at the entry i that y names in the array: both are the same sum over the 128
    features. -/
theorem mm2_entry (X : (⟨Cert.ReferenceIdeal.S100000x128, .f32⟩ : BufTy).Contents (Elt Ideal))
    (W : (⟨Cert.ReferenceIdeal.S128x128, .f32⟩ : BufTy).Contents (Elt Ideal))
    (x : Vec Ideal S2000x128 .f32) (w : Vec Ideal S128x128 .f32) (b : ℕ)
    (hx : ∀ (y' : S2000x128.Idx) (i' : S100000x128.Idx), (i' 0).val = b * 2000 + (y' 0).val → (i' 1).val = (y' 1).val → x y' = X i')
    (hw : ∀ y' : S128x128.Idx, w y' = W y')
    (y : S2000x128.Idx) (i : S100000x128.Idx) (h0 : (i 0).val = b * 2000 + (y 0).val) (h1 : (i 1).val = (y 1).val) :
    k2_pay1 (F := Ideal) x w y = refMM (F := Ideal) X W i := by
  obtain ⟨p, q, rfl⟩ : ∃ (p : Fin 2000) (q : Fin 128), y = ValueIdx.ix2 p q := ⟨y 0, y 1, ValueIdx.eq_ix2 y⟩
  obtain ⟨r, j, rfl⟩ : ∃ (r : Fin 100000) (j : Fin 128), i = ValueIdx.ix2 r j := ⟨i 0, i 1, ValueIdx.eq_ix2 i⟩
  obtain rfl : j = q := Fin.ext h1
  rw [mm2_pay_apply, mm2_ref_apply]
  exact Finset.sum_congr rfl fun k _ => by rw [hx (ValueIdx.ix2 p k) (ValueIdx.ix2 r k) h0 rfl, hw]

/-! ## From the 50 blocks to the array -/

/-- The printed index maps over the grid: at point t the rows block and the output block are block t along the rows
    and block 0 along the features, and the matrix block is always block (0, 0). -/
theorem mm2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the host's matrix product of the entry arrays. -/
theorem mm2_flushed (c : Dev nD) (t : Fin cfg2.N) :
    (dat2 (F := Ideal) V c).flushed 2 t
      = ((cfg2.win 2).blk t).view.read (Elt Ideal)
          (refMM (F := Ideal) (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero mm2_hz]
  simp only [View.ld_unit_zero (S := S2000x128) mm2_hz, View.ld_unit_zero (S := S128x128) mm2_hz]
  obtain ⟨e00, e01, e10, e11, e20, e21⟩ := mm2_idx t
  funext y
  show k2_pay1 (F := Ideal) (iblk2 V c 0 t) (iblk2 V c 1 t) ((cfg2.win 2).xinj (grid2.coords t) y)
    = refMM (F := Ideal) (V c (Pipeline.arrRef spec2 0)) (V c (Pipeline.arrRef spec2 1)) (((cfg2.win 2).blk t).view.emb y)
  refine mm2_entry _ _ _ _ (win2_2.index t (0 : Fin 2)) ?_ ?_ _ _ ?_ ?_
  · intro y' i' h0 h1
    show V c (Pipeline.arrRef spec2 0) (((cfg2.win 0).blk t).view.emb y') = V c (Pipeline.arrRef spec2 0) i'
    refine congrArg _ (funext fun a => Fin.ext ?_)
    match a with
    | ⟨0, _⟩ => show win2_0.index t (0 : Fin 2) * 2000 + 1 * (y' 0).val = (i' 0).val; omega
    | ⟨1, _⟩ => show win2_0.index t (1 : Fin 2) * 128 + 1 * (y' 1).val = (i' 1).val; omega
  · intro y'
    show V c (Pipeline.arrRef spec2 1) (((cfg2.win 1).blk t).view.emb y') = V c (Pipeline.arrRef spec2 1) y'
    refine congrArg _ (funext fun a => Fin.ext ?_)
    match a with
    | ⟨0, _⟩ => show win2_1.index t (0 : Fin 2) * 128 + 1 * (y' 0).val = (y' 0).val; omega
    | ⟨1, _⟩ => show win2_1.index t (1 : Fin 2) * 128 + 1 * (y' 1).val = (y' 1).val; omega
  · show win2_2.index t (0 : Fin 2) * 2000 + 1 * (y 0).val = win2_2.index t (0 : Fin 2) * 2000 + (y 0).val; omega
  · show win2_2.index t (1 : Fin 2) * 128 + 1 * (y 1).val = (y 1).val; omega

/-- An entry of the array is in point t's block iff each coordinate is in the block's range on its axis. -/
theorem mm2_mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole (Pipeline.arrRef spec2 2)).slice (win2_2.rect t)).set ↔ _
  rw [View.set_slice_whole, Rect.mem_set_unit]
  exact Iff.rfl

/-- The 50 blocks tile the array: row r is in block r / 2000. -/
theorem mm2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_0
  obtain ⟨t, ht⟩ : ∃ t : Fin cfg2.N, t.val = (i 0).val / 2000 := ⟨⟨(i 0).val / 2000, by rw [hN]; omega⟩, rfl⟩
  obtain ⟨-, -, -, -, e20, e21⟩ := mm2_idx t
  refine ⟨t, flush2_2 t, ?_⟩
  rw [mm2_mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region is the matrix product of the entry arrays. -/
theorem mm2_val (c : Dev nD) :
    (dat2 (F := Ideal) V c).arrAt 2 cfg2.N
      = refMM (F := Ideal) (V c (Pipeline.arrRef spec2 0)) (V c (Pipeline.arrRef spec2 1)) :=
  (dat2 (F := Ideal) V c).arrAt_eq_of_cover 2 _ (fun t _ => mm2_flushed V c t) fun i => mm2_cover i

end Cert.KernelIdeal.Hand

end
-- ==== Proof.KI.ValCB3.lean ====
/-
  The value of region 1 at the exact instance: after the 50 points the output array holds, entry by entry,
  max (agg + coef * h + bias, 0) of the region's four entry arrays, the coefficient read along its row and the bias
  along its column: the reference's combine followed by its relu. Block t of the output is that pointwise function
  of the blocks of rows [2000 t, 2000 t + 2000); the 50 blocks tile the array.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.RegCB3
import proofs.«403028_j84353157693520_1_alg».proof.Proof.KI.ValSpec
import proofs.«403028_j84353157693520_1_alg».proof.Proof.KI.ValCBLib
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

open Idealize.ShloMosaic.ValueIdx

theorem cb3_hz : (![0, 0] : Fin 2 → Nat) = fun _ => 0 := funext fun a => by fin_cases a <;> rfl

/-- The body's payload at an entry of the block. -/
theorem cb3_pay_apply (v0 v4 : Vec Ideal S2000x128 .f32) (v2 : Vec Ideal S2000x1 .f32) (v9 : Vec Ideal S1x128 .f32)
    (p : Fin 2000) (q : Fin 128) :
    k3_pay1 (F := Ideal) v0 v2 v4 v9 (ix2 p q)
      = max (v0 (ix2 p q) + v2 (ix2 p (0 : Fin 1)) * v4 (ix2 p q) + v9 (ix2 (0 : Fin 1) q)) (Ideal.ofBits .f32 0x00000000#32) := by
  unfold k3_pay1
  simp only [shapeCast_self]
  rw [maximumf_apply, addf_apply, addf_apply, mulf_apply, broadcastTo_a1_ab_apply, broadcastTo_1b_ab_apply, broadcast_apply]
  rfl

/-- The reference's combine and relu at an entry of the array. -/
theorem cb3_ref_apply (A H : (⟨Cert.ReferenceIdeal.S100000x128, .f32⟩ : BufTy).Contents (Elt Ideal))
    (C : (⟨Cert.ReferenceIdeal.S100000x1, .f32⟩ : BufTy).Contents (Elt Ideal))
    (B : (⟨Cert.ReferenceIdeal.S1x128, .f32⟩ : BufTy).Contents (Elt Ideal)) (r : Fin 100000) (j : Fin 128) :
    refRelu (F := Ideal) (refCombine (F := Ideal) A H C B) (ix2 r j)
      = max (A (ix2 r j) + C (ix2 r (0 : Fin 1)) * H (ix2 r j) + B (ix2 (0 : Fin 1) j)) (Ideal.ofBits .f32 0x00000000#32) := by
  unfold refRelu refCombine
  rw [maximumf_apply, addf_apply, addf_apply, mulf_apply, broadcastInDim_a1_ab_apply, broadcastInDim_1b_ab_apply,
    broadcastInDim_scalar_apply]
  rfl

/-- The printed index maps over the grid: the row-blocked windows sit at block row `t`, column block 0; the bias row
    at block (0, 0) throughout. -/
theorem cb3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One entry of one block: when the four block entries the payload reads at `(p, q)` are the array entries at
    `(r, q)`, `(r, q)`, `(r, 0)` and `(0, q)`, the payload there is the reference's value at `(r, q)`. -/
theorem cb3_point (x0 x1 : Vec Ideal S2000x128 .f32) (x2 : Vec Ideal S2000x1 .f32) (x3 : Vec Ideal S1x128 .f32)
    (A H : (⟨Cert.ReferenceIdeal.S100000x128, .f32⟩ : BufTy).Contents (Elt Ideal))
    (C : (⟨Cert.ReferenceIdeal.S100000x1, .f32⟩ : BufTy).Contents (Elt Ideal))
    (B : (⟨Cert.ReferenceIdeal.S1x128, .f32⟩ : BufTy).Contents (Elt Ideal))
    (p : Fin 2000) (q : Fin 128) (r : Fin 100000)
    (h0 : x0 (ix2 p q) = A (ix2 r q)) (h1 : x1 (ix2 p q) = H (ix2 r q))
    (h2 : x2 (ix2 p (0 : Fin 1)) = C (ix2 r (0 : Fin 1))) (h3 : x3 (ix2 (0 : Fin 1) q) = B (ix2 (0 : Fin 1) q)) :
    k3_pay1 (F := Ideal) x0 x2 x1 x3 (ix2 p q) = refRelu (F := Ideal) (refCombine (F := Ideal) A H C B) (ix2 r q) := by
  rw [cb3_pay_apply, cb3_ref_apply, h0, h1, h2, h3]

/-- The aggregated block at point `t` holds rows `2000 t … 2000 t + 1999` of its array. -/
theorem cb3_blk0_apply (c : Dev nD) (t : Fin cfg3.N) (p : Fin 2000) (q : Fin 128) (r : Fin 100000)
    (hr : r.val = t.val * 2000 + p.val) :
    (iblk3 V c 0 t : Vec Ideal S2000x128 .f32) (ix2 p q)
      = (V c (Pipeline.arrRef spec3 0) : S100000x128.Idx → Elt Ideal .f32) (ix2 r q) := by
  obtain ⟨e0, e1, -⟩ := cb3_idx_facts t
  unfold iblk3
  rw [View.read_apply]
  show (V c (Pipeline.arrRef spec3 0) : S100000x128.Idx → Elt Ideal .f32) _ = _
  refine congrArg (V c (Pipeline.arrRef spec3 0) : S100000x128.Idx → Elt Ideal .f32) (funext fun a => Fin.ext ?_)
  match a with
  | ⟨0, _⟩ => show win3_0.index t (0 : Fin 2) * 2000 + 1 * p.val = r.val; rw [e0, hr]; omega
  | ⟨1, _⟩ => show win3_0.index t (1 : Fin 2) * 128 + 1 * q.val = q.val; rw [e1]; omega

/-- The transformed block at point `t` holds the same rows of its array. -/
theorem cb3_blk1_apply (c : Dev nD) (t : Fin cfg3.N) (p : Fin 2000) (q : Fin 128) (r : Fin 100000)
    (hr : r.val = t.val * 2000 + p.val) :
    (iblk3 V c 1 t : Vec Ideal S2000x128 .f32) (ix2 p q)
      = (V c (Pipeline.arrRef spec3 1) : S100000x128.Idx → Elt Ideal .f32) (ix2 r q) := by
  obtain ⟨-, -, e0, e1, -⟩ := cb3_idx_facts t
  unfold iblk3
  rw [View.read_apply]
  show (V c (Pipeline.arrRef spec3 1) : S100000x128.Idx → Elt Ideal .f32) _ = _
  refine congrArg (V c (Pipeline.arrRef spec3 1) : S100000x128.Idx → Elt Ideal .f32) (funext fun a => Fin.ext ?_)
  match a with
  | ⟨0, _⟩ => show win3_1.index t (0 : Fin 2) * 2000 + 1 * p.val = r.val; rw [e0, hr]; omega
  | ⟨1, _⟩ => show win3_1.index t (1 : Fin 2) * 128 + 1 * q.val = q.val; rw [e1]; omega

/-- The coefficient block at point `t` holds the same rows of the coefficient column. -/
theorem cb3_blk2_apply (c : Dev nD) (t : Fin cfg3.N) (p : Fin 2000) (r : Fin 100000)
    (hr : r.val = t.val * 2000 + p.val) :
    (iblk3 V c 2 t : Vec Ideal S2000x1 .f32) (ix2 p (0 : Fin 1))
      = (V c (Pipeline.arrRef spec3 2) : S100000x1.Idx → Elt Ideal .f32) (ix2 r (0 : Fin 1)) := by
  obtain ⟨-, -, -, -, e0, e1, -⟩ := cb3_idx_facts t
  unfold iblk3
  rw [View.read_apply]
  show (V c (Pipeline.arrRef spec3 2) : S100000x1.Idx → Elt Ideal .f32) _ = _
  refine congrArg (V c (Pipeline.arrRef spec3 2) : S100000x1.Idx → Elt Ideal .f32) (funext fun a => Fin.ext ?_)
  match a with
  | ⟨0, _⟩ => show win3_2.index t (0 : Fin 2) * 2000 + 1 * p.val = r.val; rw [e0, hr]; omega
  | ⟨1, _⟩ => show win3_2.index t (1 : Fin 2) * 1 + 1 * 0 = 0; rw [e1]

/-- The bias block at every point is the whole bias row. -/
theorem cb3_blk3_apply (c : Dev nD) (t : Fin cfg3.N) (q : Fin 128) :
    (iblk3 V c 3 t : Vec Ideal S1x128 .f32) (ix2 (0 : Fin 1) q)
      = (V c (Pipeline.arrRef spec3 3) : S1x128.Idx → Elt Ideal .f32) (ix2 (0 : Fin 1) q) := by
  obtain ⟨-, -, -, -, -, -, e0, e1, -⟩ := cb3_idx_facts t
  unfold iblk3
  rw [View.read_apply]
  show (V c (Pipeline.arrRef spec3 3) : S1x128.Idx → Elt Ideal .f32) _ = _
  refine congrArg (V c (Pipeline.arrRef spec3 3) : S1x128.Idx → Elt Ideal .f32) (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-- Entry `(p, q)` of the output block at point `t` is entry `(2000 t + p, q)` of the output array. -/
theorem cb3_blk4_emb (t : Fin cfg3.N) (p : Fin 2000) (q : Fin 128) (r : Fin 100000)
    (hr : r.val = t.val * 2000 + p.val) :
    ((cfg3.win 4).blk t).view.emb (ix2 p q) = (ix2 r q : S100000x128.Idx) := by
  obtain ⟨-, -, -, -, -, -, -, -, e0, e1⟩ := cb3_idx_facts t
  funext a; apply Fin.ext
  match a with
  | ⟨0, _⟩ => show win3_4.index t (0 : Fin 2) * 2000 + 1 * p.val = r.val; rw [e0, hr]; omega
  | ⟨1, _⟩ => show win3_4.index t (1 : Fin 2) * 128 + 1 * q.val = q.val; rw [e1]; omega

/-- What point `t` writes back is block `t` of the reference's value of the entry arrays. -/
theorem cb3_flushed_eq (c : Dev nD) (t : Fin cfg3.N) :
    (dat3 (F := Ideal) V c).flushed 4 t = ((cfg3.win 4).blk t).view.read (Elt Ideal)
      (refRelu (F := Ideal) (refCombine (F := Ideal) (V c (Pipeline.arrRef spec3 0)) (V c (Pipeline.arrRef spec3 1))
          (V c (Pipeline.arrRef spec3 2)) (V c (Pipeline.arrRef spec3 3)))) := by
  show (cfg3.win 4).cut (grid3.coords t) ((dat3 (F := Ideal) V c).after 4 t) = _
  rw [after3_4]
  unfold out3_4
  rw [View.canon_unit_zero cb3_hz]
  simp only [View.ld_unit_zero (S := S2000x128) cb3_hz, View.ld_unit_zero (S := S2000x1) cb3_hz, View.ld_unit_zero (S := S1x128) cb3_hz]
  funext j
  obtain ⟨p, q, rfl⟩ : ∃ (p : Fin 2000) (q : Fin 128), j = ix2 p q := ⟨j 0, j 1, eq_ix2 j⟩
  have ht : t.val < 50 := t.isLt
  have hp : p.val < 2000 := p.isLt
  have hr : t.val * 2000 + p.val < 100000 := by omega
  rw [View.read_apply, cb3_blk4_emb t p q ⟨t.val * 2000 + p.val, hr⟩ rfl]
  exact cb3_point (iblk3 V c 0 t) (iblk3 V c 1 t) (iblk3 V c 2 t) (iblk3 V c 3 t)
    (V c (Pipeline.arrRef spec3 0)) (V c (Pipeline.arrRef spec3 1)) (V c (Pipeline.arrRef spec3 2)) (V c (Pipeline.arrRef spec3 3))
    p q ⟨t.val * 2000 + p.val, hr⟩ (cb3_blk0_apply V c t p q _ rfl) (cb3_blk1_apply V c t p q _ rfl)
    (cb3_blk2_apply V c t p _ rfl) (cb3_blk3_apply V c t q)

/-- An index of the output array is in point `t`'s block iff each coordinate is in the block's range on its axis. -/
theorem cb3_mem_blk (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole (Pipeline.arrRef spec3 4)).slice (win3_4.rect t)).set ↔ _
  rw [View.set_slice_whole, Rect.mem_set_unit]
  exact Iff.rfl

/-- The 50 blocks tile the array: row `r` lies in the block of point `r / 2000`. -/
theorem cb3_cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 50 := (by decide : grid3.N = 50)
  have hlt : (i 0).val / 2000 < cfg3.N := by rw [hN]; omega
  obtain ⟨-, -, -, -, -, -, -, -, e0, e1⟩ := cb3_idx_facts ⟨(i 0).val / 2000, hlt⟩
  refine ⟨⟨(i 0).val / 2000, hlt⟩, flush3_4 _, ?_⟩
  rw [cb3_mem_blk]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win3_4.index ⟨(i 0).val / 2000, hlt⟩ (1 : Fin 2) * 128 ≤ (i 1).val
      ∧ (i 1).val < win3_4.index ⟨(i 0).val / 2000, hlt⟩ (1 : Fin 2) * 128 + 128
    rw [e1]; omega

/-- The output array after the region is the relu of the combine of the entry arrays. -/
theorem cb3_val (c : Dev nD) :
    (dat3 (F := Ideal) V c).arrAt 4 cfg3.N
      = refRelu (F := Ideal) (refCombine (F := Ideal) (V c (Pipeline.arrRef spec3 0)) (V c (Pipeline.arrRef spec3 1))
          (V c (Pipeline.arrRef spec3 2)) (V c (Pipeline.arrRef spec3 3))) :=
  (dat3 (F := Ideal) V c).arrAt_eq_of_cover 4 _ (fun t _ => cb3_flushed_eq V c t) cb3_cover

end Cert.KernelIdeal.Hand

end
-- ==== Proof.KI.Br3.lean ====
/-
  The second layer of the kernel program against the reference, at the exact instance: the dense transform (region 2),
  the aggregation by destination, the bias as a row, and the combine with its relu (region 3).
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Br2
import proofs.«403028_j84353157693520_1_alg».proof.Proof.KI.Seg2
import proofs.«403028_j84353157693520_1_alg».proof.Proof.KI.Seg3
import proofs.«403028_j84353157693520_1_alg».proof.Proof.KI.ValMM2
import proofs.«403028_j84353157693520_1_alg».proof.Proof.KI.ValCB3
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge
open Cert.ReferenceIdeal.Read (val_main_v1 val_main_v3 val_main_v15 val_main_v16 val_main_v32 val_main_v49 val_main_v51 val_main_v55 val_main_v58 val_main_v59 val_main_v92 val_main_v98 val_main_v101 val_main_v102 val_main_v135 val_main_v141 val_main_v143 val_main_v145 val_main_v146 val_main_v150 val_main_v159)

/-! ## The third host stretch as functions of the buffers it reads, and the reference's second layer -/

section Generic

variable {F : FTy → Type} [FloatOps F]

set_option maxHeartbeats 4000000 in
/-- The third host stretch leaves in the aggregate's buffer the aggregation of what it found in the features', the
    sources', the destinations' and the norm column's buffers. -/
theorem host3_agg (W : Valuation τ sig (Elt F)) :
    (StableHlo.after hostOps3 W (Proc.devRef .tc main_v72) : (⟨S100000x128, .f32⟩ : BufTy).Contents (Elt F))
      = aggOf (W (Proc.devRef .tc main_v55)) (W (Proc.devRef .tc main_v1)) (W (Proc.devRef .tc main_v3)) (W (Proc.devRef .tc main_v34)) := by
  after_results_simp
  rfl

set_option maxHeartbeats 4000000 in
/-- The third host stretch leaves in the bias row's buffer argument 6 reshaped to a row. -/
theorem host3_bias (W : Valuation τ sig (Elt F)) :
    (StableHlo.after hostOps3 W (Proc.devRef .tc main_v73) : (⟨S1x128, .f32⟩ : BufTy).Contents (Elt F))
      = shapeCast S1x128 (W (Proc.devRef .tc main_arg6) : (⟨S128, .f32⟩ : BufTy).Contents (Elt F)) shapeCasts_S128_S1x128 := by
  after_results_simp
  rfl

/-- The reference computes the norm column again for layer 2, by the same operations of the edge list: the inverse
    square-root degrees gathered at the wrapped sources times those gathered at the wrapped destinations, as a column. -/
theorem ref_norm2 (a1 : (⟨S2x600000, .i32⟩ : BufTy).Contents (Elt F)) :
    Cert.ReferenceIdeal.Read.val_main_v75 (F := F) a1 = val_main_v32 (F := F) a1 := by
  unfold Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_v69 Cert.ReferenceIdeal.Read.val_main_c_15 Cert.ReferenceIdeal.Read.val_main_v68 Cert.ReferenceIdeal.Read.val_main_v67 Cert.ReferenceIdeal.Read.val_main_c_14 Cert.ReferenceIdeal.Read.val_main_v66 Cert.ReferenceIdeal.Read.val_main_v65 Cert.ReferenceIdeal.Read.val_main_v64 Cert.ReferenceIdeal.Read.val_main_v63 Cert.ReferenceIdeal.Read.val_main_v62 Cert.ReferenceIdeal.Read.val_main_c_13 Cert.ReferenceIdeal.Read.val_main_v61 Cert.ReferenceIdeal.Read.val_main_v60 Cert.ReferenceIdeal.Read.val_main_c_12
    val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_c_6 Cert.ReferenceIdeal.Read.val_main_v25 Cert.ReferenceIdeal.Read.val_main_v24 Cert.ReferenceIdeal.Read.val_main_c_5 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_c_4 Cert.ReferenceIdeal.Read.val_main_v18 Cert.ReferenceIdeal.Read.val_main_v17 Cert.ReferenceIdeal.Read.val_main_c_3
  rfl

/-- The reference computes the self-loop coefficient column again for layer 2: the squared inverse square-root
    degrees, as a column. -/
theorem ref_coef2 (a1 : (⟨S2x600000, .i32⟩ : BufTy).Contents (Elt F)) :
    Cert.ReferenceIdeal.Read.val_main_v94 (F := F) a1 = val_main_v51 (F := F) a1 := by
  unfold Cert.ReferenceIdeal.Read.val_main_v94 Cert.ReferenceIdeal.Read.val_main_v93 val_main_v51 Cert.ReferenceIdeal.Read.val_main_v50
  rfl

/-- The reference's aggregation of layer 2 is the same function of its own four stages. -/
theorem ref_agg2 (a0 : (⟨S100000x128, .f32⟩ : BufTy).Contents (Elt F)) (a1 : (⟨S2x600000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) :
    val_main_v92 (F := F) a0 a1 a3 a4 a5
      = aggOf (val_main_v59 (F := F) a0 a1 a3 a4 a5) (val_main_v1 (F := F) a1) (val_main_v3 (F := F) a1) (val_main_v32 (F := F) a1) := by
  rw [← ref_norm2]
  unfold val_main_v92 Cert.ReferenceIdeal.Read.val_main_v91 Cert.ReferenceIdeal.Read.val_main_v90 Cert.ReferenceIdeal.Read.val_main_v89 Cert.ReferenceIdeal.Read.val_main_v88 Cert.ReferenceIdeal.Read.val_main_c_20 Cert.ReferenceIdeal.Read.val_main_v87 Cert.ReferenceIdeal.Read.val_main_v86 Cert.ReferenceIdeal.Read.val_main_c_19 Cert.ReferenceIdeal.Read.val_main_v85 Cert.ReferenceIdeal.Read.val_main_cst_18 Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_c_17 Cert.ReferenceIdeal.Read.val_main_v77 Cert.ReferenceIdeal.Read.val_main_v76 Cert.ReferenceIdeal.Read.val_main_c_16
  rfl

/-- A vector reshaped to a row is the reference's broadcast of it along a new leading axis. -/
theorem ref_bias2 (a6 : (⟨S128, .f32⟩ : BufTy).Contents (Elt F)) :
    shapeCast S1x128 a6 shapeCasts_S128_S1x128 = val_main_v98 (F := F) a6 := by
  unfold val_main_v98
  exact shapeCast_row_eq_bcast (a := 128) a6 _ _

/-- The reference's output of layer 2 is the relu of the combine of its four stages. -/
theorem ref_out2 (a0 : (⟨S100000x128, .f32⟩ : BufTy).Contents (Elt F)) (a1 : (⟨S2x600000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) :
    val_main_v101 (F := F) a0 a1 a3 a4 a5 a6
      = refRelu (F := F) (refCombine (F := F) (val_main_v92 (F := F) a0 a1 a3 a4 a5) (val_main_v59 (F := F) a0 a1 a3 a4 a5)
          (val_main_v51 (F := F) a1) (val_main_v98 (F := F) a6)) := by
  rw [← ref_coef2]
  unfold val_main_v101 Cert.ReferenceIdeal.Read.val_main_v100 Cert.ReferenceIdeal.Read.val_main_v99 Cert.ReferenceIdeal.Read.val_main_v97 Cert.ReferenceIdeal.Read.val_main_v96 Cert.ReferenceIdeal.Read.val_main_v95 Cert.ReferenceIdeal.Read.val_main_call1_v0 Cert.ReferenceIdeal.Read.val_main_call1_cst refRelu refCombine
  rfl

end Generic

variable {F : FTy → Type} [FloatOps F]

local notation "𝕄" => MT nD τ sig Unit (Elt F) ℕ (UR sig nD τ) ℕ

variable (m : (ℓ : Loc nD τ sig) → Buf (Elt Ideal) ℓ) (c : Dev nD)

set_option quotPrecheck false
/-- The launch contents of the eleven arguments. -/
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! ## What the items between the stages leave alone -/

/-- Region 1 changes its output array only. -/
theorem X4_of (r : Ref sig .tc) (h : r ≠ main_v54) : X4 m c r = X3 m c r :=
  Function.update_of_ne (StableHlo.devRef_ne_of_ne h) (o4 m c main_v54) (X3 m c)

/-- Region 2 changes its output array only. -/
theorem X5_of (r : Ref sig .tc) (h : r ≠ main_v55) : X5 m c r = X4 m c r :=
  Function.update_of_ne (StableHlo.devRef_ne_of_ne h) (o5 m c main_v55) (X4 m c)

/-- The third host stretch changes the buffers it writes only. -/
theorem X6_of (r : Ref sig .tc) (h : r ∉ hostOps3_W) : X6 m c r = X5 m c r :=
  StableHlo.after_of_writes_sub hostOps3 _ hostOps3_writes h

/-- A buffer that none of regions 0, 1, 2 and the second host stretch writes is, at region 2's exit, as the first
    host stretch left it. -/
theorem X5_of_X1 (r : Ref sig .tc) (h5 : r ≠ main_v55) (h4 : r ≠ main_v54) (h3 : r ∉ hostOps1_W) (h2 : r ≠ main_v35) :
    X5 m c r = X1 m c r :=
  (X5_of m c r h5).trans ((X4_of m c r h4).trans ((X3_of m c r h3).trans (X2_of m c r h2)))

/-- The transformed features of layer 2. -/
theorem br3_h : X5 m c main_v55 = val_main_v59 (F := Ideal) x0 x1 x3 x4 x5 := by
  have e1 : X5 m c main_v55 = o5 m c main_v55 :=
    Function.update_self (Proc.devRef .tc main_v55 : DevRef τ sig) (o5 m c main_v55) (X4 m c)
  have a0 : rd (X4 m) c (Pipeline.arrRef spec2 0) = val_main_v58 (F := Ideal) x0 x1 x3 x4 := br2_out m c
  have a1 : rd (X4 m) c (Pipeline.arrRef spec2 1) = x5 :=
    (X4_of m c main_arg5 (by decide)).trans ((X3_of m c main_arg5 (by decide)).trans
      ((X2_of m c main_arg5 (by decide)).trans (br1_arg5 m c)))
  rw [e1, o5_out m c, mm2_val (rd (X4 m)) c, a0, a1]
  rfl

/-- The aggregated messages of layer 2. -/
theorem br3_agg : X6 m c main_v72 = val_main_v92 (F := Ideal) x0 x1 x3 x4 x5 := by
  have e : X6 m c main_v72 = aggOf (X5 m c main_v55) (X5 m c main_v1) (X5 m c main_v3) (X5 m c main_v34) :=
    host3_agg (X5 m c)
  rw [e, ref_agg2, br3_h m c, X5_of_X1 m c main_v1 (by decide) (by decide) (by decide) (by decide),
    X5_of_X1 m c main_v3 (by decide) (by decide) (by decide) (by decide),
    X5_of_X1 m c main_v34 (by decide) (by decide) (by decide) (by decide), br1_row m c, br1_col m c, br1_norm m c]

/-- The bias of layer 2 as a row. -/
theorem br3_bias : X6 m c main_v73 = val_main_v98 (F := Ideal) x6 := by
  have e : X6 m c main_v73 = shapeCast S1x128 (X5 m c main_arg6) shapeCasts_S128_S1x128 := host3_bias (X5 m c)
  rw [e, X5_of_X1 m c main_arg6 (by decide) (by decide) (by decide) (by decide), br1_arg6 m c]
  exact ref_bias2 _

/-- The output of layer 2. -/
theorem br3_out : X7 m c main_v74 = val_main_v101 (F := Ideal) x0 x1 x3 x4 x5 x6 := by
  have e1 : X7 m c main_v74 = o7 m c main_v74 :=
    Function.update_self (Proc.devRef .tc main_v74 : DevRef τ sig) (o7 m c main_v74) (X6 m c)
  have a0 : rd (X6 m) c (Pipeline.arrRef spec3 0) = val_main_v92 (F := Ideal) x0 x1 x3 x4 x5 := br3_agg m c
  have a1 : rd (X6 m) c (Pipeline.arrRef spec3 1) = val_main_v59 (F := Ideal) x0 x1 x3 x4 x5 :=
    (X6_of m c main_v55 (by decide)).trans (br3_h m c)
  have a2 : rd (X6 m) c (Pipeline.arrRef spec3 2) = val_main_v51 (F := Ideal) x1 :=
    (X6_of m c main_v18 (by decide)).trans
      ((X5_of_X1 m c main_v18 (by decide) (by decide) (by decide) (by decide)).trans (br1_coef m c))
  have a3 : rd (X6 m) c (Pipeline.arrRef spec3 3) = val_main_v98 (F := Ideal) x6 := br3_bias m c
  rw [e1, o7_out m c, cb3_val (rd (X6 m)) c, a0, a1, a2, a3]
  exact (ref_out2 _ _ _ _ _ _).symm

end Cert.KernelIdeal.Hand

end
-- ==== Proof.KI.ValMM4.lean ====
/-
  The value of region 0 at the exact instance: after the 50 points the output array holds, row by row, the product
  of the node features with the weight matrix, that is, the host's matrix product of the region's two entry arrays.
  Block t of the output is the product of rows [2000 t, 2000 t + 2000) with the whole matrix (rounding to bf16 is the
  identity here, and a product into a zero accumulator is the plain sum over the 128 features); the 50 blocks tile
  the array.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.RegMM4
import proofs.«403028_j84353157693520_1_alg».proof.Proof.KI.ValSpec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The zero offsets of a whole staging buffer, however they are spelt. -/
theorem mm4_hz : (![0, 0] : Fin 2 → Nat) = fun _ => 0 := funext fun a => by fin_cases a <;> rfl

/-! ## The matrix unit's product at an index

The product contracts axis 1 of the rows block with axis 0 of the matrix: at output entry (p, j) and contraction
index k the left operand is read at (p, k) and the right one at (k, j). -/

/-- The left operand's row is the output's row. -/
theorem mm4_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction index. -/
theorem mm4_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction index. -/
theorem mm4_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem mm4_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's product block at row p and column j: the sum over the 128 features of the rows block at (p, k)
    times the matrix at (k, j). Rounding to bf16 is the identity here, a block recast to its own shape is that
    block, and the accumulator starts at zero. -/
theorem mm4_pay_apply (x : Vec Ideal S2000x128 .f32) (w : Vec Ideal S128x128 .f32) (p : Fin 2000) (j : Fin 128) :
    k4_pay1 (F := Ideal) x w (ValueIdx.ix2 p j) = ∑ k : Fin 128, x (ValueIdx.ix2 p k) * w (ValueIdx.ix2 k j) := by
  unfold k4_pay1
  try simp only [shapeCast_self]
  refine (Ideal.matmul_constant_zero_apply dot_S2000x128_S128x128_S2000x128_1_0_0_1_n_n none _ _ (ValueIdx.ix2 p j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p j) ((ValueIdx.contrEquiv1 dot_S2000x128_S128x128_S2000x128_1_0_0_1_n_n 128 rfl rfl).symm k) = ValueIdx.ix2 p k := funext fun a => Fin.ext (by
    match a with
    | ⟨0, _⟩ => exact mm4_lhs_0 _ _
    | ⟨1, _⟩ => exact (mm4_lhs_1 _ _).trans hk)
  have er : dot_S2000x128_S128x128_S2000x128_1_0_0_1_n_n.rhsIdx (ValueIdx.ix2 p j) ((ValueIdx.contrEquiv1 dot_S2000x128_S128x128_S2000x128_1_0_0_1_n_n 128 rfl rfl).symm k) = ValueIdx.ix2 k j := funext fun a => Fin.ext (by
    match a with
    | ⟨0, _⟩ => exact (mm4_rhs_0 _ _).trans hk
    | ⟨1, _⟩ => exact mm4_rhs_1 _ _)
  rw [el, er]
  rfl

/-! ## The host's product at an index

The host contracts the same axes over the whole array: at entry (r, j) and contraction index k it reads the rows
at (r, k) and the matrix at (k, j). -/

/-- The left operand's row is the output's row. -/
theorem mm4_ref_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- The left operand's column is the contraction index. -/
theorem mm4_ref_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row is the contraction index. -/
theorem mm4_ref_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- The right operand's column is the output's column. -/
theorem mm4_ref_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product at row r and column j: the sum over the 128 features of the rows at (r, k) times the
    matrix at (k, j). -/
theorem mm4_ref_apply (X : (⟨Cert.ReferenceIdeal.S100000x128, .f32⟩ : BufTy).Contents (Elt Ideal))
    (W : (⟨Cert.ReferenceIdeal.S128x128, .f32⟩ : BufTy).Contents (Elt Ideal)) (r : Fin 100000) (j : Fin 128) :
    refMM (F := Ideal) X W (ValueIdx.ix2 r j) = ∑ k : Fin 128, X (ValueIdx.ix2 r k) * W (ValueIdx.ix2 k j) := by
  unfold refMM
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ValueIdx.ix2 r j) ((ValueIdx.contrEquiv1 Cert.ReferenceIdeal.dot_S100000x128_S128x128_S100000x128_1_0_0_1_n_n 128 rfl rfl).symm k) = ValueIdx.ix2 r k := funext fun a => Fin.ext (by
    match a with
    | ⟨0, _⟩ => exact mm4_ref_lhs_0 _ _
    | ⟨1, _⟩ => exact (mm4_ref_lhs_1 _ _).trans hk)
  have er : Cert.ReferenceIdeal.dot_S100000x128_S128x128_S100000x128_1_0_0_1_n_n.rhsIdx (ValueIdx.ix2 r j) ((ValueIdx.contrEquiv1 Cert.ReferenceIdeal.dot_S100000x128_S128x128_S100000x128_1_0_0_1_n_n 128 rfl rfl).symm k) = ValueIdx.ix2 k j := funext fun a => Fin.ext (by
    match a with
    | ⟨0, _⟩ => exact (mm4_ref_rhs_0 _ _).trans hk
    | ⟨1, _⟩ => exact mm4_ref_rhs_1 _ _)
  rw [el, er]

/-! ## One entry of a product block is the host's entry at its place in the array -/

/-- If the rows block x is rows [2000 b, 2000 b + 2000) of X and the matrix block w is all of W, the body's product
    block at y is the host's product at the entry i that y names in the array: both are the same sum over the 128
    features. -/
theorem mm4_entry (X : (⟨Cert.ReferenceIdeal.S100000x128, .f32⟩ : BufTy).Contents (Elt Ideal))
    (W : (⟨Cert.ReferenceIdeal.S128x128, .f32⟩ : BufTy).Contents (Elt Ideal))
    (x : Vec Ideal S2000x128 .f32) (w : Vec Ideal S128x128 .f32) (b : ℕ)
    (hx : ∀ (y' : S2000x128.Idx) (i' : S100000x128.Idx), (i' 0).val = b * 2000 + (y' 0).val → (i' 1).val = (y' 1).val → x y' = X i')
    (hw : ∀ y' : S128x128.Idx, w y' = W y')
    (y : S2000x128.Idx) (i : S100000x128.Idx) (h0 : (i 0).val = b * 2000 + (y 0).val) (h1 : (i 1).val = (y 1).val) :
    k4_pay1 (F := Ideal) x w y = refMM (F := Ideal) X W i := by
  obtain ⟨p, q, rfl⟩ : ∃ (p : Fin 2000) (q : Fin 128), y = ValueIdx.ix2 p q := ⟨y 0, y 1, ValueIdx.eq_ix2 y⟩
  obtain ⟨r, j, rfl⟩ : ∃ (r : Fin 100000) (j : Fin 128), i = ValueIdx.ix2 r j := ⟨i 0, i 1, ValueIdx.eq_ix2 i⟩
  obtain rfl : j = q := Fin.ext h1
  rw [mm4_pay_apply, mm4_ref_apply]
  exact Finset.sum_congr rfl fun k _ => by rw [hx (ValueIdx.ix2 p k) (ValueIdx.ix2 r k) h0 rfl, hw]

/-! ## From the 50 blocks to the array -/

/-- The printed index maps over the grid: at point t the rows block and the output block are block t along the rows
    and block 0 along the features, and the matrix block is always block (0, 0). -/
theorem mm4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the host's matrix product of the entry arrays. -/
theorem mm4_flushed (c : Dev nD) (t : Fin cfg4.N) :
    (dat4 (F := Ideal) V c).flushed 2 t
      = ((cfg4.win 2).blk t).view.read (Elt Ideal)
          (refMM (F := Ideal) (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero mm4_hz]
  simp only [View.ld_unit_zero (S := S2000x128) mm4_hz, View.ld_unit_zero (S := S128x128) mm4_hz]
  obtain ⟨e00, e01, e10, e11, e20, e21⟩ := mm4_idx t
  funext y
  show k4_pay1 (F := Ideal) (iblk4 V c 0 t) (iblk4 V c 1 t) ((cfg4.win 2).xinj (grid4.coords t) y)
    = refMM (F := Ideal) (V c (Pipeline.arrRef spec4 0)) (V c (Pipeline.arrRef spec4 1)) (((cfg4.win 2).blk t).view.emb y)
  refine mm4_entry _ _ _ _ (win4_2.index t (0 : Fin 2)) ?_ ?_ _ _ ?_ ?_
  · intro y' i' h0 h1
    show V c (Pipeline.arrRef spec4 0) (((cfg4.win 0).blk t).view.emb y') = V c (Pipeline.arrRef spec4 0) i'
    refine congrArg _ (funext fun a => Fin.ext ?_)
    match a with
    | ⟨0, _⟩ => show win4_0.index t (0 : Fin 2) * 2000 + 1 * (y' 0).val = (i' 0).val; omega
    | ⟨1, _⟩ => show win4_0.index t (1 : Fin 2) * 128 + 1 * (y' 1).val = (i' 1).val; omega
  · intro y'
    show V c (Pipeline.arrRef spec4 1) (((cfg4.win 1).blk t).view.emb y') = V c (Pipeline.arrRef spec4 1) y'
    refine congrArg _ (funext fun a => Fin.ext ?_)
    match a with
    | ⟨0, _⟩ => show win4_1.index t (0 : Fin 2) * 128 + 1 * (y' 0).val = (y' 0).val; omega
    | ⟨1, _⟩ => show win4_1.index t (1 : Fin 2) * 128 + 1 * (y' 1).val = (y' 1).val; omega
  · show win4_2.index t (0 : Fin 2) * 2000 + 1 * (y 0).val = win4_2.index t (0 : Fin 2) * 2000 + (y 0).val; omega
  · show win4_2.index t (1 : Fin 2) * 128 + 1 * (y 1).val = (y 1).val; omega

/-- An entry of the array is in point t's block iff each coordinate is in the block's range on its axis. -/
theorem mm4_mem_blk (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole (Pipeline.arrRef spec4 2)).slice (win4_2.rect t)).set ↔ _
  rw [View.set_slice_whole, Rect.mem_set_unit]
  exact Iff.rfl

/-- The 50 blocks tile the array: row r is in block r / 2000. -/
theorem mm4_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 50 := N_0
  obtain ⟨t, ht⟩ : ∃ t : Fin cfg4.N, t.val = (i 0).val / 2000 := ⟨⟨(i 0).val / 2000, by rw [hN]; omega⟩, rfl⟩
  obtain ⟨-, -, -, -, e20, e21⟩ := mm4_idx t
  refine ⟨t, flush4_2 t, ?_⟩
  rw [mm4_mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The output array after the region is the matrix product of the entry arrays. -/
theorem mm4_val (c : Dev nD) :
    (dat4 (F := Ideal) V c).arrAt 2 cfg4.N
      = refMM (F := Ideal) (V c (Pipeline.arrRef spec4 0)) (V c (Pipeline.arrRef spec4 1)) :=
  (dat4 (F := Ideal) V c).arrAt_eq_of_cover 2 _ (fun t _ => mm4_flushed V c t) fun i => mm4_cover i

end Cert.KernelIdeal.Hand

end
-- ==== Proof.KI.ValCB5.lean ====
/-
  The value of region 5 at the exact instance: after the 50 points the output array holds, entry by entry,
  agg + coef * h + bias of the region's four entry arrays, the coefficient read along its row and the bias along its
  column: the reference's combine; the last layer has no relu. Block t of the output is that pointwise function of
  the blocks of rows [2000 t, 2000 t + 2000); the 50 blocks tile the array.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.RegCB5
import proofs.«403028_j84353157693520_1_alg».proof.Proof.KI.ValSpec
import proofs.«403028_j84353157693520_1_alg».proof.Proof.KI.ValCBLib
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

open Idealize.ShloMosaic.ValueIdx

theorem cb5_hz : (![0, 0] : Fin 2 → Nat) = fun _ => 0 := funext fun a => by fin_cases a <;> rfl

/-- The body's payload at an entry of the block: no maximum here, the sum is stored as it is. -/
theorem cb5_pay_apply (v0 v4 : Vec Ideal S2000x128 .f32) (v2 : Vec Ideal S2000x1 .f32) (v9 : Vec Ideal S1x128 .f32)
    (p : Fin 2000) (q : Fin 128) :
    k5_pay1 (F := Ideal) v0 v2 v4 v9 (ix2 p q)
      = v0 (ix2 p q) + v2 (ix2 p (0 : Fin 1)) * v4 (ix2 p q) + v9 (ix2 (0 : Fin 1) q) := by
  unfold k5_pay1
  simp only [shapeCast_self]
  rw [addf_apply, addf_apply, mulf_apply, broadcastTo_a1_ab_apply, broadcastTo_1b_ab_apply]

/-- The reference's combine at an entry of the array. -/
theorem cb5_ref_apply (A H : (⟨Cert.ReferenceIdeal.S100000x128, .f32⟩ : BufTy).Contents (Elt Ideal))
    (C : (⟨Cert.ReferenceIdeal.S100000x1, .f32⟩ : BufTy).Contents (Elt Ideal))
    (B : (⟨Cert.ReferenceIdeal.S1x128, .f32⟩ : BufTy).Contents (Elt Ideal)) (r : Fin 100000) (j : Fin 128) :
    refCombine (F := Ideal) A H C B (ix2 r j)
      = A (ix2 r j) + C (ix2 r (0 : Fin 1)) * H (ix2 r j) + B (ix2 (0 : Fin 1) j) := by
  unfold refCombine
  rw [addf_apply, addf_apply, mulf_apply, broadcastInDim_a1_ab_apply, broadcastInDim_1b_ab_apply]

/-- The printed index maps over the grid: the row-blocked windows sit at block row `t`, column block 0; the bias row
    at block (0, 0) throughout. -/
theorem cb5_idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- One entry of one block: when the four block entries the payload reads at `(p, q)` are the array entries at
    `(r, q)`, `(r, q)`, `(r, 0)` and `(0, q)`, the payload there is the reference's value at `(r, q)`. -/
theorem cb5_point (x0 x1 : Vec Ideal S2000x128 .f32) (x2 : Vec Ideal S2000x1 .f32) (x3 : Vec Ideal S1x128 .f32)
    (A H : (⟨Cert.ReferenceIdeal.S100000x128, .f32⟩ : BufTy).Contents (Elt Ideal))
    (C : (⟨Cert.ReferenceIdeal.S100000x1, .f32⟩ : BufTy).Contents (Elt Ideal))
    (B : (⟨Cert.ReferenceIdeal.S1x128, .f32⟩ : BufTy).Contents (Elt Ideal))
    (p : Fin 2000) (q : Fin 128) (r : Fin 100000)
    (h0 : x0 (ix2 p q) = A (ix2 r q)) (h1 : x1 (ix2 p q) = H (ix2 r q))
    (h2 : x2 (ix2 p (0 : Fin 1)) = C (ix2 r (0 : Fin 1))) (h3 : x3 (ix2 (0 : Fin 1) q) = B (ix2 (0 : Fin 1) q)) :
    k5_pay1 (F := Ideal) x0 x2 x1 x3 (ix2 p q) = refCombine (F := Ideal) A H C B (ix2 r q) := by
  rw [cb5_pay_apply, cb5_ref_apply, h0, h1, h2, h3]

/-- The aggregated block at point `t` holds rows `2000 t … 2000 t + 1999` of its array. -/
theorem cb5_blk0_apply (c : Dev nD) (t : Fin cfg5.N) (p : Fin 2000) (q : Fin 128) (r : Fin 100000)
    (hr : r.val = t.val * 2000 + p.val) :
    (iblk5 V c 0 t : Vec Ideal S2000x128 .f32) (ix2 p q)
      = (V c (Pipeline.arrRef spec5 0) : S100000x128.Idx → Elt Ideal .f32) (ix2 r q) := by
  obtain ⟨e0, e1, -⟩ := cb5_idx_facts t
  unfold iblk5
  rw [View.read_apply]
  show (V c (Pipeline.arrRef spec5 0) : S100000x128.Idx → Elt Ideal .f32) _ = _
  refine congrArg (V c (Pipeline.arrRef spec5 0) : S100000x128.Idx → Elt Ideal .f32) (funext fun a => Fin.ext ?_)
  match a with
  | ⟨0, _⟩ => show win5_0.index t (0 : Fin 2) * 2000 + 1 * p.val = r.val; rw [e0, hr]; omega
  | ⟨1, _⟩ => show win5_0.index t (1 : Fin 2) * 128 + 1 * q.val = q.val; rw [e1]; omega

/-- The transformed block at point `t` holds the same rows of its array. -/
theorem cb5_blk1_apply (c : Dev nD) (t : Fin cfg5.N) (p : Fin 2000) (q : Fin 128) (r : Fin 100000)
    (hr : r.val = t.val * 2000 + p.val) :
    (iblk5 V c 1 t : Vec Ideal S2000x128 .f32) (ix2 p q)
      = (V c (Pipeline.arrRef spec5 1) : S100000x128.Idx → Elt Ideal .f32) (ix2 r q) := by
  obtain ⟨-, -, e0, e1, -⟩ := cb5_idx_facts t
  unfold iblk5
  rw [View.read_apply]
  show (V c (Pipeline.arrRef spec5 1) : S100000x128.Idx → Elt Ideal .f32) _ = _
  refine congrArg (V c (Pipeline.arrRef spec5 1) : S100000x128.Idx → Elt Ideal .f32) (funext fun a => Fin.ext ?_)
  match a with
  | ⟨0, _⟩ => show win5_1.index t (0 : Fin 2) * 2000 + 1 * p.val = r.val; rw [e0, hr]; omega
  | ⟨1, _⟩ => show win5_1.index t (1 : Fin 2) * 128 + 1 * q.val = q.val; rw [e1]; omega

/-- The coefficient block at point `t` holds the same rows of the coefficient column. -/
theorem cb5_blk2_apply (c : Dev nD) (t : Fin cfg5.N) (p : Fin 2000) (r : Fin 100000)
    (hr : r.val = t.val * 2000 + p.val) :
    (iblk5 V c 2 t : Vec Ideal S2000x1 .f32) (ix2 p (0 : Fin 1))
      = (V c (Pipeline.arrRef spec5 2) : S100000x1.Idx → Elt Ideal .f32) (ix2 r (0 : Fin 1)) := by
  obtain ⟨-, -, -, -, e0, e1, -⟩ := cb5_idx_facts t
  unfold iblk5
  rw [View.read_apply]
  show (V c (Pipeline.arrRef spec5 2) : S100000x1.Idx → Elt Ideal .f32) _ = _
  refine congrArg (V c (Pipeline.arrRef spec5 2) : S100000x1.Idx → Elt Ideal .f32) (funext fun a => Fin.ext ?_)
  match a with
  | ⟨0, _⟩ => show win5_2.index t (0 : Fin 2) * 2000 + 1 * p.val = r.val; rw [e0, hr]; omega
  | ⟨1, _⟩ => show win5_2.index t (1 : Fin 2) * 1 + 1 * 0 = 0; rw [e1]

/-- The bias block at every point is the whole bias row. -/
theorem cb5_blk3_apply (c : Dev nD) (t : Fin cfg5.N) (q : Fin 128) :
    (iblk5 V c 3 t : Vec Ideal S1x128 .f32) (ix2 (0 : Fin 1) q)
      = (V c (Pipeline.arrRef spec5 3) : S1x128.Idx → Elt Ideal .f32) (ix2 (0 : Fin 1) q) := by
  obtain ⟨-, -, -, -, -, -, e0, e1, -⟩ := cb5_idx_facts t
  unfold iblk5
  rw [View.read_apply]
  show (V c (Pipeline.arrRef spec5 3) : S1x128.Idx → Elt Ideal .f32) _ = _
  refine congrArg (V c (Pipeline.arrRef spec5 3) : S1x128.Idx → Elt Ideal .f32) (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

/-- Entry `(p, q)` of the output block at point `t` is entry `(2000 t + p, q)` of the output array. -/
theorem cb5_blk4_emb (t : Fin cfg5.N) (p : Fin 2000) (q : Fin 128) (r : Fin 100000)
    (hr : r.val = t.val * 2000 + p.val) :
    ((cfg5.win 4).blk t).view.emb (ix2 p q) = (ix2 r q : S100000x128.Idx) := by
  obtain ⟨-, -, -, -, -, -, -, -, e0, e1⟩ := cb5_idx_facts t
  funext a; apply Fin.ext
  match a with
  | ⟨0, _⟩ => show win5_4.index t (0 : Fin 2) * 2000 + 1 * p.val = r.val; rw [e0, hr]; omega
  | ⟨1, _⟩ => show win5_4.index t (1 : Fin 2) * 128 + 1 * q.val = q.val; rw [e1]; omega

/-- What point `t` writes back is block `t` of the reference's value of the entry arrays. -/
theorem cb5_flushed_eq (c : Dev nD) (t : Fin cfg5.N) :
    (dat5 (F := Ideal) V c).flushed 4 t = ((cfg5.win 4).blk t).view.read (Elt Ideal)
      (refCombine (F := Ideal) (V c (Pipeline.arrRef spec5 0)) (V c (Pipeline.arrRef spec5 1))
          (V c (Pipeline.arrRef spec5 2)) (V c (Pipeline.arrRef spec5 3))) := by
  show (cfg5.win 4).cut (grid5.coords t) ((dat5 (F := Ideal) V c).after 4 t) = _
  rw [after5_4]
  unfold out5_4
  rw [View.canon_unit_zero cb5_hz]
  simp only [View.ld_unit_zero (S := S2000x128) cb5_hz, View.ld_unit_zero (S := S2000x1) cb5_hz, View.ld_unit_zero (S := S1x128) cb5_hz]
  funext j
  obtain ⟨p, q, rfl⟩ : ∃ (p : Fin 2000) (q : Fin 128), j = ix2 p q := ⟨j 0, j 1, eq_ix2 j⟩
  have ht : t.val < 50 := t.isLt
  have hp : p.val < 2000 := p.isLt
  have hr : t.val * 2000 + p.val < 100000 := by omega
  rw [View.read_apply, cb5_blk4_emb t p q ⟨t.val * 2000 + p.val, hr⟩ rfl]
  exact cb5_point (iblk5 V c 0 t) (iblk5 V c 1 t) (iblk5 V c 2 t) (iblk5 V c 3 t)
    (V c (Pipeline.arrRef spec5 0)) (V c (Pipeline.arrRef spec5 1)) (V c (Pipeline.arrRef spec5 2)) (V c (Pipeline.arrRef spec5 3))
    p q ⟨t.val * 2000 + p.val, hr⟩ (cb5_blk0_apply V c t p q _ rfl) (cb5_blk1_apply V c t p q _ rfl)
    (cb5_blk2_apply V c t p _ rfl) (cb5_blk3_apply V c t q)

/-- An index of the output array is in point `t`'s block iff each coordinate is in the block's range on its axis. -/
theorem cb5_mem_blk (t : Fin cfg5.N) (i : S100000x128.Idx) :
    i ∈ ((cfg5.win 4).blk t).view.set ↔ ∀ a : Fin 2, win5_4.index t a * S2000x128.size a ≤ (i a).val
      ∧ (i a).val < win5_4.index t a * S2000x128.size a + S2000x128.size a := by
  show i ∈ ((View.whole (Pipeline.arrRef spec5 4)).slice (win5_4.rect t)).set ↔ _
  rw [View.set_slice_whole, Rect.mem_set_unit]
  exact Iff.rfl

/-- The 50 blocks tile the array: row `r` lies in the block of point `r / 2000`. -/
theorem cb5_cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 50 := (by decide : grid5.N = 50)
  have hlt : (i 0).val / 2000 < cfg5.N := by rw [hN]; omega
  obtain ⟨-, -, -, -, -, -, -, -, e0, e1⟩ := cb5_idx_facts ⟨(i 0).val / 2000, hlt⟩
  refine ⟨⟨(i 0).val / 2000, hlt⟩, flush5_4 _, ?_⟩
  rw [cb5_mem_blk]
  intro a
  match a with
  | ⟨0, _⟩ =>
    show win5_4.index ⟨(i 0).val / 2000, hlt⟩ (0 : Fin 2) * 2000 ≤ (i 0).val
      ∧ (i 0).val < win5_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win5_4.index ⟨(i 0).val / 2000, hlt⟩ (1 : Fin 2) * 128 ≤ (i 1).val
      ∧ (i 1).val < win5_4.index ⟨(i 0).val / 2000, hlt⟩ (1 : Fin 2) * 128 + 128
    rw [e1]; omega

/-- The output array after the region is the combine of the entry arrays. -/
theorem cb5_val (c : Dev nD) :
    (dat5 (F := Ideal) V c).arrAt 4 cfg5.N
      = refCombine (F := Ideal) (V c (Pipeline.arrRef spec5 0)) (V c (Pipeline.arrRef spec5 1))
          (V c (Pipeline.arrRef spec5 2)) (V c (Pipeline.arrRef spec5 3)) :=
  (dat5 (F := Ideal) V c).arrAt_eq_of_cover 4 _ (fun t _ => cb5_flushed_eq V c t) cb5_cover

end Cert.KernelIdeal.Hand

end
-- ==== Proof.KI.Br4.lean ====
/-
  The third layer of the kernel program against the reference, at the exact instance: the dense transform (region 4),
  the aggregation by destination, the bias as a row, and the combine (region 5; the last layer has no relu).
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Br3
import proofs.«403028_j84353157693520_1_alg».proof.Proof.KI.Seg4
import proofs.«403028_j84353157693520_1_alg».proof.Proof.KI.Seg5
import proofs.«403028_j84353157693520_1_alg».proof.Proof.KI.ValMM4
import proofs.«403028_j84353157693520_1_alg».proof.Proof.KI.ValCB5
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge
open Cert.ReferenceIdeal.Read (val_main_v1 val_main_v3 val_main_v15 val_main_v16 val_main_v32 val_main_v49 val_main_v51 val_main_v55 val_main_v58 val_main_v59 val_main_v92 val_main_v98 val_main_v101 val_main_v102 val_main_v135 val_main_v141 val_main_v143 val_main_v145 val_main_v146 val_main_v150 val_main_v159)

open Idealize.ShloMosaic.ValueIdx

/-! ## The fourth host stretch as functions of the buffers it reads, and the reference's stages of layer 3 -/

section Generic

variable {F : FTy → Type} [FloatOps F]

set_option maxHeartbeats 4000000 in
/-- The fourth host stretch leaves in the aggregate's buffer the aggregation of what it found in the features', the
    sources', the destinations' and the norm column's buffers. -/
theorem host5_agg (W : Valuation τ sig (Elt F)) :
    (StableHlo.after hostOps5 W (Proc.devRef .tc main_v92) : (⟨S100000x128, .f32⟩ : BufTy).Contents (Elt F))
      = aggOf (W (Proc.devRef .tc main_v75)) (W (Proc.devRef .tc main_v1)) (W (Proc.devRef .tc main_v3)) (W (Proc.devRef .tc main_v34)) := by
  after_results_simp
  rfl

set_option maxHeartbeats 4000000 in
/-- The fourth host stretch leaves in the bias row's buffer argument 8 reshaped to a row. -/
theorem host5_bias (W : Valuation τ sig (Elt F)) :
    (StableHlo.after hostOps5 W (Proc.devRef .tc main_v93) : (⟨S1x128, .f32⟩ : BufTy).Contents (Elt F))
      = shapeCast S1x128 (W (Proc.devRef .tc main_arg8) : (⟨S128, .f32⟩ : BufTy).Contents (Elt F)) shapeCasts_S128_S1x128 := by
  after_results_simp
  rfl

/-- The reference computes the norm column anew in layer 3: the same operations of the edge list as in layer 1. -/
theorem ref_norm3 (a1 : (⟨S2x600000, .i32⟩ : BufTy).Contents (Elt F)) :
    Cert.ReferenceIdeal.Read.val_main_v118 (F := F) a1 = val_main_v32 (F := F) a1 := by
  unfold Cert.ReferenceIdeal.Read.val_main_v118 Cert.ReferenceIdeal.Read.val_main_v117 Cert.ReferenceIdeal.Read.val_main_v116 Cert.ReferenceIdeal.Read.val_main_v115 Cert.ReferenceIdeal.Read.val_main_v114
    Cert.ReferenceIdeal.Read.val_main_v113 Cert.ReferenceIdeal.Read.val_main_v112 Cert.ReferenceIdeal.Read.val_main_c_24 Cert.ReferenceIdeal.Read.val_main_v111 Cert.ReferenceIdeal.Read.val_main_v110 Cert.ReferenceIdeal.Read.val_main_c_23
    Cert.ReferenceIdeal.Read.val_main_v109 Cert.ReferenceIdeal.Read.val_main_v108 Cert.ReferenceIdeal.Read.val_main_v107 Cert.ReferenceIdeal.Read.val_main_v106 Cert.ReferenceIdeal.Read.val_main_v105 Cert.ReferenceIdeal.Read.val_main_c_22
    Cert.ReferenceIdeal.Read.val_main_v104 Cert.ReferenceIdeal.Read.val_main_v103 Cert.ReferenceIdeal.Read.val_main_c_21
    val_main_v32 Cert.ReferenceIdeal.Read.val_main_v31 Cert.ReferenceIdeal.Read.val_main_v30 Cert.ReferenceIdeal.Read.val_main_v29 Cert.ReferenceIdeal.Read.val_main_v28
    Cert.ReferenceIdeal.Read.val_main_v27 Cert.ReferenceIdeal.Read.val_main_v26 Cert.ReferenceIdeal.Read.val_main_c_6 Cert.ReferenceIdeal.Read.val_main_v25 Cert.ReferenceIdeal.Read.val_main_v24 Cert.ReferenceIdeal.Read.val_main_c_5
    Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_c_4
    Cert.ReferenceIdeal.Read.val_main_v18 Cert.ReferenceIdeal.Read.val_main_v17 Cert.ReferenceIdeal.Read.val_main_c_3
  rfl

/-- The reference computes the coefficient column anew in layer 3: the same operations as in layer 1. -/
theorem ref_coef3 (a1 : (⟨S2x600000, .i32⟩ : BufTy).Contents (Elt F)) :
    Cert.ReferenceIdeal.Read.val_main_v137 (F := F) a1 = val_main_v51 (F := F) a1 := by
  unfold Cert.ReferenceIdeal.Read.val_main_v137 Cert.ReferenceIdeal.Read.val_main_v136 val_main_v51 Cert.ReferenceIdeal.Read.val_main_v50
  rfl

/-- The reference's aggregation of layer 3 is the same function of its own four stages. -/
theorem ref_agg3 (a0 : (⟨S100000x128, .f32⟩ : BufTy).Contents (Elt F)) (a1 : (⟨S2x600000, .i32⟩ : BufTy).Contents (Elt F))
    (a3 : (⟨S128x128, .f32⟩ : BufTy).Contents (Elt F)) (a4 : (⟨S128, .f32⟩ : BufTy).Contents (Elt F))
    (a5 : (⟨S128x128, .f32⟩ : BufTy).Contents (Elt F)) (a6 : (⟨S128, .f32⟩ : BufTy).Contents (Elt F))
    (a7 : (⟨S128x128, .f32⟩ : BufTy).Contents (Elt F)) :
    val_main_v135 (F := F) a0 a1 a3 a4 a5 a6 a7
      = aggOf (val_main_v102 (F := F) a0 a1 a3 a4 a5 a6 a7) (val_main_v1 (F := F) a1) (val_main_v3 (F := F) a1)
          (Cert.ReferenceIdeal.Read.val_main_v118 (F := F) a1) := by
  unfold val_main_v135 Cert.ReferenceIdeal.Read.val_main_v134 Cert.ReferenceIdeal.Read.val_main_v133 Cert.ReferenceIdeal.Read.val_main_v132 Cert.ReferenceIdeal.Read.val_main_v131 Cert.ReferenceIdeal.Read.val_main_c_29
    Cert.ReferenceIdeal.Read.val_main_v130 Cert.ReferenceIdeal.Read.val_main_v129 Cert.ReferenceIdeal.Read.val_main_c_28 Cert.ReferenceIdeal.Read.val_main_v128 Cert.ReferenceIdeal.Read.val_main_cst_27
    Cert.ReferenceIdeal.Read.val_main_v127 Cert.ReferenceIdeal.Read.val_main_v126 Cert.ReferenceIdeal.Read.val_main_v125 Cert.ReferenceIdeal.Read.val_main_v124 Cert.ReferenceIdeal.Read.val_main_v123
    Cert.ReferenceIdeal.Read.val_main_v122 Cert.ReferenceIdeal.Read.val_main_v121 Cert.ReferenceIdeal.Read.val_main_c_26 Cert.ReferenceIdeal.Read.val_main_v120 Cert.ReferenceIdeal.Read.val_main_v119 Cert.ReferenceIdeal.Read.val_main_c_25
  rfl

/-- A vector reshaped to a row is the reference's broadcast of it along a new leading axis. -/
theorem ref_bias3 (a8 : (⟨S128, .f32⟩ : BufTy).Contents (Elt F)) :
    shapeCast S1x128 a8 shapeCasts_S128_S1x128 = val_main_v141 (F := F) a8 := by
  unfold val_main_v141
  exact shapeCast_row_eq_bcast (a := 128) a8 _ _

/-- The reference's output of layer 3 is the combine of its four stages; the last layer has no relu. -/
theorem ref_out3 (a0 : (⟨S100000x128, .f32⟩ : BufTy).Contents (Elt F)) (a1 : (⟨S2x600000, .i32⟩ : BufTy).Contents (Elt F))
    (a3 : (⟨S128x128, .f32⟩ : BufTy).Contents (Elt F)) (a4 : (⟨S128, .f32⟩ : BufTy).Contents (Elt F))
    (a5 : (⟨S128x128, .f32⟩ : BufTy).Contents (Elt F)) (a6 : (⟨S128, .f32⟩ : BufTy).Contents (Elt F))
    (a7 : (⟨S128x128, .f32⟩ : BufTy).Contents (Elt F)) (a8 : (⟨S128, .f32⟩ : BufTy).Contents (Elt F)) :
    val_main_v143 (F := F) a0 a1 a3 a4 a5 a6 a7 a8
      = refCombine (F := F) (val_main_v135 (F := F) a0 a1 a3 a4 a5 a6 a7) (val_main_v102 (F := F) a0 a1 a3 a4 a5 a6 a7)
          (Cert.ReferenceIdeal.Read.val_main_v137 (F := F) a1) (val_main_v141 (F := F) a8) := by
  unfold val_main_v143 Cert.ReferenceIdeal.Read.val_main_v142 Cert.ReferenceIdeal.Read.val_main_v140 Cert.ReferenceIdeal.Read.val_main_v139 Cert.ReferenceIdeal.Read.val_main_v138 refCombine
  rfl

end Generic

variable {F : FTy → Type} [FloatOps F]

local notation "𝕄" => MT nD τ sig Unit (Elt F) ℕ (UR sig nD τ) ℕ

variable (m : (ℓ : Loc nD τ sig) → Buf (Elt Ideal) ℓ) (c : Dev nD)

set_option quotPrecheck false
/-- The launch contents of the eleven arguments. -/
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! ## What the items between the stages leave alone -/

/-- Region 3 changes its output array only. -/
theorem X7_of (r : Ref sig .tc) (h : r ≠ main_v74) : X7 m c r = X6 m c r :=
  Function.update_of_ne (StableHlo.devRef_ne_of_ne h) (o7 m c main_v74) (X6 m c)

/-- Region 4 changes its output array only. -/
theorem X8_of (r : Ref sig .tc) (h : r ≠ main_v75) : X8 m c r = X7 m c r :=
  Function.update_of_ne (StableHlo.devRef_ne_of_ne h) (o8 m c main_v75) (X7 m c)

/-- The fourth host stretch changes the buffers it writes only. -/
theorem X9_of (r : Ref sig .tc) (h : r ∉ hostOps5_W) : X9 m c r = X8 m c r :=
  StableHlo.after_of_writes_sub hostOps5 _ hostOps5_writes h

/-- A buffer that nothing from region 0 to region 3 writes is, at region 4's entry, as the first host stretch left it. -/
theorem br4_keep (r : Ref sig .tc) (h2 : r ≠ main_v35) (h3 : r ∉ hostOps1_W) (h4 : r ≠ main_v54) (h5 : r ≠ main_v55)
    (h6 : r ∉ hostOps3_W) (h7 : r ≠ main_v74) : X7 m c r = X1 m c r :=
  (X7_of m c r h7).trans <|
    (StableHlo.after_of_writes_sub hostOps3 _ hostOps3_writes h6 : X6 m c r = X5 m c r).trans <|
    (Function.update_of_ne (StableHlo.devRef_ne_of_ne h5) (o5 m c main_v55) (X4 m c) : X5 m c r = X4 m c r).trans <|
    (Function.update_of_ne (StableHlo.devRef_ne_of_ne h4) (o4 m c main_v54) (X3 m c) : X4 m c r = X3 m c r).trans <|
    (X3_of m c r h3).trans (X2_of m c r h2)

/-- The transformed features of layer 3. -/
theorem br4_h : X8 m c main_v75 = val_main_v102 (F := Ideal) x0 x1 x3 x4 x5 x6 x7 := by
  have e1 : X8 m c main_v75 = o8 m c main_v75 :=
    Function.update_self (Proc.devRef .tc main_v75 : DevRef τ sig) (o8 m c main_v75) (X7 m c)
  have a0 : rd (X7 m) c (Pipeline.arrRef spec4 0) = val_main_v101 (F := Ideal) x0 x1 x3 x4 x5 x6 := br3_out m c
  have a1 : rd (X7 m) c (Pipeline.arrRef spec4 1) = x7 :=
    (br4_keep m c main_arg7 (by decide) (by decide) (by decide) (by decide) (by decide) (by decide)).trans (br1_arg7 m c)
  rw [e1, o8_out m c, mm4_val (rd (X7 m)) c, a0, a1]
  rfl

/-- The aggregated messages of layer 3. -/
theorem br4_agg : X9 m c main_v92 = val_main_v135 (F := Ideal) x0 x1 x3 x4 x5 x6 x7 := by
  have e : X9 m c main_v92 = aggOf (X8 m c main_v75) (X8 m c main_v1) (X8 m c main_v3) (X8 m c main_v34) :=
    host5_agg (X8 m c)
  have k1 : X8 m c main_v1 = val_main_v1 (F := Ideal) x1 :=
    (X8_of m c main_v1 (by decide)).trans
      ((br4_keep m c main_v1 (by decide) (by decide) (by decide) (by decide) (by decide) (by decide)).trans (br1_row m c))
  have k3 : X8 m c main_v3 = val_main_v3 (F := Ideal) x1 :=
    (X8_of m c main_v3 (by decide)).trans
      ((br4_keep m c main_v3 (by decide) (by decide) (by decide) (by decide) (by decide) (by decide)).trans (br1_col m c))
  have k34 : X8 m c main_v34 = Cert.ReferenceIdeal.Read.val_main_v118 (F := Ideal) x1 :=
    (X8_of m c main_v34 (by decide)).trans
      ((br4_keep m c main_v34 (by decide) (by decide) (by decide) (by decide) (by decide) (by decide)).trans
        ((br1_norm m c).trans (ref_norm3 _).symm))
  rw [e, ref_agg3, br4_h m c, k1, k3, k34]

/-- The bias of layer 3 as a row. -/
theorem br4_bias : X9 m c main_v93 = val_main_v141 (F := Ideal) x8 := by
  have e : X9 m c main_v93 = shapeCast S1x128 (X8 m c main_arg8) shapeCasts_S128_S1x128 := host5_bias (X8 m c)
  have k8 : X8 m c main_arg8 = x8 :=
    (X8_of m c main_arg8 (by decide)).trans
      ((br4_keep m c main_arg8 (by decide) (by decide) (by decide) (by decide) (by decide) (by decide)).trans (br1_arg8 m c))
  rw [e, k8]
  exact ref_bias3 _

/-- The output of layer 3. -/
theorem br4_out : X10 m c main_v94 = val_main_v143 (F := Ideal) x0 x1 x3 x4 x5 x6 x7 x8 := by
  have e1 : X10 m c main_v94 = o10 m c main_v94 :=
    Function.update_self (Proc.devRef .tc main_v94 : DevRef τ sig) (o10 m c main_v94) (X9 m c)
  have a0 : rd (X9 m) c (Pipeline.arrRef spec5 0) = val_main_v135 (F := Ideal) x0 x1 x3 x4 x5 x6 x7 := br4_agg m c
  have a1 : rd (X9 m) c (Pipeline.arrRef spec5 1) = val_main_v102 (F := Ideal) x0 x1 x3 x4 x5 x6 x7 :=
    (X9_of m c main_v75 (by decide)).trans (br4_h m c)
  have a2 : rd (X9 m) c (Pipeline.arrRef spec5 2) = Cert.ReferenceIdeal.Read.val_main_v137 (F := Ideal) x1 :=
    (X9_of m c main_v18 (by decide)).trans ((X8_of m c main_v18 (by decide)).trans
      ((br4_keep m c main_v18 (by decide) (by decide) (by decide) (by decide) (by decide) (by decide)).trans
        ((br1_coef m c).trans (ref_coef3 _).symm)))
  have a3 : rd (X9 m) c (Pipeline.arrRef spec5 3) = val_main_v141 (F := Ideal) x8 := br4_bias m c
  rw [e1, o10_out m c, cb5_val (rd (X9 m)) c, a0, a1, a2, a3]
  exact (ref_out3 _ _ _ _ _ _ _ _).symm

end Cert.KernelIdeal.Hand

end
-- ==== Proof.LibScatter.lean ====
/-
  A row scatter-add read at an index, over the extended reals.  The operand is [N, C], the scatter indices a column
  [R, 1], the updates [R, C]: update row r is added onto operand row idx[r] (the index word read signed; a row landing
  outside the operand is dropped), so each operand element gains the sum of the updates of the rows that land on it.
-/
import Idealize.ShloMosaic.PureOps.Ideal
import Idealize.ShloMosaic.Lib.ValueIdx

noncomputable section

open scoped BigOperators

namespace Cert.LibScatter

open Idealize.ShloMosaic Idealize.ShloMosaic.ValueIdx

/-- The dimension numbers of a row scatter: update window axis 1, inserted window axis 0, the one index component
    addressing axis 0, the index vector along axis 1. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Facts
variable {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C)

/-- Operand axis 0 is inserted: no window coordinate there. -/
private theorem window0 : (rowScatter N R C wf).window (ix2 r k) 0 = 0 := rfl
/-- Operand axis 1 carries the update's column. -/
private theorem window1 : (rowScatter N R C wf).window (ix2 r k) 1 = k.val := rfl
/-- Operand axis 1 is not addressed by the index: its start is zero. -/
private theorem start1 : (rowScatter N R C wf).start (ix2 r k) idx 1 = 0 := rfl
/-- Operand axis 0 starts at row r's index word, read signed. -/
private theorem start0 : (rowScatter N R C wf).start (ix2 r k) idx 0 = (idx (ix2 r (⟨0, Nat.one_pos⟩ : Fin 1))).toInt := by
  unfold ScatterDims.start
  rw [dif_pos (show (0 : Fin 2) ∈ (rowScatter N R C wf).scatterDimsToOperandDims from List.mem_singleton.mpr rfl)]
  congr 2
  funext b
  refine Fin.ext ?_
  match b with
  | ⟨0, _⟩ => rfl
  | ⟨1, _⟩ => rfl
end Facts

/-- Update element (r, k) lands on operand element (p, k') exactly when row r's index word is p and the columns agree. -/
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (k' : Fin C) :
    (rowScatter N R C wf).resultIdx? (ix2 r k) idx = some (ix2 p k')
      ↔ (idx (ix2 r (⟨0, Nat.one_pos⟩ : Fin 1))).toInt = (p.val : ℤ) ∧ k = k' := by
  have hs0 := start0 wf idx r k
  have hs1 := start1 wf idx r k
  have hw0 := window0 wf r k
  have hw1 := window1 wf r k
  unfold ScatterDims.resultIdx?
  split
  · -- the landing point is inside the operand: compare it with (p, k') coordinate by coordinate
    rename_i h
    rw [Option.some.injEq]
    constructor
    · intro hf
      have h0 := congrArg Fin.val (congrFun hf 0)
      have h1 := congrArg Fin.val (congrFun hf 1)
      have hb0 := h 0
      have hb1 := h 1
      simp only [hs0, hs1, hw0, hw1] at h0 h1 hb0 hb1
      change _ = p.val at h0
      change _ = k'.val at h1
      refine ⟨by omega, Fin.ext (by omega)⟩
    · rintro ⟨hp, rfl⟩
      funext a
      refine Fin.ext ?_
      match a with
      | ⟨0, _⟩ =>
        show ((rowScatter N R C wf).start (ix2 r k) idx 0 + (rowScatter N R C wf).window (ix2 r k) 0).toNat = p.val
        rw [hs0, hw0, hp]; simp
      | ⟨1, _⟩ =>
        show ((rowScatter N R C wf).start (ix2 r k) idx 1 + (rowScatter N R C wf).window (ix2 r k) 1).toNat = k.val
        rw [hs1, hw1]; simp
  · -- the landing point is outside the operand: then the word cannot be a row p < N
    rename_i h
    constructor
    · intro hf; exact absurd hf (by simp)
    · rintro ⟨hp, rfl⟩
      exfalso
      apply h
      intro a
      match a with
      | ⟨0, _⟩ =>
        show 0 ≤ (rowScatter N R C wf).start (ix2 r k) idx 0 + (rowScatter N R C wf).window (ix2 r k) 0 ∧
          (rowScatter N R C wf).start (ix2 r k) idx 0 + (rowScatter N R C wf).window (ix2 r k) 0 < (N : ℤ)
        rw [hs0, hw0, hp]
        have := p.isLt
        constructor <;> omega
      | ⟨1, _⟩ =>
        show 0 ≤ (rowScatter N R C wf).start (ix2 r k) idx 1 + (rowScatter N R C wf).window (ix2 r k) 1 ∧
          (rowScatter N R C wf).start (ix2 r k) idx 1 + (rowScatter N R C wf).window (ix2 r k) 1 < (C : ℤ)
        rw [hs1, hw1]
        have := k.isLt
        constructor <;> omega

/-- THE ROW SCATTER-ADD READ AT (p, k): the operand there plus the sum, over the rows whose index word is p, of the
    update at column k. -/
theorem scatterAdd_row_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (k : Fin C) :
    Ideal.hostScatterAdd (rowScatter N R C wf) x idx upd (ix2 p k)
      = x (ix2 p k) + ∑ r ∈ Finset.univ.filter (fun r : Fin R => (idx (ix2 r (⟨0, Nat.one_pos⟩ : Fin 1))).toInt = (p.val : ℤ)),
          upd (ix2 r k) := by
  unfold Ideal.hostScatterAdd
  congr 1
  symm
  -- the update elements landing on (p, k) are exactly the (r, k) with row r's word equal to p
  refine Finset.sum_bij (fun r _ => ix2 r k) ?_ ?_ ?_ ?_
  · intro r hr
    rw [Finset.mem_filter] at hr ⊢
    exact ⟨Finset.mem_univ _, (rowScatter_resultIdx wf idx r k p k).mpr ⟨hr.2, rfl⟩⟩
  · intro r₁ _ r₂ _ h
    exact congrFun h 0
  · intro j hj
    obtain ⟨a, b, rfl⟩ : ∃ (a : Fin R) (b : Fin C), j = ix2 a b := ⟨j 0, j 1, eq_ix2 j⟩
    rw [Finset.mem_filter] at hj
    have hj2 := (rowScatter_resultIdx wf idx a b p k).mp hj.2
    refine ⟨a, ?_, ?_⟩
    · rw [Finset.mem_filter]; exact ⟨Finset.mem_univ _, hj2.1⟩
    · rw [hj2.2]
  · intro r _; rfl

end Cert.LibScatter

end
-- ==== Proof.LibSegNorm.lean ====
/-
  SEGMENT SUMS UNDER A SYMMETRIC NORMALISATION — a general lemma file (no program is named here).

  The setting. A table `L` of `N` rows and `C` columns, a list of `E` edges given by two columns of 32-bit row
  numbers (sources `is`, destinations `id`, each an `[E, 1]` array), and one factor `dinv n` per row. The
  AGGREGATION of per-edge rows `u : [E, C]` is the scatter-add into a zero `[N, C]` table: row `n` of the
  result is the sum of the rows `u e` over the edges `e` whose destination is `n`.

  The law (`agg_law`). Scaling each edge's row by BOTH endpoint factors and then aggregating,
      ∑_{e → n} L[src e] · (dinv[src e] · dinv[dst e]),
  is the same as aggregating the rows of the PRE-SCALED table `L[m] · dinv[m]` and scaling row `n` of the result
  once by `dinv[n]`,
      (∑_{e → n} L[src e] · dinv[src e]) · dinv[n],
  over the extended reals, for every `L`, as soon as each factor `dinv n` is a NONNEGATIVE REAL. Only that is
  needed: a nonnegative real factor distributes over every sum of extended reals, whatever its terms (even
  `⊤ + ⊥`), and multiplication of extended reals is associative and commutative everywhere.

  What the file states, in order:
    * the dimension numbers of the two gathers (a row of an `[N, C]` table, an entry of an `[N]` vector, each at
      an `[E, 1]` column of starts) and of the two scatters (a row into `[N, C]`, an entry into `[N]`), each an
      `abbrev` taking its well-formedness proof as an argument;
    * each gather read at an index: the operand at the start, read signed and clamped into `[0, N − 1]`
      (`rowGather_apply`, `vecGather_apply`);
    * each scatter's landing condition: edge `e`'s update lands on row `n` exactly when its start, read signed
      and NOT clamped, is `n` (`rowScatter_resultIdx`, `vecScatter_resultIdx`);
    * a nonnegative real factor through a finite sum (`sum_mul_coe`);
    * the law (`agg_law`);
    * the degree count: scatter-adding ones into zeros gives a natural number (`degree_real`).
-/
import Idealize.ShloMosaic.Lib.ValueIdx
import Mathlib.Data.EReal.Operations

noncomputable section

open scoped BigOperators

open Idealize.ShloMosaic

namespace SegNorm

open Idealize.ShloMosaic.ValueIdx

/-! ## The dimension numbers -/

/-- A ROW of an `[N, C]` table at each of `E` starts: the table's axis 0 is collapsed and start-indexed, its
    axis 1 is the result's offset axis, the index vector lies on axis 1 of the `[E, 1]` starts. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- An ENTRY of an `[N]` vector at each of `E` starts. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `E` rows of width `C` into an `[N, C]` table, row `e` at the start `e` names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `E` scalars into an `[N]` vector, scalar `e` at the start `e` names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The start of an edge -/

/-- The index `[e, 0]` of edge `e`'s start in an `[E, 1]` column. -/
abbrev eIdx {E : Nat} (e : Fin E) : (⟨2, ![E, 1]⟩ : Shape).Idx :=
  fun a => match a with | ⟨0, _⟩ => e | ⟨1, _⟩ => ⟨0, Nat.one_pos⟩

/-- Edge `e`'s start read signed and clamped into `[0, N − 1]`: the row a gather reads. -/
def clampRow {N E w : Nat} (hN : 0 < N) (idx : IVec ⟨2, ![E, 1]⟩ w) (e : Fin E) : Fin N :=
  ⟨min (idx (eIdx e)).toInt.toNat (N - 1), by omega⟩

theorem clampRow_val {N E w : Nat} (hN : 0 < N) (idx : IVec ⟨2, ![E, 1]⟩ w) (e : Fin E) :
    (clampRow hN idx e).val = min (idx (eIdx e)).toInt.toNat (N - 1) := rfl

/-- A start that is a row number is its own clamp. -/
theorem clampRow_of_eq {N E w : Nat} (hN : 0 < N) (idx : IVec ⟨2, ![E, 1]⟩ w) (e : Fin E) (n : Fin N)
    (h : (idx (eIdx e)).toInt = (n.val : Int)) : clampRow hN idx e = n := by
  apply Fin.ext
  rw [clampRow_val, h, Int.toNat_natCast]
  have := n.isLt
  omega

/-! ## The gathers read at an index -/

section Gather
variable {α : Type}

/-- The row gather's operand index on axis 0: the clamped start. -/
theorem rowGather_idx0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 0).val
      = min (idx (eIdx ⟨(y 0).val, idx2_lt0 y⟩)).toInt.toNat (N - 1) := by
  show (rowGatherDims N E C wf).start y idx 0 + (rowGatherDims N E C wf).batchCoord y 0
    + (rowGatherDims N E C wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx y ⟨List.idxOf (0 : Fin 2) (rowGatherDims N E C wf).startIndexMap,
      List.idxOf_lt_length_iff.2 (List.mem_singleton.mpr rfl)⟩ = eIdx ⟨(y 0).val, idx2_lt0 y⟩ := by
    funext b; refine Fin.ext ?_
    match b with
    | ⟨0, _⟩ => rfl
    | ⟨1, _⟩ => rfl
  rw [hsi]
  rfl

/-- The row gather's operand index on axis 1: the result's column. -/
theorem rowGather_idx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 1).val = (y 1).val := by
  show (rowGatherDims N E C wf).start y idx 1 + (rowGatherDims N E C wf).batchCoord y 1
    + (rowGatherDims N E C wf).offCoord y 1 = _
  rw [GatherDims.batchCoord_eq_zero _ _ _ List.not_mem_nil]
  have hns : (1 : Fin 2) ∉ (rowGatherDims N E C wf).startIndexMap := fun h =>
    absurd (congrArg Fin.val (List.mem_singleton.mp h)) Nat.one_ne_zero
  unfold GatherDims.start
  rw [dif_neg hns]
  simp only [Nat.add_zero, Nat.zero_add]
  rfl

/-- THE ROW GATHER READ AT `(e, c)`: the table at row `clamp (start e)`, column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 (clampRow hN idx ⟨(y 0).val, idx2_lt0 y⟩) ⟨(y 1).val, idx2_lt1 y⟩) := by
  unfold Host.gather
  congr 1
  funext a
  refine Fin.ext ?_
  match a with
  | ⟨0, _⟩ => exact rowGather_idx0 wf idx y
  | ⟨1, _⟩ => exact rowGather_idx1 wf idx y

/-- THE VECTOR GATHER READ AT `e`: the vector at entry `clamp (start e)`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow hN idx ⟨(y 0).val, (y 0).isLt⟩)) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = eIdx ⟨(y 0).val, (y 0).isLt⟩ := by
    funext b; refine Fin.ext ?_
    match b with
    | ⟨0, _⟩ => rfl
    | ⟨1, _⟩ => rfl
  rw [hsi]
  rfl

end Gather

/-! ## Where a scatter's update lands -/

section Scatter

/-- The row scatter's start on axis 0: edge `e`'s start, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (eIdx ⟨(j 0).val, idx2_lt0 j⟩)).toInt := by
  unfold ScatterDims.start
  rw [dif_pos (show (0 : Fin 2) ∈ (rowScatterDims N E C wf).scatterDimsToOperandDims from
    List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = eIdx ⟨(j 0).val, idx2_lt0 j⟩ := by
    funext b; refine Fin.ext ?_
    match b with
    | ⟨0, _⟩ => rfl
    | ⟨1, _⟩ => rfl
  rw [hsi]

/-- The row scatter's start on axis 1: none. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg (fun h => absurd (congrArg Fin.val (List.mem_singleton.mp h)) Nat.one_ne_zero)]

/-- The row scatter's window coordinate on axis 0 (the inserted axis): none. -/
theorem rowScatter_window0 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := rfl

/-- The row scatter's window coordinate on axis 1: the update's column. -/
theorem rowScatter_window1 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := rfl

/-- WHERE A ROW UPDATE LANDS: update `(e, c)` lands on `(n, c')` exactly when edge `e`'s start, read signed
    and not clamped, is `n`, and `c = c'`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatterDims N E C wf).resultIdx? j idx = some i
      ↔ (idx (eIdx ⟨(j 0).val, idx2_lt0 j⟩)).toInt = ((i 0).val : Int) ∧ (j 1).val = (i 1).val := by
  unfold ScatterDims.resultIdx?
  constructor
  · intro h
    split at h
    · rename_i hc
      have hi := Option.some.inj h
      have key : ∀ a, ((rowScatterDims N E C wf).start j idx a
          + ((rowScatterDims N E C wf).window j a : Int)).toNat = (i a).val :=
        fun a => congrArg Fin.val (congrFun hi a)
      have h0 := key 0
      have c0 := (hc 0).1
      have h1 := key 1
      rw [rowScatter_start0, rowScatter_window0] at h0 c0
      rw [rowScatter_start1, rowScatter_window1] at h1
      refine ⟨by omega, by omega⟩
    · exact absurd h (by simp)
  · rintro ⟨h0, h1⟩
    have hi0 := idx2_lt0 i
    have hj1 := idx2_lt1 j
    have hc : ∀ a, 0 ≤ (rowScatterDims N E C wf).start j idx a + ((rowScatterDims N E C wf).window j a : Int)
        ∧ (rowScatterDims N E C wf).start j idx a + ((rowScatterDims N E C wf).window j a : Int)
          < (((⟨2, ![N, C]⟩ : Shape).size a : Nat) : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [rowScatter_start0, rowScatter_window0, h0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [rowScatter_start1, rowScatter_window1]; omega
    rw [dif_pos hc]
    congr 1
    funext a; refine Fin.ext ?_
    match a with
    | ⟨0, _⟩ =>
      show ((rowScatterDims N E C wf).start j idx 0 + ((rowScatterDims N E C wf).window j 0 : Int)).toNat = (i 0).val
      rw [rowScatter_start0, rowScatter_window0, h0]; omega
    | ⟨1, _⟩ =>
      show ((rowScatterDims N E C wf).start j idx 1 + ((rowScatterDims N E C wf).window j 1 : Int)).toNat = (i 1).val
      rw [rowScatter_start1, rowScatter_window1, ← h1]; omega

/-- The vector scatter's start on its one axis: edge `e`'s start, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (eIdx ⟨(j 0).val, (j 0).isLt⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = eIdx ⟨(j 0).val, (j 0).isLt⟩ := by
    funext b; refine Fin.ext ?_
    match b with
    | ⟨0, _⟩ => rfl
    | ⟨1, _⟩ => rfl
  rw [hsi]
  rfl

/-- The vector scatter's window coordinate (its one axis is inserted): none. -/
theorem vecScatter_window0 {N E : Nat}
    (wf : ScatterDims.WF ⟨1, ![N]⟩ ⟨2, ![E, 1]⟩ ⟨1, ![E]⟩ [] [0] [0] 1)
    (j : (⟨1, ![E]⟩ : Shape).Idx) : (vecScatterDims N E wf).window j 0 = 0 := rfl

/-- WHERE A SCALAR UPDATE LANDS: update `e` lands on entry `n` exactly when edge `e`'s start, read signed and
    not clamped, is `n`. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i
      ↔ (idx (eIdx ⟨(j 0).val, (j 0).isLt⟩)).toInt = ((i 0).val : Int) := by
  unfold ScatterDims.resultIdx?
  constructor
  · intro h
    split at h
    · rename_i hc
      have hi := Option.some.inj h
      have h0 : ((vecScatterDims N E wf).start j idx 0
          + ((vecScatterDims N E wf).window j 0 : Int)).toNat = (i 0).val :=
        congrArg Fin.val (congrFun hi 0)
      have c0 := (hc 0).1
      rw [vecScatter_start0, vecScatter_window0] at h0 c0
      omega
    · exact absurd h (by simp)
  · intro h0
    have hi0 : (i 0).val < N := (i 0).isLt
    have hc : ∀ a, 0 ≤ (vecScatterDims N E wf).start j idx a + ((vecScatterDims N E wf).window j a : Int)
        ∧ (vecScatterDims N E wf).start j idx a + ((vecScatterDims N E wf).window j a : Int)
          < (((⟨1, ![N]⟩ : Shape).size a : Nat) : Int) := by
      intro a
      obtain rfl : a = 0 := Subsingleton.elim _ _
      show 0 ≤ (vecScatterDims N E wf).start j idx 0 + ((vecScatterDims N E wf).window j 0 : Int)
        ∧ (vecScatterDims N E wf).start j idx 0 + ((vecScatterDims N E wf).window j 0 : Int) < (N : Int)
      rw [vecScatter_start0, vecScatter_window0, h0]; omega
    rw [dif_pos hc]
    congr 1
    funext a; refine Fin.ext ?_
    obtain rfl : a = 0 := Subsingleton.elim _ _
    show ((vecScatterDims N E wf).start j idx 0 + ((vecScatterDims N E wf).window j 0 : Int)).toNat = (i 0).val
    rw [vecScatter_start0, vecScatter_window0, h0]; omega

end Scatter

/-! ## A nonnegative real factor through a finite sum -/

/-- A nonnegative real factor distributes over every finite sum of extended reals, whatever its terms. -/
theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-! ## The law -/

/-- THE LAW. With every factor `dinv n` a nonnegative real: aggregating (at the destinations `dst`) the rows of
    the pre-scaled table `L · dinv` read at the sources `src`, and scaling row `n` of the result by `dinv n`, is
    aggregating the rows of `L` read at the sources, each scaled by the product of its two endpoint factors. -/
theorem agg_law {N E C w v : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (L : (⟨2, ![N, C]⟩ : Shape).Idx → EReal) (dinv : (⟨1, ![N]⟩ : Shape).Idx → EReal)
    (hd : ∀ n, ∃ r : ℝ, 0 ≤ r ∧ dinv n = (r : EReal))
    (src : IVec ⟨2, ![E, 1]⟩ w) (dst : IVec ⟨2, ![E, 1]⟩ v) (i : (⟨2, ![N, C]⟩ : Shape).Idx) :
    (Ideal.hostScatterAdd (rowScatterDims N E C wfS) (fun _ => (0 : EReal)) dst
        (Host.gather (rowGatherDims N E C wfG) (fun p => L p * dinv (ix1 ⟨(p 0).val, idx2_lt0 p⟩)) src)) i
      * dinv (ix1 ⟨(i 0).val, idx2_lt0 i⟩)
    = Ideal.hostScatterAdd (rowScatterDims N E C wfS) (fun _ => (0 : EReal)) dst
        (fun j => Host.gather (rowGatherDims N E C wfG) L src j
          * (Host.gather (vecGatherDims N E wfg) dinv src (ix1 ⟨(j 0).val, idx2_lt0 j⟩)
            * Host.gather (vecGatherDims N E wfg) dinv dst (ix1 ⟨(j 0).val, idx2_lt0 j⟩))) i := by
  obtain ⟨r, hr, hdr⟩ := hd (ix1 ⟨(i 0).val, idx2_lt0 i⟩)
  unfold Ideal.hostScatterAdd
  rw [zero_add, zero_add, hdr, sum_mul_coe _ _ r hr]
  refine Finset.sum_congr rfl (fun j hj => ?_)
  have hland := (rowScatter_resultIdx wfS dst j i).mp (Finset.mem_filter.mp hj).2
  have e1 : clampRow hN dst ⟨(j 0).val, idx2_lt0 j⟩ = ⟨(i 0).val, idx2_lt0 i⟩ :=
    clampRow_of_eq hN dst _ _ hland.1
  beta_reduce
  rw [rowGather_apply hN wfG, rowGather_apply hN wfG, vecGather_apply hN wfg, vecGather_apply hN wfg]
  show L (ix2 (clampRow hN src ⟨(j 0).val, idx2_lt0 j⟩) ⟨(j 1).val, idx2_lt1 j⟩)
        * dinv (ix1 (clampRow hN src ⟨(j 0).val, idx2_lt0 j⟩)) * (r : EReal)
      = L (ix2 (clampRow hN src ⟨(j 0).val, idx2_lt0 j⟩) ⟨(j 1).val, idx2_lt1 j⟩)
        * (dinv (ix1 (clampRow hN src ⟨(j 0).val, idx2_lt0 j⟩))
          * dinv (ix1 (clampRow hN dst ⟨(j 0).val, idx2_lt0 j⟩)))
  rw [e1, hdr, mul_assoc]

/-! ## The degree count -/

/-- Scatter-adding ones into zeros counts: entry `n` is the number of edges whose start, read signed, is `n`. -/
theorem degree_eq_card {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    Ideal.hostScatterAdd (vecScatterDims N E wf) (fun _ => (0 : EReal)) idx (fun _ => (1 : EReal)) n
      = (((Finset.univ.filter (fun j : (⟨1, ![E]⟩ : Shape).Idx =>
          (idx (eIdx ⟨(j 0).val, (j 0).isLt⟩)).toInt = ((n 0).val : Int))).card : ℝ) : EReal) := by
  unfold Ideal.hostScatterAdd
  rw [zero_add, Finset.sum_const, nsmul_one, EReal.coe_coe_eq_natCast]
  congr 2
  exact Finset.filter_congr (fun j _ => vecScatter_resultIdx wf idx j n)

/-- … so it is a natural number, a nonnegative real. -/
theorem degree_real {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    ∃ k : ℕ, Ideal.hostScatterAdd (vecScatterDims N E wf) (fun _ => (0 : EReal)) idx (fun _ => (1 : EReal)) n
      = ((k : ℝ) : EReal) :=
  ⟨_, degree_eq_card wf idx n⟩

/-! ## The host's accumulating scatter at the ideal instance -/

/-- At the ideal instance the host's accumulating float scatter IS the exact sum (definitional). -/
theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

end SegNorm

end
-- ==== Proof.KI.ValPool.lean ====
/-
  The value of region 6 at the exact instance. The 64 x 128 output holds, for graph g and feature k, the sum over
  all 100000 nodes r of [id r = g] * h r k: each block of 2000 rows adds the product of its transposed one-hot matrix
  with its feature block, the one-hot entries being the reals 0 and 1, so a row whose id is g contributes its
  feature and every other row nothing; that is the sum of the features of the nodes whose id is g, what the
  reference's scatter-add of the feature rows by graph id leaves over zeros, an id outside [0, 64) landing nowhere on
  both sides. The 1 x 64 output holds at g the number of nodes whose id is g, the reference's scatter-add of ones.
  Only commutativity and associativity of the sum, 0 * x = 0 and 1 * x = x are used: no finiteness.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.RegPool6
import proofs.«403028_j84353157693520_1_alg».proof.Proof.KI.ValSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«403028_j84353157693520_1_alg».proof.Proof.LibScatter
import proofs.«403028_j84353157693520_1_alg».proof.Proof.LibSegNorm
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

open Idealize.ShloMosaic.ValueIdx
open scoped BigOperators

namespace Pool

/-! ## The payloads of one grid point, read at an index -/

/-- The one-bit word of a truth value, widened to 32 bits and read signed, is 1 or 0. -/
theorem ofBool_toInt (b : Bool) : ((BitVec.ofBool b).setWidth 32).toInt = if b then 1 else 0 := by
  cases b <;> decide

theorem sitofp_ideal (b : BitVec 32) : FloatOps.sitofp (F := Ideal) .f32 b = ((b.toInt : ℝ) : EReal) := rfl
theorem cmpi_at {s : Shape} {w : Nat} (p : CmpIPredicate) (x y : IVec s w) (i : s.Idx) : cmpi p x y i = IntOp.cmpi p (x i) (y i) := rfl
theorem cmpi_eq_word {w : Nat} (x y : BitVec w) : IntOp.cmpi .eq x y = BitVec.ofBool (x == y) := rfl

/-- The broadcast of the id column along the 64 lanes reads the row's id. -/
theorem bcast_col (v : S2000x1.Idx → BitVec 32) (h : S2000x1.Broadcasts S2000x64) (r : Fin 2000) (g : Fin 64) :
    broadcastTo S2000x64 v h (ix2 r g) = v (ix2 r (0 : Fin 1)) := by
  refine broadcastTo_apply v h (ix2 r g) (ix2 r (0 : Fin 1)) fun ax => ?_
  match ax with
  | ⟨0, _⟩ => rfl
  | ⟨1, _⟩ => rfl

/-- The indicator of "row id is the word g" as an extended real. -/
def ind (x : BitVec 32) (g : Fin 64) : EReal := if x = BitVec.ofNat 32 g.val then 1 else 0

/-- The one-hot matrix at (r, g): 1 when row r's id is the word g, else 0. -/
theorem onehot_apply (ids : Vec Ideal S2000x1 .i32) (r : Fin 2000) (g : Fin 64) :
    k6_pay3 (F := Ideal) ids (ix2 r g) = ind (ids (ix2 r (0 : Fin 1))) g := by
  unfold k6_pay3 ind
  dsimp only
  rw [sitofp_apply, extui_apply, sitofp_ideal, cmpi_at, bcast_col, shapeCast_self, iota_single_apply, cmpi_eq_word, ofBool_toInt]
  show (((if (ids (ix2 r (0 : Fin 1)) == BitVec.ofNat 32 g.val) = true then (1 : ℤ) else 0 : ℤ) : ℝ) : EReal) = _
  by_cases hq : ids (ix2 r (0 : Fin 1)) = BitVec.ofNat 32 g.val
  · rw [if_pos hq, if_pos (by simpa using hq)]; simp
  · rw [if_neg hq, if_neg (by simpa using hq)]; simp

/-! The product's operand indices: the contraction runs over the rows of both operands. -/
theorem lhs_pool_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
theorem lhs_pool_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_pool_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
theorem rhs_pool_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- The product of the transposed one-hot matrix with the feature block, at (g, k): the sum over the block's rows. -/
theorem pool_matmul_apply (L : FVec Ideal S2000x64 .bf16) (R : FVec Ideal S2000x128 .bf16) (g : Fin 64) (k : Fin 128) :
    matmul dot_S2000x64_S2000x128_S64x128_0_0_1_1_n_n none L R (constant (F := Ideal) S64x128 .f32 0x00000000#32) (ix2 g k)
      = ∑ r : Fin 2000, L (ix2 r g) * R (ix2 r k) := by
  simp only [matmul]
  rw [Ideal.matmul_constant_zero_apply, ← Equiv.sum_comp (ValueIdx.contrEquiv1 dot_S2000x64_S2000x128_S64x128_0_0_1_1_n_n 2000 rfl rfl).symm]
  refine Finset.sum_congr rfl fun r _ => ?_
  have hk := ValueIdx.contrEquiv1_symm_val dot_S2000x64_S2000x128_S64x128_0_0_1_1_n_n 2000 rfl rfl r
  have el : dot_S2000x64_S2000x128_S64x128_0_0_1_1_n_n.lhsIdx (ix2 g k) ((ValueIdx.contrEquiv1 dot_S2000x64_S2000x128_S64x128_0_0_1_1_n_n 2000 rfl rfl).symm r) = ix2 r g := funext fun a => Fin.ext (by
    match a with
    | ⟨0, _⟩ => exact (lhs_pool_0 _ _).trans hk
    | ⟨1, _⟩ => exact lhs_pool_1 _ _)
  have er : dot_S2000x64_S2000x128_S64x128_0_0_1_1_n_n.rhsIdx (ix2 g k) ((ValueIdx.contrEquiv1 dot_S2000x64_S2000x128_S64x128_0_0_1_1_n_n 2000 rfl rfl).symm r) = ix2 r k := funext fun a => Fin.ext (by
    match a with
    | ⟨0, _⟩ => exact (rhs_pool_0 _ _).trans hk
    | ⟨1, _⟩ => exact rhs_pool_1 _ _)
  rw [el, er]

/-- ONE STEP OF THE SUMS: the accumulator plus, over the block's rows, the feature of each row whose id is g. -/
theorem pay4_apply (ids : Vec Ideal S2000x1 .i32) (hb : Vec Ideal S2000x128 .f32) (acc : Vec Ideal S64x128 .f32) (g : Fin 64) (k : Fin 128) :
    k6_pay4 (F := Ideal) ids hb acc (ix2 g k) = acc (ix2 g k) + ∑ r : Fin 2000, ind (ids (ix2 r (0 : Fin 1))) g * hb (ix2 r k) := by
  unfold k6_pay4
  rw [shapeCast_self, addf_apply, pool_matmul_apply]
  refine congrArg (acc (ix2 g k) + ·) (Finset.sum_congr rfl fun r _ => ?_)
  rw [truncf_apply, truncf_apply, shapeCast_self, onehot_apply]

/-- The sums' accumulator starts at zero. -/
theorem pay1_apply (i : S64x128.Idx) : (k6_pay1 (F := Ideal)) i = 0 := by
  unfold k6_pay1
  rw [shapeCast_self]
  exact Ideal.ofBits_zero_f32

/-- The counts' accumulator starts at zero. -/
theorem pay2_apply (i : S1x64.Idx) : (k6_pay2 (F := Ideal)) i = 0 := by
  unfold k6_pay2
  rw [shapeCast_self]
  exact Ideal.ofBits_zero_f32

/-- ONE STEP OF THE COUNTS: the accumulator plus the number of the block's rows whose id is g. -/
theorem pay5_apply (ids : Vec Ideal S2000x1 .i32) (acc : Vec Ideal S1x64 .f32) (g : Fin 64) :
    k6_pay5 (F := Ideal) ids acc (ix2 (0 : Fin 1) g) = acc (ix2 (0 : Fin 1) g) + ∑ r : Fin 2000, ind (ids (ix2 r (0 : Fin 1))) g := by
  unfold k6_pay5
  rw [shapeCast_self, addf_apply, shapeCast_a_1a_apply]
  refine congrArg (acc (ix2 (0 : Fin 1) g) + ·) ?_
  refine (Ideal.multiReduction_add_single (k6_pay3 (F := Ideal) ids) 0x00000000#32 reduces_S2000x64_S64 (.inl rfl) rfl (ix1 g)).trans ?_
  show ∑ r : Fin 2000, k6_pay3 (F := Ideal) ids (reduces_S2000x64_S64.lift (ix1 g) r) = _
  refine Finset.sum_congr rfl fun r _ => ?_
  have e : reduces_S2000x64_S64.lift (ix1 g) r = ix2 r g := funext fun a => Fin.ext (by
    match a with
    | ⟨0, _⟩ => rfl
    | ⟨1, _⟩ => rfl)
  rw [e, onehot_apply]

/-! ## The accumulators after every point -/

/-- The feature array and the id column as the region finds them. -/
abbrev featArr (c : Dev nD) : S100000x128.Idx → EReal := V c (Pipeline.arrRef spec6 0)
abbrev idArr (c : Dev nD) : S100000x1.Idx → BitVec 32 := V c (Pipeline.arrRef spec6 1)

/-- The two input windows' block index at point t is (t, 0). -/
theorem idx_facts6 : ∀ t : Fin cfg6.N, win6_0.index t 0 = t.val ∧ win6_0.index t 1 = 0 ∧ win6_1.index t 0 = t.val ∧ win6_1.index t 1 = 0 :=
  (by decide +kernel : ∀ t : Fin grid6.N, win6_0.index t 0 = t.val ∧ win6_0.index t 1 = 0 ∧ win6_1.index t 0 = t.val ∧ win6_1.index t 1 = 0)

/-- Row r of the feature block at point t is row 2000 t + r of the feature array. -/
theorem feat_blk (c : Dev nD) (t : Fin cfg6.N) (r : Fin 2000) (k : Fin 128) (R : Fin 100000) (hR : R.val = 2000 * t.val + r.val) :
    (iblk6 (F := Ideal) V c 0 t : Vec Ideal S2000x128 .f32) (ix2 r k) = featArr V c (ix2 R k) := by
  have hi := idx_facts6 t
  unfold iblk6
  rw [View.read_apply]
  show V c (Pipeline.arrRef spec6 0) _ = V c (Pipeline.arrRef spec6 0) _
  congr 1
  funext a
  apply Fin.ext
  match a with
  | ⟨0, _⟩ => show win6_0.index t 0 * 2000 + 1 * r.val = R.val; rw [hi.1, hR]; omega
  | ⟨1, _⟩ => show win6_0.index t 1 * 128 + 1 * k.val = k.val; rw [hi.2.1]; omega

/-- Row r of the id block at point t is row 2000 t + r of the id column. -/
theorem id_blk (c : Dev nD) (t : Fin cfg6.N) (r : Fin 2000) (R : Fin 100000) (hR : R.val = 2000 * t.val + r.val) :
    (iblk6 (F := Ideal) V c 1 t : Vec Ideal S2000x1 .i32) (ix2 r (0 : Fin 1)) = idArr V c (ix2 R (0 : Fin 1)) := by
  have hi := idx_facts6 t
  unfold iblk6
  rw [View.read_apply]
  show V c (Pipeline.arrRef spec6 1) _ = V c (Pipeline.arrRef spec6 1) _
  congr 1
  funext a
  apply Fin.ext
  match a with
  | ⟨0, _⟩ => show win6_1.index t 0 * 2000 + 1 * r.val = R.val; rw [hi.2.2.1, hR]; omega
  | ⟨1, _⟩ => show win6_1.index t 1 * 1 + 1 * 0 = 0; rw [hi.2.2.2]

/-- Row R's share of entry (g, k): its feature when its id is g; rows past the array have no share. -/
def rowT (ids : S100000x1.Idx → BitVec 32) (h : S100000x128.Idx → EReal) (g : Fin 64) (k : Fin 128) (R : ℕ) : EReal :=
  if hR : R < 100000 then ind (ids (ix2 ⟨R, hR⟩ (0 : Fin 1))) g * h (ix2 ⟨R, hR⟩ k) else 0

/-- Row R's share of the count of g: one when its id is g. -/
def rowC (ids : S100000x1.Idx → BitVec 32) (g : Fin 64) (R : ℕ) : EReal :=
  if hR : R < 100000 then ind (ids (ix2 ⟨R, hR⟩ (0 : Fin 1))) g else 0

theorem N6 : cfg6.N = 50 := N_6

/-- What point t's block adds to entry (g, k): the shares of rows 2000 t … 2000 t + 1999. -/
theorem blk_sum (c : Dev nD) (t : Fin cfg6.N) (g : Fin 64) (k : Fin 128) :
    ∑ r : Fin 2000, ind ((iblk6 (F := Ideal) V c 1 t : Vec Ideal S2000x1 .i32) (ix2 r (0 : Fin 1))) g
        * (iblk6 (F := Ideal) V c 0 t : Vec Ideal S2000x128 .f32) (ix2 r k)
      = ∑ r ∈ Finset.range 2000, rowT (idArr V c) (featArr V c) g k (2000 * t.val + r) := by
  rw [Finset.sum_range]
  refine Finset.sum_congr rfl fun r _ => ?_
  have ht : t.val < 50 := lt_of_lt_of_eq t.isLt N6
  have hR : 2000 * t.val + r.val < 100000 := by omega
  unfold rowT
  rw [dif_pos hR, feat_blk V c t r k ⟨_, hR⟩ rfl, id_blk V c t r ⟨_, hR⟩ rfl]

/-- What point t's block adds to the count of g. -/
theorem blk_cnt (c : Dev nD) (t : Fin cfg6.N) (g : Fin 64) :
    ∑ r : Fin 2000, ind ((iblk6 (F := Ideal) V c 1 t : Vec Ideal S2000x1 .i32) (ix2 r (0 : Fin 1))) g
      = ∑ r ∈ Finset.range 2000, rowC (idArr V c) g (2000 * t.val + r) := by
  rw [Finset.sum_range]
  refine Finset.sum_congr rfl fun r _ => ?_
  have ht : t.val < 50 := lt_of_lt_of_eq t.isLt N6
  have hR : 2000 * t.val + r.val < 100000 := by omega
  unfold rowC
  rw [dif_pos hR, id_blk V c t r ⟨_, hR⟩ rfl]

/-- THE SUMS AFTER POINT n: entry (g, k) of the first accumulator is the sum of the shares of the rows below 2000 (n + 1). -/
theorem acc_sums (c : Dev nD) : ∀ (n : ℕ) (hn : n < cfg6.N) (g : Fin 64) (k : Fin 128),
    (accAt6 (F := Ideal) V c n hn).1 (ix2 g k) = ∑ R ∈ Finset.range (2000 * (n + 1)), rowT (idArr V c) (featArr V c) g k R
  | 0, hn, g, k => by
    show k6_pay4 (F := Ideal) (iblk6 V c 1 ⟨0, hn⟩) (iblk6 V c 0 ⟨0, hn⟩) (k6_pay1 (F := Ideal)) (ix2 g k) = _
    rw [pay4_apply, pay1_apply, zero_add, blk_sum V c ⟨0, hn⟩ g k]
    simp only [Nat.mul_zero, Nat.zero_add, Nat.mul_one]
  | n + 1, hn, g, k => by
    show k6_pay4 (F := Ideal) (iblk6 V c 1 ⟨n + 1, hn⟩) (iblk6 V c 0 ⟨n + 1, hn⟩) (accAt6 (F := Ideal) V c n (Nat.lt_of_succ_lt hn)).1 (ix2 g k) = _
    rw [pay4_apply, acc_sums c n (Nat.lt_of_succ_lt hn) g k, blk_sum V c ⟨n + 1, hn⟩ g k,
      show 2000 * (n + 1 + 1) = 2000 * (n + 1) + 2000 from by omega, Finset.sum_range_add]

/-- THE COUNTS AFTER POINT n: entry g of the second accumulator is the number of rows below 2000 (n + 1) whose id is g. -/
theorem acc_cnts (c : Dev nD) : ∀ (n : ℕ) (hn : n < cfg6.N) (g : Fin 64),
    (accAt6 (F := Ideal) V c n hn).2 (ix2 (0 : Fin 1) g) = ∑ R ∈ Finset.range (2000 * (n + 1)), rowC (idArr V c) g R
  | 0, hn, g => by
    show k6_pay5 (F := Ideal) (iblk6 V c 1 ⟨0, hn⟩) (k6_pay2 (F := Ideal)) (ix2 (0 : Fin 1) g) = _
    rw [pay5_apply, pay2_apply, zero_add, blk_cnt V c ⟨0, hn⟩ g]
    simp only [Nat.mul_zero, Nat.zero_add, Nat.mul_one]
  | n + 1, hn, g => by
    show k6_pay5 (F := Ideal) (iblk6 V c 1 ⟨n + 1, hn⟩) (accAt6 (F := Ideal) V c n (Nat.lt_of_succ_lt hn)).2 (ix2 (0 : Fin 1) g) = _
    rw [pay5_apply, acc_cnts c n (Nat.lt_of_succ_lt hn) g, blk_cnt V c ⟨n + 1, hn⟩ g,
      show 2000 * (n + 1 + 1) = 2000 * (n + 1) + 2000 from by omega, Finset.sum_range_add]

/-! ## From the accumulators to the two output arrays -/

theorem h49 : 49 < cfg6.N := lt_of_lt_of_eq (by decide) N6.symm

/-- The last point, the one that writes the outputs back. -/
abbrev tLast : Fin cfg6.N := ⟨49, h49⟩

/-- The one write-back of the sums writes the first accumulator as the last point leaves it: its block is the whole array. -/
theorem flushed_sums (c : Dev nD) (t : Fin cfg6.N) (hf : (cfg6.win 2).flush t = true) :
    (dat6 (F := Ideal) V c).flushed 2 t = ((cfg6.win 2).blk t).view.read (Elt Ideal) ((accAt6 (F := Ideal) V c 49 h49).1) := by
  have h1 : t.val = 49 := by have := (flush6_2 t).mp hf; have := lt_of_lt_of_eq t.isLt N6; omega
  obtain rfl : t = tLast := Fin.ext h1
  show (cfg6.win 2).cut (grid6.coords tLast) ((dat6 (F := Ideal) V c).after 2 tLast) = _
  rw [after6_2]
  have hz' : (fun a => win6_2.index tLast a * main_v95_0.ty.shape.size a) = fun _ => 0 := funext fun a => by fin_cases a <;> decide
  exact (Memref.read_access_unit_zero (Elt Ideal) main_v95_0 hz' (fun a => by rw [congrFun hz' a]; simp) _).symm

/-- So the first output array ends holding the first accumulator of the last point. -/
theorem final_sums (c : Dev nD) : (dat6 (F := Ideal) V c).arrAt 2 cfg6.N = (accAt6 (F := Ideal) V c 49 h49).1 :=
  (dat6 (F := Ideal) V c).arrAt_eq_of_cover 2 _ (flushed_sums V c) fun i =>
    ⟨tLast, (flush6_2 tLast).mpr rfl, by
      show i ∈ ((View.whole main_v95_0).slice (win6_2.rect tLast)).set
      rw [View.set_slice_whole, Rect.mem_set_unit]
      intro a
      have h0 : (i 0 : Nat) < 64 := (i 0).isLt
      have h1 : (i 1 : Nat) < 128 := (i 1).isLt
      match a with
      | ⟨0, _⟩ => show win6_2.index tLast 0 * win6_2.size 0 ≤ (i 0 : Nat) ∧ (i 0 : Nat) < win6_2.index tLast 0 * win6_2.size 0 + win6_2.xsize (grid6.coords tLast) 0
                  rw [show win6_2.index tLast 0 * win6_2.size 0 = 0 from by decide +kernel, show win6_2.xsize (grid6.coords tLast) 0 = 64 from by decide +kernel]; omega
      | ⟨1, _⟩ => show win6_2.index tLast 1 * win6_2.size 1 ≤ (i 1 : Nat) ∧ (i 1 : Nat) < win6_2.index tLast 1 * win6_2.size 1 + win6_2.xsize (grid6.coords tLast) 1
                  rw [show win6_2.index tLast 1 * win6_2.size 1 = 0 from by decide +kernel, show win6_2.xsize (grid6.coords tLast) 1 = 128 from by decide +kernel]; omega⟩

/-- The one write-back of the counts writes the second accumulator as the last point leaves it. -/
theorem flushed_cnts (c : Dev nD) (t : Fin cfg6.N) (hf : (cfg6.win 3).flush t = true) :
    (dat6 (F := Ideal) V c).flushed 3 t = ((cfg6.win 3).blk t).view.read (Elt Ideal) ((accAt6 (F := Ideal) V c 49 h49).2) := by
  have h1 : t.val = 49 := by have := (flush6_3 t).mp hf; have := lt_of_lt_of_eq t.isLt N6; omega
  obtain rfl : t = tLast := Fin.ext h1
  show (cfg6.win 3).cut (grid6.coords tLast) ((dat6 (F := Ideal) V c).after 3 tLast) = _
  rw [after6_3]
  have hz' : (fun a => win6_3.index tLast a * main_v95_1.ty.shape.size a) = fun _ => 0 := funext fun a => by fin_cases a <;> decide
  exact (Memref.read_access_unit_zero (Elt Ideal) main_v95_1 hz' (fun a => by rw [congrFun hz' a]; simp) _).symm

/-- So the second output array ends holding the second accumulator of the last point. -/
theorem final_cnts (c : Dev nD) : (dat6 (F := Ideal) V c).arrAt 3 cfg6.N = (accAt6 (F := Ideal) V c 49 h49).2 :=
  (dat6 (F := Ideal) V c).arrAt_eq_of_cover 3 _ (flushed_cnts V c) fun i =>
    ⟨tLast, (flush6_3 tLast).mpr rfl, by
      show i ∈ ((View.whole main_v95_1).slice (win6_3.rect tLast)).set
      rw [View.set_slice_whole, Rect.mem_set_unit]
      intro a
      have h0 : (i 0 : Nat) < 1 := (i 0).isLt
      have h1 : (i 1 : Nat) < 64 := (i 1).isLt
      match a with
      | ⟨0, _⟩ => show win6_3.index tLast 0 * win6_3.size 0 ≤ (i 0 : Nat) ∧ (i 0 : Nat) < win6_3.index tLast 0 * win6_3.size 0 + win6_3.xsize (grid6.coords tLast) 0
                  rw [show win6_3.index tLast 0 * win6_3.size 0 = 0 from by decide +kernel, show win6_3.xsize (grid6.coords tLast) 0 = 1 from by decide +kernel]; omega
      | ⟨1, _⟩ => show win6_3.index tLast 1 * win6_3.size 1 ≤ (i 1 : Nat) ∧ (i 1 : Nat) < win6_3.index tLast 1 * win6_3.size 1 + win6_3.xsize (grid6.coords tLast) 1
                  rw [show win6_3.index tLast 1 * win6_3.size 1 = 0 from by decide +kernel, show win6_3.xsize (grid6.coords tLast) 1 = 64 from by decide +kernel]; omega⟩

/-! ## The reference side -/

/-- A 32-bit word read signed is g (below 64) exactly when it is the word g. -/
theorem toInt_eq_iff (x : BitVec 32) (g : Fin 64) : x.toInt = (g.val : ℤ) ↔ x = BitVec.ofNat 32 g.val := by
  have hg := g.isLt
  constructor
  · intro h
    apply BitVec.eq_of_toNat_eq
    rw [BitVec.toNat_ofNat]
    rw [BitVec.toInt_eq_toNat_cond] at h
    have := x.isLt
    split at h <;> omega
  · rintro rfl
    rw [BitVec.toInt_eq_toNat_cond, BitVec.toNat_ofNat]
    split <;> omega

theorem ind_eq (x : BitVec 32) (g : Fin 64) : ind x g = if x.toInt = (g.val : ℤ) then 1 else 0 := by
  unfold ind
  exact if_congr (toInt_eq_iff x g).symm rfl rfl

/-- A share taken when a condition holds is the condition's 0-or-1 times the share. -/
theorem ite_eq_ind_mul (p : Prop) [Decidable p] (x : EReal) : (if p then x else 0) = (if p then (1 : EReal) else 0) * x := by
  by_cases hp : p
  · rw [if_pos hp, if_pos hp, one_mul]
  · rw [if_neg hp, if_neg hp, zero_mul]

/-- The reference's two scatters are a row scatter onto [64, 128] and a scalar scatter onto [64], both by the id column. -/
theorem scatter_sums_eq : Cert.ReferenceIdeal.scatter_S64x128_S100000x1_S100000x128_1_0_0_1
    = Cert.LibScatter.rowScatter 64 100000 128 Cert.ReferenceIdeal.Gen.scatter_S64x128_S100000x1_S100000x128_1_0_0_1_wf := rfl
theorem scatter_cnts_eq : Cert.ReferenceIdeal.scatter_S64_S100000x1_S100000_n_0_0_1
    = SegNorm.vecScatterDims 64 100000 Cert.ReferenceIdeal.Gen.scatter_S64_S100000x1_S100000_n_0_0_1_wf := rfl

/-- THE REFERENCE'S SUMS AT (g, k): the features at column k of the rows whose id is g, added over zero. -/
theorem refPoolSums_apply (ids : S100000x1.Idx → BitVec 32) (h : S100000x128.Idx → EReal) (g : Fin 64) (k : Fin 128) :
    refPoolSums (F := Ideal) ids h (ix2 g k) = ∑ R : Fin 100000, ind (ids (ix2 R (0 : Fin 1))) g * h (ix2 R k) := by
  unfold refPoolSums
  rw [SegNorm.scatterAdd_ideal, scatter_sums_eq, Cert.LibScatter.scatterAdd_row_apply,
    broadcastInDim_scalar_apply, constant_apply, Ideal.ofBits_zero_f32, zero_add, Finset.sum_filter]
  refine Finset.sum_congr rfl fun R _ => ?_
  rw [ind_eq]
  exact ite_eq_ind_mul _ _

/-- The rank-1 indices of the 100000 nodes are the nodes. -/
def nodeEquiv : Fin 100000 ≃ (⟨1, ![100000]⟩ : Shape).Idx where
  toFun R := ix1 R
  invFun j := j 0
  left_inv _ := rfl
  right_inv j := (eq_ix1 j).symm

/-- THE REFERENCE'S COUNTS AT g: one for every row whose id is g, added over zero. -/
theorem refPoolCounts_apply (ids : S100000x1.Idx → BitVec 32) (g : Fin 64) :
    refPoolCounts (F := Ideal) ids (ix1 g) = ∑ R : Fin 100000, ind (ids (ix2 R (0 : Fin 1))) g := by
  unfold refPoolCounts
  rw [SegNorm.scatterAdd_ideal, scatter_cnts_eq]
  unfold Ideal.hostScatterAdd
  rw [broadcastInDim_scalar_apply, constant_apply, Ideal.ofBits_zero_f32, zero_add, Finset.sum_filter, ← Equiv.sum_comp nodeEquiv]
  refine Finset.sum_congr rfl fun R _ => ?_
  refine (if_congr (SegNorm.vecScatter_resultIdx Cert.ReferenceIdeal.Gen.scatter_S64_S100000x1_S100000_n_0_0_1_wf ids (nodeEquiv R) (ix1 g)) rfl rfl).trans ?_
  rw [ind_eq, broadcastInDim_scalar_apply, constant_apply, Ideal.ofBits_one_f32]
  have e : SegNorm.eIdx (⟨((nodeEquiv R) 0).val, ((nodeEquiv R) 0).isLt⟩ : Fin 100000) = ix2 R (0 : Fin 1) := funext fun a => by
    match a with
    | ⟨0, _⟩ => rfl
    | ⟨1, _⟩ => rfl
  rw [e]

/-- The first accumulator of the last point is the reference's pooled sums: both are, at (g, k), the sum over all
    100000 rows of the shares. -/
theorem acc_last_sums (c : Dev nD) :
    (accAt6 (F := Ideal) V c 49 h49).1 = refPoolSums (F := Ideal) (idArr V c) (featArr V c) := by
  funext i
  obtain ⟨g, k, rfl⟩ : ∃ (g : Fin 64) (k : Fin 128), i = ix2 g k := ⟨i 0, i 1, eq_ix2 i⟩
  rw [acc_sums V c 49 h49 g k, refPoolSums_apply, show (2000 * (49 + 1) : ℕ) = 100000 from rfl, Finset.sum_range]
  refine Finset.sum_congr rfl fun R _ => ?_
  unfold rowT
  rw [dif_pos R.isLt]

/-- The second accumulator of the last point at g is the reference's pooled count of g. -/
theorem acc_last_cnts (c : Dev nD) (g : Fin 64) :
    (accAt6 (F := Ideal) V c 49 h49).2 (ix2 (0 : Fin 1) g) = refPoolCounts (F := Ideal) (idArr V c) (ix1 g) := by
  rw [acc_cnts V c 49 h49 g, refPoolCounts_apply, show (2000 * (49 + 1) : ℕ) = 100000 from rfl, Finset.sum_range]
  refine Finset.sum_congr rfl fun R _ => ?_
  unfold rowC
  rw [dif_pos R.isLt]

end Pool

open Pool in
/-- The first output array after the region is the pooled sums of the feature array by the id column. -/
theorem pool_sums (c : Dev nD) :
    (dat6 (F := Ideal) V c).arrAt 2 cfg6.N
      = refPoolSums (F := Ideal) (V c (Pipeline.arrRef spec6 1)) (V c (Pipeline.arrRef spec6 0)) := by
  rw [final_sums]
  exact acc_last_sums V c

open Pool in
/-- The second output array after the region holds, at graph g, the pooled count of g. -/
theorem pool_counts (c : Dev nD) (g : Fin 64) :
    (dat6 (F := Ideal) V c).arrAt 3 cfg6.N (ValueIdx.ix2 (0 : Fin 1) g)
      = refPoolCounts (F := Ideal) (V c (Pipeline.arrRef spec6 1)) (ValueIdx.ix1 g) := by
  rw [final_cnts]
  exact acc_last_cnts V c g

end Cert.KernelIdeal.Hand

end
-- ==== Proof.KI.Br5.lean ====
/-
  The pooling and the head of the kernel program against the reference, at the exact instance: the pooled sums and
  counts (region 6 against the reference's two scatter-adds by graph id), the mean (the kernel program transposes its
  1 x 64 row of counts to a column, takes the maximum with one and broadcasts along the features; the reference
  takes the maximum on the vector and broadcasts along two new axes: entry (g, k) of both is max (count g, 1)), and
  the final linear map with its bias, the same host operations on both sides.
-/
import proofs.«403028_j84353157693520_1_alg».proof.Proof.Gen.KernelIdeal.Launch
import proofs.«403028_j84353157693520_1_alg».proof.Proof.Gen.KernelIdeal.Skeleton
import proofs.«403028_j84353157693520_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403028_j84353157693520_1_alg».proof.Proof.KI.Br4
import proofs.«403028_j84353157693520_1_alg».proof.Proof.KI.Seg6
import proofs.«403028_j84353157693520_1_alg».proof.Proof.KI.ValPool
import proofs.«403028_j84353157693520_1_alg».proof.Proof.KI.BrLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge
open Cert.ReferenceIdeal.Read (val_main_v1 val_main_v3 val_main_v15 val_main_v16 val_main_v32 val_main_v49 val_main_v51 val_main_v55 val_main_v58 val_main_v59 val_main_v92 val_main_v98 val_main_v101 val_main_v102 val_main_v135 val_main_v141 val_main_v143 val_main_v145 val_main_v146 val_main_v150 val_main_v159)

variable {F : FTy → Type} [FloatOps F]

local notation "𝕄" => MT nD τ sig Unit (Elt F) ℕ (UR sig nD τ) ℕ

variable (m : (ℓ : Loc nD τ sig) → Buf (Elt Ideal) ℓ) (c : Dev nD)

set_option quotPrecheck false
/-- The launch contents of the eleven arguments. -/
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! ## A buffer no item writes, across the stages -/

/-- A buffer that nothing up to and including region 6 writes holds, after region 6, what the launch memory held. -/
theorem X11_launch (r : Ref sig .tc) (h1 : r ∉ hostOps0_W) (h2 : r ∉ ([main_v35] : List (Ref sig .tc)))
    (h3 : r ∉ hostOps1_W) (h4 : r ∉ ([main_v54] : List (Ref sig .tc))) (h5 : r ∉ ([main_v55] : List (Ref sig .tc)))
    (h6 : r ∉ hostOps3_W) (h7 : r ∉ ([main_v74] : List (Ref sig .tc))) (h8 : r ∉ ([main_v75] : List (Ref sig .tc)))
    (h9 : r ∉ hostOps5_W) (h10 : r ∉ ([main_v94] : List (Ref sig .tc)))
    (h11 : r ∉ ([main_v95_0, main_v95_1] : List (Ref sig .tc))) :
    X11 m c r = m ((c : Thread nD τ).loc r) :=
  (V11_of m (outs m) c r h11).trans <| (V10_of m (outs m) c r h10).trans <| (V9_of m (outs m) c r h9).trans <|
    (V8_of m (outs m) c r h8).trans <| (V7_of m (outs m) c r h7).trans <| (V6_of m (outs m) c r h6).trans <|
    (V5_of m (outs m) c r h5).trans <| (V4_of m (outs m) c r h4).trans <| (V3_of m (outs m) c r h3).trans <|
    (V2_of m (outs m) c r h2).trans <| (V1_of m c r h1).trans rfl

/-- The id column is written by the first host stretch and by nothing after it: region 6 finds it as the first
    stretch left it. -/
theorem X10_ids : X10 m c main_v4 = X1 m c main_v4 :=
  (V10_of m (outs m) c main_v4 (by decide)).trans <| (V9_of m (outs m) c main_v4 (by decide)).trans <|
    (V8_of m (outs m) c main_v4 (by decide)).trans <| (V7_of m (outs m) c main_v4 (by decide)).trans <|
    (V6_of m (outs m) c main_v4 (by decide)).trans <| (V5_of m (outs m) c main_v4 (by decide)).trans <|
    (V4_of m (outs m) c main_v4 (by decide)).trans <| (V3_of m (outs m) c main_v4 (by decide)).trans <|
    (V2_of m (outs m) c main_v4 (by decide))

/-- The pooled sums. -/
theorem br5_sums : X11 m c main_v95_0 = val_main_v146 (F := Ideal) x0 x1 x2 x3 x4 x5 x6 x7 x8 := by
  have e0 : X11 m c main_v95_0 = o11 m c main_v95_0 :=
    (Function.update_of_ne v95_ne (o11 m c main_v95_1)
      (Function.update (X10 m c) (Proc.devRef .tc main_v95_0 : DevRef τ sig) (o11 m c main_v95_0))).trans
      (Function.update_self (Proc.devRef .tc main_v95_0 : DevRef τ sig) (o11 m c main_v95_0) (X10 m c))
  rw [e0, o11_out0, pool_sums (rd (X10 m)) c]
  show refPoolSums (F := Ideal) (X10 m c main_v4) (X10 m c main_v94) = _
  rw [X10_ids, br1_ids, br4_out]
  rfl

/-- The pooled counts: the kernel program's row at (0, g) is the reference's vector at g. -/
theorem br5_counts (g : Fin 64) : X11 m c main_v95_1 (ValueIdx.ix2 (0 : Fin 1) g) = val_main_v150 (F := Ideal) x2 (ValueIdx.ix1 g) := by
  have e1 : X11 m c main_v95_1 = o11 m c main_v95_1 :=
    Function.update_self (Proc.devRef .tc main_v95_1 : DevRef τ sig) (o11 m c main_v95_1)
      (Function.update (X10 m c) (Proc.devRef .tc main_v95_0 : DevRef τ sig) (o11 m c main_v95_0))
  rw [e1, o11_out1, pool_counts (rd (X10 m)) c g]
  show refPoolCounts (F := Ideal) (X10 m c main_v4) (ValueIdx.ix1 g) = _
  rw [X10_ids, br1_ids]
  rfl

/-! ## The head: the mean and the final linear map -/

/-- The denominator of the mean as the kernel program forms it: the 1 x 64 row of counts transposed to a column, its
    maximum with a column of ones, spread along the 128 features. -/
def denK (cnt : (⟨S1x64, .f32⟩ : BufTy).Contents (Elt Ideal)) : (⟨S64x128, .f32⟩ : BufTy).Contents (Elt Ideal) :=
  broadcastInDim S64x128 ![0, 1] bcast_S64x1_S64x128_0_1
    (maximumf (F := Ideal) (φ := .f32) (transpose S64x1 [1, 0] cnt transposes_S1x64_S64x1_1_0)
      (broadcastInDim S64x1 ![] bcast_S_S64x1 (constant (F := Ideal) S_ .f32 0x3F800000#32)))

/-- The denominator of the mean as the reference forms it: the maximum of the 64 counts with ones, laid as a column,
    spread along the 128 features. -/
def denR (cnt : (⟨Cert.ReferenceIdeal.S64, .f32⟩ : BufTy).Contents (Elt Ideal)) :
    (⟨Cert.ReferenceIdeal.S64x128, .f32⟩ : BufTy).Contents (Elt Ideal) :=
  broadcastInDim Cert.ReferenceIdeal.S64x128 ![0, 1] Cert.ReferenceIdeal.Gen.bcast_S64x1_S64x128_0_1
    (broadcastInDim Cert.ReferenceIdeal.S64x1 ![0] Cert.ReferenceIdeal.Gen.bcast_S64_S64x1_0
      (maximumf (F := Ideal) (φ := .f32) cnt (broadcastInDim Cert.ReferenceIdeal.S64 ![] Cert.ReferenceIdeal.Gen.bcast_S_S64
        (constant (F := Ideal) Cert.ReferenceIdeal.S_ .f32 0x3F800000#32))))

/-- What both programs do with the pooled sums s and a denominator d: the quotient s / d entry by entry, its product
    with the 128 x 2 weights, plus the bias spread over the 64 rows. -/
def headOf (s d : (⟨S64x128, .f32⟩ : BufTy).Contents (Elt Ideal)) (w : (⟨S128x2, .f32⟩ : BufTy).Contents (Elt Ideal))
    (b : (⟨S2, .f32⟩ : BufTy).Contents (Elt Ideal)) : (⟨S64x2, .f32⟩ : BufTy).Contents (Elt Ideal) :=
  addf (F := Ideal) (φ := .f32) (Host.dotGeneral (F := Ideal) (φ₁ := .f32) (φ₂ := .f32) dot_S64x128_S128x2_S64x2_1_0_0_1_n_n none (Host.divf (F := Ideal) (φ := .f32) s d) w)
    (broadcastInDim S64x2 ![0, 1] bcast_S1x2_S64x2_0_1 (broadcastInDim S1x2 ![1] bcast_S2_S1x2_1 b))

/-- The last host stretch, from any contents: the head of the pooled sums over the kernel program's denominator. -/
theorem host7_res (W : Valuation τ sig (Elt Ideal)) :
    StableHlo.after (hostOps7 (F := Ideal)) W (Proc.devRef .tc main_v104)
      = headOf (W main_v95_0) (denK (W main_v95_1)) (W main_arg9) (W main_arg10) := by
  after_results
  rfl

/-- The reference's result is the same head over the reference's denominator. -/
theorem ref_res : val_main_v159 (F := Ideal) x0 x1 x2 x3 x4 x5 x6 x7 x8 x9 x10
    = headOf (val_main_v146 (F := Ideal) x0 x1 x2 x3 x4 x5 x6 x7 x8) (denR (val_main_v150 (F := Ideal) x2)) x9 x10 :=
  rfl

/-- A column [a, 1] spread along b columns reads, at (r, k), the column at (r, 0). -/
theorem bcast_cols_apply {α : Type} {a b : ℕ} (x : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h x (ValueIdx.ix2 r k) = x (ValueIdx.ix2 r (0 : Fin 1)) :=
  broadcastInDim_apply _ h x _ _ (fun d => match d with
    | ⟨0, _⟩ => by
      show r.val = if a = 1 then 0 else r.val
      by_cases ha : a = 1
      · rw [if_pos ha]; have := r.isLt; omega
      · rw [if_neg ha]
    | ⟨1, _⟩ => by
      show 0 = if (1 : ℕ) = 1 then 0 else k.val
      rw [if_pos rfl])

/-- THE TWO DENOMINATORS ARE ONE ARRAY when the row of counts at (0, g) is the vector of counts at g: entry (g, k) of
    both is the maximum of that count with one. -/
theorem den_eq (cnt : (⟨S1x64, .f32⟩ : BufTy).Contents (Elt Ideal))
    (cntv : (⟨Cert.ReferenceIdeal.S64, .f32⟩ : BufTy).Contents (Elt Ideal))
    (h : ∀ g : Fin 64, cnt (ValueIdx.ix2 (0 : Fin 1) g) = cntv (ValueIdx.ix1 g)) : denK cnt = denR cntv := by
  funext i
  obtain ⟨g, k, rfl⟩ : ∃ (g : Fin 64) (k : Fin 128), i = ValueIdx.ix2 g k := ⟨i 0, i 1, ValueIdx.eq_ix2 i⟩
  unfold denK denR
  rw [bcast_cols_apply, bcast_cols_apply, bcast_col_apply, ValueIdx.maximumf_apply, ValueIdx.maximumf_apply,
    ValueIdx.transpose_ix2_apply, h g, ValueIdx.broadcastInDim_scalar_apply, ValueIdx.broadcastInDim_scalar_apply]

/-- THE RESULT: what the kernel program returns is the reference's result of the launch arguments. -/
theorem br5_res : X12 m c main_v104 = val_main_v159 (F := Ideal) x0 x1 x2 x3 x4 x5 x6 x7 x8 x9 x10 := by
  have hK : X12 m c main_v104
      = headOf (X11 m c main_v95_0) (denK (X11 m c main_v95_1)) (X11 m c main_arg9) (X11 m c main_arg10) :=
    host7_res (X11 m c)
  rw [hK, br5_sums, den_eq (X11 m c main_v95_1) (val_main_v150 (F := Ideal) x2) (br5_counts m c),
    X11_launch m c main_arg9 (by decide) (by decide) (by decide) (by decide) (by decide) (by decide) (by decide)
      (by decide) (by decide) (by decide) (by decide),
    X11_launch m c main_arg10 (by decide) (by decide) (by decide) (by decide) (by decide) (by decide) (by decide)
      (by decide) (by decide) (by decide) (by decide)]
  exact (ref_res m c).symm

end Cert.KernelIdeal.Hand

end
-- ==== Proof.lean ====
/-
  The certificate of a three-layer graph convolution with mean pooling and a linear head, computed by a program of
  seven kernel regions between host operations, against its reference.

  The frames. Each kernel region is a pipeline over blocks of 2000 rows whose body is run symbolically: a dense
  transform (a matrix-unit product of the block with the weight matrix), a combine (aggregate + coefficient * transform
  + bias, with a relu in the first two layers), and a pooling that keeps two accumulators in scratch from block to
  block and writes them out once, at the last block. The regions are composed with the host stretches in program
  order, each entered from the buffer contents the item before it left; no item writes an argument. This is done once,
  for any float instance, and read at the word level for the printed program and at the exact instance for its
  idealization. The reference is host operations only; its run is read back operation by operation.

  The idealization removes one round trip through bf16 (in the pooling's count of the one-hot matrix): its statement is
  the ledger's entry.

  The values, at the exact instance (floats are extended reals, every operation exact, a change of format the
  identity). A dense transform's output is, block by block, the sum over the 128 features of row entry times weight
  entry: the reference's matrix product. A combine's output is entry by entry the reference's expression. The
  pooling's accumulators after all fifty blocks hold, for graph g, the sum over the nodes of [id = g] times the
  node's feature, and the number of nodes with id g: since 0 * x = 0 and 1 * x = x for every extended real and sums
  may be regrouped freely, these are the reference's scatter-adds by graph id, an id outside [0, 64) counting nowhere
  on either side. Every other step — the degrees, their inverse square roots, the gathers along the edges and the
  scatter-adds by destination, the mean, the head — is the same host operation on both sides, applied to operands
  already shown equal; where the kernel program reshapes a vector into a column or a row and the reference broadcasts
  it along a new axis, the two arrays have the same entries. No step needs the inputs to be finite.
-/
import proofs.«403028_j84353157693520_1_alg».proof.Defs
import proofs.«403028_j84353157693520_1_alg».proof.Proof.Gen.Kernel
import proofs.«403028_j84353157693520_1_alg».proof.Proof.Gen.Kernel.Skeleton
import proofs.«403028_j84353157693520_1_alg».proof.Proof.Gen.Kernel.Launch
import proofs.«403028_j84353157693520_1_alg».proof.Proof.Gen.Kernel.Regions
import proofs.«403028_j84353157693520_1_alg».proof.Proof.Gen.Kernel.Points
import proofs.«403028_j84353157693520_1_alg».proof.Proof.Gen.KernelIdeal
import proofs.«403028_j84353157693520_1_alg».proof.Proof.Gen.KernelIdeal.Skeleton
import proofs.«403028_j84353157693520_1_alg».proof.Proof.Gen.KernelIdeal.Launch
import proofs.«403028_j84353157693520_1_alg».proof.Proof.Gen.KernelIdeal.Regions
import proofs.«403028_j84353157693520_1_alg».proof.Proof.Gen.KernelIdeal.Points
import proofs.«403028_j84353157693520_1_alg».proof.Proof.Gen.ReferenceIdeal
import proofs.«403028_j84353157693520_1_alg».proof.Proof.Gen.Pre_finite_inputs
import proofs.«403028_j84353157693520_1_alg».proof.Proof.Gen.ReferenceIdeal.Run
import proofs.«403028_j84353157693520_1_alg».proof.Proof.Gen.ReferenceIdeal.Read
import proofs.«403028_j84353157693520_1_alg».proof.Proof.K.Launch
import proofs.«403028_j84353157693520_1_alg».proof.Proof.KI.Launch
import proofs.«403028_j84353157693520_1_alg».proof.Proof.KI.Br5
import Idealize.ShloMosaic.Adequacy
import Idealize.ShloMosaic.Init

noncomputable section

namespace Cert.Proof

open Idealize.ShloMosaic Idealize.ShloMosaic.TcCoe Idealize.SL.Sem

/-- The printed program runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's one entry: widening to f32 what was rounded to bf16 from f32 is, at the exact instance, the value. -/
theorem preserves : Cert.preserves_Kernel_KernelIdeal :=
  IdealRules.truncf_extf.statement _ .f32 .bf16

/-- Both programs, run from memories that agree on the arguments, end with the same result: the kernel program's
    returned buffer is the reference's result function of the launch arguments (the last rung of the comparison), and
    so is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.X12 (F := Ideal) m c Cert.KernelIdeal.main_v104, Cert.KernelIdeal.Hand.run_res (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v159_eq, h0, h1, h2, h3, h4, h5, h6, h7, h8, h9, h10]
  exact (Cert.KernelIdeal.Hand.br5_res m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
